-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v60)) (v4 : (c : Dev Cert.KernelIdeal.nD) → Buf (Elt Ideal) ((c.tc : Thread Cert.KernelIdeal.nD Cert.KernelIdeal.τ).loc Cert.KernelIdeal.main_v62)) (v5 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v60) = v3 c
          ∧ r.2.mem ((c.tc : Thread Cert.KernelIdeal.nD Cert.KernelIdeal.τ).loc Cert.KernelIdeal.main_v62) = v4 c
          ∧ r.2.mem ((c.tc : Thread Cert.KernelIdeal.nD Cert.KernelIdeal.τ).loc Cert.KernelIdeal.main_v66) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x16 : Shape := ⟨2, ![512, 16]⟩
abbrev S16 : Shape := ⟨1, ![16]⟩
abbrev S8192x256 : Shape := ⟨2, ![8192, 256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S8192x256 : S_.BroadcastsInDim S8192x256 (![] : Fin 0 → Fin S8192x256.rank)
  reducesTo_S8192x256_S_d0_1 : S8192x256.ReducesTo [0, 1] S_
  bcast_S_S2x262144 : S_.BroadcastsInDim S2x262144 (![] : Fin 0 → Fin S2x262144.rank)
  reducesTo_S2x262144_S_d0_1 : S2x262144.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x262144 32) (main_arg15 : FVec F S16 .f32) (main_arg16 : FVec F S8192x256 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S8192x256 .f32 := Host.absf main_arg16
  let main_cst_28 : FVec F S_ .f32 := constant S_ .f32 0x7F800000#32
  let main_v75 : FVec F S8192x256 .f32 := broadcastInDim S8192x256 ![] bcast_S_S8192x256 main_cst_28
  let main_v76 : IVec S8192x256 1 := cmpf .olt main_v74 main_v75
  let main_c_29 : IVec S_ 1 := constantI S_ 1 1#1
  let main_v77 : IVec S_ 1 := (fun x v => Host.reduce IntOp.andi x v reducesTo_S8192x256_S_d0_1 h_S_) main_v76 main_c_29
  let main_v78 : IVec S_ 1 := andi main_v73 main_v77
  let main_c_30 : IVec S_ 32 := constantI S_ 32 0#32
  let main_v79 : IVec S2x262144 32 := broadcastInDim S2x262144 ![] bcast_S_S2x262144 main_c_30
  let main_v80 : IVec S2x262144 1 := cmpi .sge main_arg1 main_v79
  let main_c_31 : IVec S_ 32 := constantI S_ 32 8192#32
  let main_v81 : IVec S2x262144 32 := broadcastInDim S2x262144 ![] bcast_S_S2x262144 main_c_31
  let main_v82 : IVec S2x262144 1 := cmpi .slt main_arg1 main_v81
  let main_v83 : IVec S2x262144 1 := andi main_v80 main_v82
  let main_c_32 : IVec S_ 1 := constantI S_ 1 1#1
  let main_v84 : IVec S_ 1 := (fun x v => Host.reduce IntOp.andi x v reducesTo_S2x262144_S_d0_1 h_S_) main_v83 main_c_32
  fn_part5 (F := F) main_v78 main_v84

def fn_part3 {F : FTy → Type} [FloatOps F] (main_arg1 : IVec S2x262144 32) (main_arg12 : FVec F S256x512 .f32) (main_arg13 : FVec F S512 .f32) (main_arg14 : FVec F S512x16 .f32) (main_arg15 : FVec F S16 .f32) (main_arg16 : FVec F S8192x256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S256x512 .f32 := Host.absf main_arg12
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x16 .f32 := Host.absf main_arg14
  let main_cst_24 : FVec F S_ .f32 := constant S_ .f32 0x7F800000#32
  let main_v65 : FVec F S512x16 .f32 := broadcastInDim S512x16 ![] bcast_S_S512x16 main_cst_24
  let main_v66 : IVec S512x16 1 := cmpf .olt main_v64 main_v65
  let main_c_25 : IVec S_ 1 := constantI S_ 1 1#1
  let main_v67 : IVec S_ 1 := (fun x v => Host.reduce IntOp.andi x v reducesTo_S512x16_S_d0_1 h_S_) main_v66 main_c_25
  fn_part4 (F := F) main_arg1 main_arg15 main_arg16 main_v63 main_v67

def fn_part2 {F : FTy → Type} [FloatOps F] (main_arg1 : IVec S2x262144 32) (main_arg8 : FVec F S512x256 .f32) (main_arg9 : FVec F S256 .f32) (main_arg10 : FVec F S256x512 .f32) (main_arg11 : FVec F S512 .f32) (main_arg12 : FVec F S256x512 .f32) (main_arg13 : FVec F S512 .f32) (main_arg14 : FVec F S512x16 .f32) (main_arg15 : FVec F S16 .f32) (main_arg16 : FVec F S8192x256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg10
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_arg14 main_arg15 main_arg16 main_v48 main_v49 main_v50

def fn_part1 {F : FTy → Type} [FloatOps F] (main_arg1 : IVec S2x262144 32) (main_arg5 : FVec F S256 .f32) (main_arg6 : FVec F S512x256 .f32) (main_arg7 : FVec F S256 .f32) (main_arg8 : FVec F S512x256 .f32) (main_arg9 : FVec F S256 .f32) (main_arg10 : FVec F S256x512 .f32) (main_arg11 : FVec F S512 .f32) (main_arg12 : FVec F S256x512 .f32) (main_arg13 : FVec F S512 .f32) (main_arg14 : FVec F S512x16 .f32) (main_arg15 : FVec F S16 .f32) (main_arg16 : FVec F S8192x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S8192x512 .f32) (main_arg1 : IVec S2x262144 32) (main_arg2 : FVec F S512x512 .f32) (main_arg3 : FVec F S512 .f32) (main_arg4 : FVec F S512x256 .f32) (main_arg5 : FVec F S256 .f32) (main_arg6 : FVec F S512x256 .f32) (main_arg7 : FVec F S256 .f32) (main_arg8 : FVec F S512x256 .f32) (main_arg9 : FVec F S256 .f32) (main_arg10 : FVec F S256x512 .f32) (main_arg11 : FVec F S512 .f32) (main_arg12 : FVec F S256x512 .f32) (main_arg13 : FVec F S512 .f32) (main_arg14 : FVec F S512x16 .f32) (main_arg15 : FVec F S16 .f32) (main_arg16 : FVec F S8192x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x16 : Shape := ⟨2, ![512, 16]⟩
abbrev S16 : Shape := ⟨1, ![16]⟩
abbrev S8192x256 : Shape := ⟨2, ![8192, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x512 : Shape := ⟨2, ![1, 512]⟩
abbrev S1024x512 : Shape := ⟨2, ![1024, 512]⟩
abbrev S1024x2048 : Shape := ⟨2, ![1024, 2048]⟩
abbrev S2048x512 : Shape := ⟨2, ![2048, 512]⟩
abbrev S1024x256 : Shape := ⟨2, ![1024, 256]⟩
abbrev S1x256 : Shape := ⟨2, ![1, 256]⟩
abbrev S2048x256 : Shape := ⟨2, ![2048, 256]⟩
abbrev S1x16 : Shape := ⟨2, ![1, 16]⟩
abbrev S8192x16 : Shape := ⟨2, ![8192, 16]⟩
abbrev S1024x16 : Shape := ⟨2, ![1024, 16]⟩

abbrev nBuf : Space → Nat
  | .hbm => 103
  | .vmem => 66
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256x512, .f32⟩
  | .hbm, ⟨11, _⟩ => ⟨S512, .f32⟩
  | .hbm, ⟨12, _⟩ => ⟨S256x512, .f32⟩
  | .hbm, ⟨13, _⟩ => ⟨S512, .f32⟩
  | .hbm, ⟨14, _⟩ => ⟨S512x16, .f32⟩
  | .hbm, ⟨15, _⟩ => ⟨S16, .f32⟩
  | .hbm, ⟨16, _⟩ => ⟨S8192x256, .f32⟩
  | .hbm, ⟨17, _⟩ => ⟨S8192, .i32⟩
  | .hbm, ⟨18, _⟩ => ⟨S1x262144, .i32⟩
  | .hbm, ⟨19, _⟩ => ⟨S262144, .i32⟩
  | .hbm, ⟨20, _⟩ => ⟨S270336, .i32⟩
  | .hbm, ⟨21, _⟩ => ⟨S1x262144, .i32⟩
  | .hbm, ⟨22, _⟩ => ⟨S262144, .i32⟩
  | .hbm, ⟨23, _⟩ => ⟨S270336, .i32⟩
  | .hbm, ⟨24, _⟩ => ⟨S_, .f32⟩
  | .hbm, ⟨25, _⟩ => ⟨S270336, .f32⟩
  | .hbm, ⟨26, _⟩ => ⟨S_, .f32⟩
  | .hbm, ⟨27, _⟩ => ⟨S8192, .f32⟩
  | .hbm, ⟨28, _⟩ => ⟨S270336x1, .i32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .i1⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .i32⟩
  | .hbm, ⟨39, _⟩ => ⟨S270336, .i32⟩
  | .hbm, ⟨40, _⟩ => ⟨S270336, .i1⟩
  | .hbm, ⟨41, _⟩ => ⟨S_, .i32⟩
  | .hbm, ⟨42, _⟩ => ⟨S270336, .i32⟩
  | .hbm, ⟨43, _⟩ => ⟨S270336, .i32⟩
  | .hbm, ⟨44, _⟩ => ⟨S270336, .i32⟩
  | .hbm, ⟨45, _⟩ => ⟨S270336x1, .i32⟩
  | .hbm, ⟨46, _⟩ => ⟨S270336, .f32⟩
  | .hbm, ⟨47, _⟩ => ⟨S_, .i32⟩
  | .hbm, ⟨48, _⟩ => ⟨S270336, .i32⟩
  | .hbm, ⟨49, _⟩ => ⟨S270336, .i1⟩
  | .hbm, ⟨50, _⟩ => ⟨S_, .i32⟩
  | .hbm, ⟨51, _⟩ => ⟨S270336, .i32⟩
  | .hbm, ⟨52, _⟩ => ⟨S270336, .i32⟩
  | .hbm, ⟨53, _⟩ => ⟨S270336, .i32⟩
  | .hbm, ⟨54, _⟩ => ⟨S270336x1, .i32⟩
  | .hbm, ⟨55, _⟩ => ⟨S270336, .f32⟩
  | .hbm, ⟨56, _⟩ => ⟨S270336, .f32⟩
  | .hbm, ⟨57, _⟩ => ⟨S_, .f32⟩
  | .hbm, ⟨58, _⟩ => ⟨S8192x8192, .f32⟩
  | .hbm, ⟨59, _⟩ => ⟨S_, .i32⟩
  | .hbm, ⟨60, _⟩ => ⟨S270336, .i32⟩
  | .hbm, ⟨61, _⟩ => ⟨S270336, .i1⟩
  | .hbm, ⟨62, _⟩ => ⟨S_, .i32⟩
  | .hbm, ⟨63, _⟩ => ⟨S270336, .i32⟩
  | .hbm, ⟨64, _⟩ => ⟨S270336, .i32⟩
  | .hbm, ⟨65, _⟩ => ⟨S270336, .i32⟩
  | .hbm, ⟨66, _⟩ => ⟨S_, .i32⟩
  | .hbm, ⟨67, _⟩ => ⟨S270336, .i32⟩
  | .hbm, ⟨68, _⟩ => ⟨S270336, .i1⟩
  | .hbm, ⟨69, _⟩ => ⟨S_, .i32⟩
  | .hbm, ⟨70, _⟩ => ⟨S270336, .i32⟩
  | .hbm, ⟨71, _⟩ => ⟨S270336, .i32⟩
  | .hbm, ⟨72, _⟩ => ⟨S270336, .i32⟩
  | .hbm, ⟨73, _⟩ => ⟨S270336x1, .i32⟩
  | .hbm, ⟨74, _⟩ => ⟨S270336x1, .i32⟩
  | .hbm, ⟨75, _⟩ => ⟨S270336x2, .i32⟩
  | .hbm, ⟨76, _⟩ => ⟨S8192x8192, .f32⟩
  | .hbm, ⟨77, _⟩ => ⟨S8192x8192, .bf16⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S8192x512, .bf16⟩
  | .hbm, ⟨82, _⟩ => ⟨S1x512, .f32⟩
  | .hbm, ⟨83, _⟩ => ⟨S8192x512, .bf16⟩
  | .hbm, ⟨84, _⟩ => ⟨S512x512, .f32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S1x512, .f32⟩
  | .hbm, ⟨89, _⟩ => ⟨S8192x512, .bf16⟩
  | .hbm, ⟨90, _⟩ => ⟨S1x512, .f32⟩
  | .hbm, ⟨91, _⟩ => ⟨S8192x256, .f32⟩
  | .hbm, ⟨92, _⟩ => ⟨S8192x256, .f32⟩
  | .hbm, ⟨93, _⟩ => ⟨S8192x256, .f32⟩
  | .hbm, ⟨94, _⟩ => ⟨S1x256, .f32⟩
  | .hbm, ⟨95, _⟩ => ⟨S8192x256, .bf16⟩
  | .hbm, ⟨96, _⟩ => ⟨S8192x8192, .f32⟩
  | .hbm, ⟨97, _⟩ => ⟨S1x512, .f32⟩
  | .hbm, ⟨98, _⟩ => ⟨S8192x512, .f32⟩
  | .hbm, ⟨99, _⟩ => ⟨S1x512, .f32⟩
  | .hbm, ⟨100, _⟩ => ⟨S8192x512, .bf16⟩
  | .hbm, ⟨101, _⟩ => ⟨S1x16, .f32⟩
  | .hbm, ⟨102, _⟩ => ⟨S8192x16, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S512x512, .f32⟩
  | .local _ .vmem, ⟨17, _⟩ => ⟨S1x512, .f32⟩
  | .local _ .vmem, ⟨18, _⟩ => ⟨S1024x512, .bf16⟩
  | .local _ .vmem, ⟨19, _⟩ => ⟨S1024x512, .bf16⟩
  | .local _ .vmem, ⟨20, _⟩ => ⟨S1024x2048, .bf16⟩
  | .local _ .vmem, ⟨21, _⟩ => ⟨S1024x2048, .bf16⟩
  | .local _ .vmem, ⟨22, _⟩ => ⟨S2048x512, .bf16⟩
  | .local _ .vmem, ⟨23, _⟩ => ⟨S2048x512, .bf16⟩
  | .local _ .vmem, ⟨24, _⟩ => ⟨S1x512, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S512x256, .f32⟩
  | .local _ .vmem, ⟨37, _⟩ => ⟨S1x256, .f32⟩
  | .local _ .vmem, ⟨38, _⟩ => ⟨S1024x256, .f32⟩
  | .local _ .vmem, ⟨39, _⟩ => ⟨S1024x256, .f32⟩
  | .local _ .vmem, ⟨40, _⟩ => ⟨S1024x256, .bf16⟩
  | .local _ .vmem, ⟨41, _⟩ => ⟨S1024x256, .bf16⟩
  | .local _ .vmem, ⟨42, _⟩ => ⟨S1024x256, .bf16⟩
  | .local _ .vmem, ⟨43, _⟩ => ⟨S1024x256, .bf16⟩
  | .local _ .vmem, ⟨44, _⟩ => ⟨S2048x256, .bf16⟩
  | .local _ .vmem, ⟨45, _⟩ => ⟨S2048x256, .bf16⟩
  | .local _ .vmem, ⟨46, _⟩ => ⟨S1024x2048, .f32⟩
  | .local _ .vmem, ⟨47, _⟩ => ⟨S1024x2048, .f32⟩
  | .local _ .vmem, ⟨48, _⟩ => ⟨S1024x256, .f32⟩
  | .local _ .vmem, ⟨49, _⟩ => ⟨S1024x256, .f32⟩
  | .local _ .vmem, ⟨50, _⟩ => ⟨S256x512, .f32⟩
  | .local _ .vmem, ⟨51, _⟩ => ⟨S1x512, .f32⟩
  | .local _ .vmem, ⟨52, _⟩ => ⟨S1024x512, .f32⟩
  | .local _ .vmem, ⟨53, _⟩ => ⟨S1024x512, .f32⟩
  | .local _ .vmem, ⟨54, _⟩ => ⟨S1024x256, .f32⟩
  | .local _ .vmem, ⟨55, _⟩ => ⟨S1024x256, .f32⟩
  | .local _ .vmem, ⟨56, _⟩ => ⟨S256x512, .f32⟩
  | .local _ .vmem, ⟨57, _⟩ => ⟨S1x512, .f32⟩
  | .local _ .vmem, ⟨58, _⟩ => ⟨S1024x512, .bf16⟩
  | .local _ .vmem, ⟨59, _⟩ => ⟨S1024x512, .bf16⟩
  | .local _ .vmem, ⟨60, _⟩ => ⟨S1024x512, .bf16⟩
  | .local _ .vmem, ⟨61, _⟩ => ⟨S1024x512, .bf16⟩
  | .local _ .vmem, ⟨62, _⟩ => ⟨S512x16, .f32⟩
  | .local _ .vmem, ⟨63, _⟩ => ⟨S1x16, .f32⟩
  | .local _ .vmem, ⟨64, _⟩ => ⟨S1024x16, .f32⟩
  | .local _ .vmem, ⟨65, _⟩ => ⟨S1024x16, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_9 : Ref sig .tc := ⟨.hbm, 66, rfl⟩
abbrev main_v36 : Ref sig .tc := ⟨.hbm, 67, rfl⟩
abbrev main_v37 : Ref sig .tc := ⟨.hbm, 68, rfl⟩
abbrev main_c_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57_0 : Ref sig .tc := ⟨.hbm, 91, rfl⟩
abbrev main_v57_1 : Ref sig .tc := ⟨.hbm, 92, rfl⟩
abbrev main_v57_2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc3_stg6_0 : Ref sig .tc := ⟨.vmem, 31, rfl⟩
abbrev cc3_stg6_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem3_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem3_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1024x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1024x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  bitsLt_bf16_f32 : FTy.bits .bf16 < FTy.bits .f32
  bcast_S_S512 : S_.BroadcastsInDim S512 (![] : Fin 0 → Fin S512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  concatenates_S512x256_S512x256_S512x512_d1 : Shape.Concatenates [S512x256, S512x256] S512x512 1
  concatenates_S256_S256_S512_d0 : Shape.Concatenates [S256, S256] S512 0
  shapeCasts_S512x512_S512x512 : S512x512.ShapeCasts S512x512
  slices_S1024x512_o0_0_S1024x256 : S1024x512.Slices ![0, 0] S1024x256
  slices_S1024x512_o0_256_S1024x256 : S1024x512.Slices ![0, 256] S1024x256
  inb_S1024x256_S1024x256_0_0 : ∀ a, (![0, 0] : Fin 2 → Nat) a + S1024x256.size a ≤ S1024x256.size a
  h_S1024x256 : 0 < S1024x256.numel
  shapeCasts_S256_S1x256 : S256.ShapeCasts S1x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S16_S1x16 : S16.ShapeCasts S1x16
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S1024x512_S512x512_S1024x512_1_0_0_1_n_n_wf : DotDims.WF S1024x512 S512x512 S1024x512 [1] [0] [0] [1] [] []
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x256_S2048x256_S1024x2048_1_1_0_0_n_n_wf : DotDims.WF S1024x256 S2048x256 S1024x2048 [1] [1] [0] [0] [] []
  dot_S1024x256_S256x512_S1024x512_1_0_0_1_n_n_wf : DotDims.WF S1024x256 S256x512 S1024x512 [1] [0] [0] [1] [] []
  dot_S1024x512_S512x16_S1024x16_1_0_0_1_n_n_wf : DotDims.WF S1024x512 S512x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .bf16 = 32 ∨ (Rect.block (s := S8192x512) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .bf16 = 32 ∨ (Rect.block (s := S8192x512) S2048x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S8192x256.size a
  hwx3_4 : ∀ i : grid3.Coords, EltTy.bits .f32 = 32 ∨ (Rect.block (s := S8192x256) S1024x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x256.size a ≤ S8192x256.size a
  hwx3_5 : ∀ i : grid3.Coords, EltTy.bits .f32 = 32 ∨ (Rect.block (s := S8192x256) S1024x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x256.size a ≤ S8192x256.size a
  hwx3_6 : ∀ i : grid3.Coords, EltTy.bits .f32 = 32 ∨ (Rect.block (s := S8192x256) S1024x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .f32 = 32 ∨ (Rect.block (s := S8192x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S8192x256.size a
  hwx4_4 : ∀ i : grid4.Coords, EltTy.bits .bf16 = 32 ∨ (Rect.block (s := S8192x256) S1024x256.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S8192x256.size a
  hwx5_0 : ∀ i : grid5.Coords, EltTy.bits .bf16 = 32 ∨ (Rect.block (s := S8192x256) S1024x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S8192x256.size a
  hwx5_1 : ∀ i : grid5.Coords, EltTy.bits .bf16 = 32 ∨ (Rect.block (s := S8192x256) S2048x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S8192x8192.size a
  hwx5_2 : ∀ i : grid5.Coords, EltTy.bits .f32 = 32 ∨ (Rect.block (s := S8192x8192) S1024x2048.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S8192x256.size a
  hwx6_0 : ∀ i : grid6.Coords, EltTy.bits .f32 = 32 ∨ (Rect.block (s := S8192x256) S1024x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S8192x512.size a
  hwx6_3 : ∀ i : grid6.Coords, EltTy.bits .f32 = 32 ∨ (Rect.block (s := S8192x512) S1024x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x256.size a ≤ S8192x256.size a
  hwx7_0 : ∀ i : grid7.Coords, EltTy.bits .f32 = 32 ∨ (Rect.block (s := S8192x256) S1024x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x512.size a ≤ S256x512.size a
  hwx7_1 : ∀ i : grid7.Coords, EltTy.bits .f32 = 32 ∨ (Rect.block (s := S256x512) S256x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S8192x512.size a
  hwx7_3 : ∀ i : grid7.Coords, EltTy.bits .bf16 = 32 ∨ (Rect.block (s := S8192x512) S1024x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S8192x512.size a
  hwx8_0 : ∀ i : grid8.Coords, EltTy.bits .bf16 = 32 ∨ (Rect.block (s := S8192x512) S1024x512.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x16.size a ≤ S512x16.size a
  hwx8_1 : ∀ i : grid8.Coords, EltTy.bits .f32 = 32 ∨ (Rect.block (s := S512x16) S512x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x16.size a ≤ S8192x16.size a
  hwx8_3 : ∀ i : grid8.Coords, EltTy.bits .f32 = 32 ∨ (Rect.block (s := S8192x16) S1024x16.size (cc8_transform_3 i) (hinb8_3 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v50) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S1024x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57_0) S1024x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v57_1) S1024x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v57_2) S1024x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun i => !(k3_cond2 i == 1#1) | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_arg0) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57_2) S1024x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1024x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v59) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1024x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v57_2) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S1024x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v57_2) S1024x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S256x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v64) S1024x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v64) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg14) S512x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v65) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v66) S1024x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x16 : Shape := ⟨2, ![512, 16]⟩
abbrev S16 : Shape := ⟨1, ![16]⟩
abbrev S8192x256 : Shape := ⟨2, ![8192, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x512 : Shape := ⟨2, ![270336, 512]⟩
abbrev S1x512 : Shape := ⟨2, ![1, 512]⟩
abbrev S270336x256 : Shape := ⟨2, ![270336, 256]⟩
abbrev S1x256 : Shape := ⟨2, ![1, 256]⟩
abbrev S256x8192 : Shape := ⟨2, ![256, 8192]⟩
abbrev S8192x8192 : Shape := ⟨2, ![8192, 8192]⟩
abbrev S8192x16 : Shape := ⟨2, ![8192, 16]⟩
abbrev S1x16 : Shape := ⟨2, ![1, 16]⟩

abbrev nBuf : Space → Nat
  | .hbm => 157
  | .vmem => 0
  | .smem => 0
  | _ => 0

abbrev hbmTy0_0 (i : Nat) : BufTy := match i % 128 with
  | 0 => ⟨S8192x512, .f32⟩
  | 1 => ⟨S2x262144, .i32⟩
  | 2 => ⟨S512x512, .f32⟩
  | 3 => ⟨S512, .f32⟩
  | 4 => ⟨S512x256, .f32⟩
  | 5 => ⟨S256, .f32⟩
  | 6 => ⟨S512x256, .f32⟩
  | 7 => ⟨S256, .f32⟩
  | 8 => ⟨S512x256, .f32⟩
  | 9 => ⟨S256, .f32⟩
  | 10 => ⟨S256x512, .f32⟩
  | 11 => ⟨S512, .f32⟩
  | 12 => ⟨S256x512, .f32⟩
  | 13 => ⟨S512, .f32⟩
  | 14 => ⟨S512x16, .f32⟩
  | 15 => ⟨S16, .f32⟩
  | 16 => ⟨S8192x256, .f32⟩
  | 17 => ⟨S8192, .i32⟩
  | 18 => ⟨S1x262144, .i32⟩
  | 19 => ⟨S262144, .i32⟩
  | 20 => ⟨S270336, .i32⟩
  | 21 => ⟨S1x262144, .i32⟩
  | 22 => ⟨S262144, .i32⟩
  | 23 => ⟨S270336, .i32⟩
  | 24 => ⟨S_, .f32⟩
  | 25 => ⟨S270336, .f32⟩
  | 26 => ⟨S_, .f32⟩
  | 27 => ⟨S8192, .f32⟩
  | 28 => ⟨S270336x1, .i32⟩
  | 29 => ⟨S8192, .f32⟩
  | 30 => ⟨S_, .f32⟩
  | 31 => ⟨S8192, .f32⟩
  | 32 => ⟨S8192, .i1⟩
  | 33 => ⟨S8192, .f32⟩
  | 34 => ⟨S_, .f32⟩
  | 35 => ⟨S_, .f32⟩
  | 36 => ⟨S8192, .f32⟩
  | 37 => ⟨S8192, .f32⟩
  | 38 => ⟨S_, .i32⟩
  | 39 => ⟨S270336, .i32⟩
  | 40 => ⟨S270336, .i1⟩
  | 41 => ⟨S_, .i32⟩
  | 42 => ⟨S270336, .i32⟩
  | 43 => ⟨S270336, .i32⟩
  | 44 => ⟨S270336, .i32⟩
  | 45 => ⟨S270336x1, .i32⟩
  | 46 => ⟨S270336, .f32⟩
  | 47 => ⟨S_, .i32⟩
  | 48 => ⟨S270336, .i32⟩
  | 49 => ⟨S270336, .i1⟩
  | 50 => ⟨S_, .i32⟩
  | 51 => ⟨S270336, .i32⟩
  | 52 => ⟨S270336, .i32⟩
  | 53 => ⟨S270336, .i32⟩
  | 54 => ⟨S270336x1, .i32⟩
  | 55 => ⟨S270336, .f32⟩
  | 56 => ⟨S270336, .f32⟩
  | 57 => ⟨S270336x1, .f32⟩
  | 58 => ⟨S8192x512, .f32⟩
  | 59 => ⟨S_, .i32⟩
  | 60 => ⟨S270336, .i32⟩
  | 61 => ⟨S270336, .i1⟩
  | 62 => ⟨S_, .i32⟩
  | 63 => ⟨S270336, .i32⟩
  | 64 => ⟨S270336, .i32⟩
  | 65 => ⟨S270336, .i32⟩
  | 66 => ⟨S270336x1, .i32⟩
  | 67 => ⟨S270336x512, .f32⟩
  | 68 => ⟨S270336x512, .f32⟩
  | 69 => ⟨S270336x512, .f32⟩
  | 70 => ⟨S_, .f32⟩
  | 71 => ⟨S8192x512, .f32⟩
  | 72 => ⟨S270336x1, .i32⟩
  | 73 => ⟨S8192x512, .f32⟩
  | 74 => ⟨S1x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S8192x256, .f32⟩
  | 81 => ⟨S_, .i32⟩
  | 82 => ⟨S270336, .i32⟩
  | 83 => ⟨S270336, .i1⟩
  | 84 => ⟨S_, .i32⟩
  | 85 => ⟨S270336, .i32⟩
  | 86 => ⟨S270336, .i32⟩
  | 87 => ⟨S270336, .i32⟩
  | 88 => ⟨S270336x1, .i32⟩
  | 89 => ⟨S270336x256, .f32⟩
  | 90 => ⟨S270336x256, .f32⟩
  | 91 => ⟨S270336x256, .f32⟩
  | 92 => ⟨S_, .f32⟩
  | 93 => ⟨S8192x256, .f32⟩
  | 94 => ⟨S270336x1, .i32⟩
  | 95 => ⟨S8192x256, .f32⟩
  | 96 => ⟨S1x256, .f32⟩
  | 97 => ⟨S8192x256, .f32⟩
  | 98 => ⟨S8192x256, .f32⟩
  | 99 => ⟨S8192x256, .f32⟩
  | 100 => ⟨S_, .i32⟩
  | 101 => ⟨S270336, .i32⟩
  | 102 => ⟨S270336, .i1⟩
  | 103 => ⟨S_, .i32⟩
  | 104 => ⟨S270336, .i32⟩
  | 105 => ⟨S270336, .i32⟩
  | 106 => ⟨S270336, .i32⟩
  | 107 => ⟨S270336x1, .i32⟩
  | 108 => ⟨S270336x256, .f32⟩
  | 109 => ⟨S270336x256, .f32⟩
  | 110 => ⟨S270336x256, .f32⟩
  | 111 => ⟨S_, .f32⟩
  | 112 => ⟨S8192x256, .f32⟩
  | 113 => ⟨S270336x1, .i32⟩
  | 114 => ⟨S8192x256, .f32⟩
  | 115 => ⟨S1x256, .f32⟩
  | 116 => ⟨S8192x256, .f32⟩
  | 117 => ⟨S8192x256, .f32⟩
  | 118 => ⟨S_, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S1x256, .f32⟩
  | 126 => ⟨S8192x256, .f32⟩
  | 127 => ⟨S8192x256, .f32⟩
  | _ => ⟨S8192x512, .f32⟩

abbrev hbmTy0_1 (i : Nat) : BufTy := match i % 128 with
  | 0 => ⟨S_, .f32⟩
  | 1 => ⟨S8192x256, .f32⟩
  | 2 => ⟨S8192x256, .f32⟩
  | 3 => ⟨S8192x256, .f32⟩
  | 4 => ⟨S256x8192, .f32⟩
  | 5 => ⟨S8192x8192, .f32⟩
  | 6 => ⟨S8192x8192, .f32⟩
  | 7 => ⟨S8192x8192, .f32⟩
  | 8 => ⟨S_, .f32⟩
  | 9 => ⟨S8192x8192, .f32⟩
  | 10 => ⟨S8192x8192, .f32⟩
  | 11 => ⟨S_, .f32⟩
  | 12 => ⟨S8192x8192, .f32⟩
  | 13 => ⟨S8192x8192, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S1x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x16, .f32⟩
  | 26 => ⟨S1x16, .f32⟩
  | 27 => ⟨S8192x16, .f32⟩
  | 28 => ⟨S8192x16, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_12 : Ref sig .tc := ⟨.hbm, 100, rfl⟩
abbrev main_v65 : Ref sig .tc := ⟨.hbm, 101, rfl⟩
abbrev main_v66 : Ref sig .tc := ⟨.hbm, 102, rfl⟩
abbrev main_c_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call2_cst : Ref sig .tc := ⟨.hbm, 128, rfl⟩
abbrev main_call2_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_16 : Ref sig .tc := ⟨.hbm, 136, rfl⟩
abbrev main_v95 : Ref sig .tc := ⟨.hbm, 137, rfl⟩
abbrev main_v96 : Ref sig .tc := ⟨.hbm, 138, rfl⟩
abbrev main_cst_17 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_call3_cst : Ref sig .tc := ⟨.hbm, 150, rfl⟩
abbrev main_call3_v0 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x512_S512x512_S8192x512_1_0_0_1_n_n_wf : DotDims.WF S8192x512 S512x512 S8192x512 [1] [0] [0] [1] [] []
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x256_S8192x256_1_0_0_1_n_n_wf : DotDims.WF S8192x512 S512x256 S8192x256 [1] [0] [0] [1] [] []
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  dot_S8192x256_S256x8192_S8192x8192_1_0_0_1_n_n_wf : DotDims.WF S8192x256 S256x8192 S8192x8192 [1] [0] [0] [1] [] []
  dot_S8192x256_S256x512_S8192x512_1_0_0_1_n_n_wf : DotDims.WF S8192x256 S256x512 S8192x512 [1] [0] [0] [1] [] []
  dot_S8192x512_S512x16_S8192x16_1_0_0_1_n_n_wf : DotDims.WF S8192x512 S512x16 S8192x16 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf

class Facts : Prop extends Facts₀ where

variable [Facts]
-- ==== Proof.KI.Reg0.lean ====
/-
  Region 0 of the program, frame side: the windows' blocks as the region finds them, what the body leaves in each
  window's staging buffer, the pipeline's proof data and the body obligation at a generic grid point.
-/
import proofs.«416422_j54030688584368_1_alg».proof.Proof.Gen.KernelIdeal.Launch
import proofs.«416422_j54030688584368_1_alg».proof.Proof.Gen.KernelIdeal.Skeleton
import proofs.«416422_j54030688584368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows at a point

An input window whose body leaves its block in place holds, at every point, the block a fetch there would bring:
where the pipeline does not fetch (the weights and the bias row, whose block index is constant), the index has
not moved and the block of the point before is this point's block. Stated for any proof data with the region's
arrays and such an `after`. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's staging buffer, whole -/

abbrev r0_0 : Rect S1024x512 := Rect.unit (s := S1024x512) ![0, 0] S1024x512.size inb_S1024x512_S1024x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-! ## What the body leaves in the output window's buffer -/

/-- Window 3's staging buffer after the body, from the three input blocks: its one store, of the affine payload of
    the activations block, the weights and the bias row, over the whole buffer. -/
def out0_3 (x0 : Vec F S1024x512 .f32) (x1 : Vec F S512x512 .f32) (x2 : Vec F S1x512 .f32) : Vec F S1024x512 .bf16 :=
  View.canon [⟨r0_3, k0_pay1 (View.ld x0 r0_0) (View.ld x1 r0_1) (View.ld x2 r0_2)⟩]

/-- The one store is of the whole buffer, so it covers it. -/
theorem cover0_3 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

/-! ## The body's triple -/

set_option maxHeartbeats 1000000 in
/-- The kernel body on whole staging memrefs, the inputs' at read contents `x0 x1 x2` and the output's at anything,
    runs to the continuation holding the inputs' as they were and the output's at `out0_3` of the inputs': three
    whole loads, a load of the output buffer whose value nothing reads, and the one whole store. -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the three input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant at the first point, from the generator register and the scoped buffers no window stages. -/
theorem phi_in0 (c : Dev nD) : (iprop((∃ r, prngReg c r) ∗ Pipeline.scopedRest spec0 c) : sProp 𝕄) ⊢ (dat0 (F := F) V c).Φ 0 := by
  rw [show (dat0 (F := F) V c).Φ 0 = Pipeline.ΦA spec0 c from rfl]; unfold Pipeline.ΦA
  iintro ⟨Hp, Hr⟩
  isplitl [Hr]; · iexact Hr
  iexact Hp

/-- The invariant at the last point gives them back. -/
theorem phi_out0 (c : Dev nD) : (dat0 (F := F) V c).Φ (Fin.last cfg0.N) ⊢ (iprop((∃ r, prngReg c r) ∗ Pipeline.scopedRest spec0 c) : sProp 𝕄) := by
  rw [show (dat0 (F := F) V c).Φ (Fin.last cfg0.N) = Pipeline.ΦA spec0 c from rfl]; unfold Pipeline.ΦA
  iintro ⟨Hr, Hp⟩
  isplitl [Hp]; · iexact Hp
  iexact Hr

end Cert.KernelIdeal.Hand

end
-- ==== Proof.KI.Reg1.lean ====
/-
  Region 1 of the program, frame side: the windows' blocks as the region finds them, what the body leaves in each
  window's staging buffer, the pipeline's proof data and the body obligation at a generic grid point.
-/
import proofs.«416422_j54030688584368_1_alg».proof.Proof.Gen.KernelIdeal.Launch
import proofs.«416422_j54030688584368_1_alg».proof.Proof.Gen.KernelIdeal.Skeleton
import proofs.«416422_j54030688584368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each through the whole of its buffer -/

abbrev r1_A : Rect S1024x2048 := Rect.unit (s := S1024x2048) ![0, 0] S1024x2048.size inb_S1024x2048_S1024x2048_0_0
abbrev r1_H : Rect S2048x512 := Rect.unit (s := S2048x512) ![0, 0] S2048x512.size inb_S2048x512_S2048x512_0_0
abbrev r1_b : Rect S1x512 := Rect.unit (s := S1x512) ![0, 0] S1x512.size inb_S1x512_S1x512_0_0
abbrev r1_o : Rect S1024x512 := Rect.unit (s := S1024x512) ![0, 0] S1024x512.size inb_S1024x512_S1024x512_0_0
abbrev r1_s : Rect S1024x512 := Rect.unit (s := S1024x512) ![0, 0] S1024x512.size inb_S1024x512_S1024x512_0_0

/-- The accumulator as a memref: the whole scratch buffer. -/
abbrev scM1 : Memref sig .tc .vmem S1024x512 .f32 := Memref.whole cc1_scratch0

/-! ## The accumulator, point by point -/

/-- The accumulator after the reset at the first point of a row of the grid: the zero payload stored whole. -/
def zero1 : Vec F S1024x512 .f32 := View.canon [⟨r1_s, k1_pay1 (F := F)⟩]

/-- One accumulation: from the accumulator at s, the adjacency block a and the feature block h, the accumulator at
    s + a · h (the skeleton's payload, stored whole). -/
def step1 (s : Vec F S1024x512 .f32) (a : Vec F S1024x2048 .bf16) (h : Vec F S2048x512 .bf16) : Vec F S1024x512 .f32 :=
  View.canon [⟨r1_s, k1_pay2 (View.ld s r1_s) (View.ld a r1_A) (View.ld h r1_H)⟩]

/-- THE ACCUMULATION. What the accumulator holds after the body at position n: at the first point of a row of the grid
    (n % 4 = 0) one accumulation from the reset accumulator, at the others one accumulation from what the point before
    left. -/
def acc1 (c : Dev nD) : (n : ℕ) → n < cfg1.N → Vec F S1024x512 .f32
  | 0, hn => step1 (zero1 (F := F)) (iblk1 V c 0 ⟨0, hn⟩) (iblk1 V c 1 ⟨0, hn⟩)
  | n + 1, hn =>
    if (n + 1) % 4 = 0 then step1 (zero1 (F := F)) (iblk1 V c 0 ⟨n + 1, hn⟩) (iblk1 V c 1 ⟨n + 1, hn⟩)
    else step1 (acc1 c n (Nat.lt_of_succ_lt hn)) (iblk1 V c 0 ⟨n + 1, hn⟩) (iblk1 V c 1 ⟨n + 1, hn⟩)

/-- The accumulation at the first point of a row: one accumulation from the reset accumulator. -/
theorem acc1_reset (c : Dev nD) (t : Fin cfg1.N) (h0 : t.val % 4 = 0) :
    acc1 V c t.val t.isLt = step1 (zero1 (F := F)) (iblk1 V c 0 t) (iblk1 V c 1 t) := by
  obtain ⟨n, hn⟩ := t
  cases n with
  | zero => rfl
  | succ n => exact if_pos h0

/-- The accumulation at any other point: one accumulation from what the point before left. -/
theorem acc1_step (c : Dev nD) (t : Fin cfg1.N) (h0 : ¬t.val % 4 = 0) :
    acc1 V c t.val t.isLt
      = step1 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## What the body leaves in the output window's buffer at the last point of a row -/

/-- Window 3: the accumulator plus the bias row, clamped below at zero and rounded, stored whole. -/
def out1_3 (s : Vec F S1024x512 .f32) (b : Vec F S1x512 .f32) : Vec F S1024x512 .bf16 :=
  View.canon [⟨r1_o, k1_pay3 (View.ld s r1_s) (View.ld b r1_b)⟩]

/-! ## The invariant: the accumulator's contents between points -/

/-- The region invariant before position n: the accumulator at SOME contents before the first point, at what the point
    before left afterwards; every other scoped buffer no window stages, unopened; the generator register at some state. -/
def Phi1 (c : Dev nD) : (n : ℕ) → n ≤ cfg1.N → sProp 𝕄
  | 0, _ => iprop((∃ x, owns (c : Thread nD τ) scM1 fullShare x) ∗ Pipeline.scopedRestBut spec1 c [cc1_scratch0] ∗ (∃ r, prngReg c r))
  | n + 1, hn => iprop(owns (c : Thread nD τ) scM1 fullShare (acc1 V c n hn) ∗ Pipeline.scopedRestBut spec1 c [cc1_scratch0] ∗ (∃ r, prngReg c r))

/-! ## The pipeline's proof data -/

/-- The proof data of pipeline 1 on core c: the arrays as the region finds them; after the body each input's buffer at
    its block and the output's at its term over the accumulator (consulted only at the last point of a row, where the
    window is written back; elsewhere the window is idle); the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (acc1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (acc1 V c t.val t.isLt) (iblk1 V c 2 t) := by dsimp only [dat1]

/-! ## The body's two conditions -/

/-- The condition of the resetting conditional, as the kernel computes it. -/
def k1_cond1 (i : grid1.Coords) : BitVec 1 :=
  Scalar.cmpi .ne (Scalar.extui (Scalar.cmpi .eq (BitVec.ofNat 32 (i 1).val) 0#32) : BitVec 32) 0#32

/-- It holds exactly at the first point of a row, -/
theorem hcond1_1 : ∀ t : Fin cfg1.N, k1_cond1 (grid1.coords t) = 1#1 ↔ t.val % 4 = 0 :=
  (by decide +kernel : ∀ t : Fin grid1.N, k1_cond1 (grid1.coords t) = 1#1 ↔ t.val % 4 = 0)

/-- and the closing conditional's exactly at the last. -/
theorem hcond1_2 : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## A whole store read back -/

/-- One store through the whole-buffer rectangle tiles the buffer (checked by evaluation), so it covers it. -/
theorem cover1 {e : EltTy} (p0 : S1024x512.Idx → Elt F e) (y : S1024x512.Idx) :
    ∃ pc ∈ ([⟨r1_s, p0⟩] : List (View.Piece (Elt F) S1024x512 e)), y ∈ pc.1.set :=
  View.cover_of_tiled [⟨r1_s, p0⟩] S1024x512.size (by rfl) y

/-- Every index of the shape lies in that rectangle. -/
theorem mem1 {e : EltTy} (p0 : S1024x512.Idx → Elt F e) (y : S1024x512.Idx) : y ∈ (⟨r1_s, p0⟩ : View.Piece (Elt F) S1024x512 e).1.set := by
  obtain ⟨pc, hm, hy⟩ := cover1 p0 y
  rw [List.mem_singleton] at hm; subst hm; exact hy

/-- A buffer whose last store went through the whole-buffer rectangle reads as that one store's canon, whatever the
    earlier stores and the prior contents. -/
theorem read_last1 {κ : Kind} {sp : Space} {e : EltTy} (v : View sig κ sp S1024x512 e) (f : v.ty.Contents (Elt F))
    (w : S1024x512.Idx → Elt F e) (L : List (View.Piece (Elt F) S1024x512 e)) :
    v.read (Elt F) (v.writes (Elt F) f (⟨r1_s, w⟩ :: L)) = View.canon [⟨r1_s, w⟩] :=
  (View.read_writes_of_cover_last (v := v) (f := f) v f ⟨r1_s, w⟩ L [] (mem1 w)).trans
    (View.read_writes_eq_canon v f [⟨r1_s, w⟩] (cover1 w))

/-- A load through the whole-buffer rectangle of what one such store left reads that store's canon. -/
theorem readCov1 {κ : Kind} {sp : Space} {e : EltTy} (v : View sig κ sp S1024x512 e) (w : S1024x512.Idx → Elt F e) :
    v.readCov [⟨r1_s, w⟩] r1_s.toLoadRect = View.ld (View.canon [⟨r1_s, w⟩]) r1_s :=
  View.readCov_eq_canon_ld v [⟨r1_s, w⟩] r1_s (cover1 w)

/-! ## The body's triple, one per control case -/

set_option maxHeartbeats 1000000 in
/-- At the first point of a row (the reset taken, the closing conditional not): the inputs and the output window's buffer
    are handed back as found, the accumulator, found at anything, is left at one accumulation from the reset. -/
theorem run1_A (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x512 .f32) (harg6 : arg6.IsWhole)
    (hc1 : k1_cond1 i = 1#1) (hc2 : ¬k1_cond2 i = 1#1)
    (x0 : Vec F S1024x2048 .bf16) (x1 : Vec F S2048x512 .bf16) (x2 : Vec F S1x512 .f32) (x3 : Vec F S1024x512 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1 (zero1 (F := F)) x0 x1)) -∗ K ⟨⟩))
      ⊢ wp frame (wpE (defs₀ (F := F)) Variants.none c none) E (cc1__gcn_layer1_kernel i arg2 harg2 arg3 harg3 arg4 harg4 arg5 harg5 arg6 harg6) K := by
  simp only [cc1__gcn_layer1_kernel_eq_skeleton]; unfold cc1__gcn_layer1_kernel_skel
  unfold owns
  iintro ⟨⟨%f0, %hf0, H0⟩, ⟨%f1, %hf1, H1⟩, ⟨%f2, %hf2, H2⟩, ⟨%f3, %hf3, H3⟩, ⟨%s, %f6, -, H6⟩, Hk⟩
  subst hf0 hf1 hf2 hf3
  unfold k1_cond1 at hc1
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  unfold run1_A.sl.v3 run1_A.sl.H6_1
  rw [read_last1, readCov1]
  unfold step1 zero1; rfl

set_option maxHeartbeats 1000000 in
/-- At a middle point of a row (neither conditional taken): the same, the accumulator stepped from what it held. -/
theorem run1_B (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x512 .f32) (harg6 : arg6.IsWhole)
    (hc1 : ¬k1_cond1 i = 1#1) (hc2 : ¬k1_cond2 i = 1#1)
    (x0 : Vec F S1024x2048 .bf16) (x1 : Vec F S2048x512 .bf16) (x2 : Vec F S1x512 .f32) (x3 : Vec F S1024x512 .bf16)
    (s : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1 s x0 x1)) -∗ K ⟨⟩))
      ⊢ wp frame (wpE (defs₀ (F := F)) Variants.none c none) E (cc1__gcn_layer1_kernel i arg2 harg2 arg3 harg3 arg4 harg4 arg5 harg5 arg6 harg6) K := by
  simp only [cc1__gcn_layer1_kernel_eq_skeleton]; unfold cc1__gcn_layer1_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  unfold k1_cond1 at hc1
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  rw [read_last1]
  unfold step1; rfl

set_option maxHeartbeats 1000000 in
/-- At the last point of a row (the closing conditional taken): the accumulator stepped from what it held, and the output
    window's buffer, found at anything, left at the closing store over the stepped accumulator and the bias row. -/
theorem run1_C (c : Dev nD) (E : Set ℕ) (i : grid1.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x512 .bf16) (harg5 : arg5.IsWhole)
    (arg6 : Memref sig .tc .vmem S1024x512 .f32) (harg6 : arg6.IsWhole)
    (hc1 : ¬k1_cond1 i = 1#1) (hc2 : k1_cond2 i = 1#1)
    (x0 : Vec F S1024x2048 .bf16) (x1 : Vec F S2048x512 .bf16) (x2 : Vec F S1x512 .f32)
    (s : Vec F S1024x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (out1_3 (step1 s x0 x1) x2) ∗ owns (c : Thread nD τ) arg6 fullShare (step1 s x0 x1)) -∗ K ⟨⟩))
      ⊢ wp frame (wpE (defs₀ (F := F)) Variants.none c none) E (cc1__gcn_layer1_kernel i arg2 harg2 arg3 harg3 arg4 harg4 arg5 harg5 arg6 harg6) K := by
  simp only [cc1__gcn_layer1_kernel_eq_skeleton]; unfold cc1__gcn_layer1_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  unfold k1_cond1 at hc1
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold run1_C.sl.v16 run1_C.sl.H6_1
    rw [read_last1, readCov1]
    unfold out1_3 step1; rfl
  iexists _; isplitr
  swap; · iexact H6
  ipureintro
  unfold run1_C.sl.H6_1
  rw [read_last1]
  unfold step1; rfl

/-! ## Each input window's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant, position by position -/

theorem Phi1_succ (c : Dev nD) (n : ℕ) (hn : n < cfg1.N) :
    Phi1 V c (n + 1) hn = iprop(owns (c : Thread nD τ) scM1 fullShare (acc1 V c n hn) ∗ Pipeline.scopedRestBut spec1 c [cc1_scratch0] ∗ (∃ r, prngReg c r)) := rfl

/-- Before a point that is not the first: the accumulator at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ Pipeline.scopedRestBut spec1 c [cc1_scratch0] ∗ (∃ r, prngReg c r)) := by
  cases n with
  | zero => exact absurd rfl hz
  | succ n => rfl

/-- At any position the invariant holds the accumulator at SOME contents. -/
theorem Phi1_any (c : Dev nD) (n : ℕ) (h : n ≤ cfg1.N) :
    Phi1 V c n h ⊢ iprop((∃ x, owns (c : Thread nD τ) scM1 fullShare x) ∗ Pipeline.scopedRestBut spec1 c [cc1_scratch0] ∗ (∃ r, prngReg c r)) := by
  cases n with
  | zero => exact Idealize.SL.BI.Entails.refl _
  | succ n =>
    rw [Phi1_succ]
    iintro ⟨HS, HR⟩
    isplitl [HS]; · iexists _; iexact HS
    iexact HR

/-- The invariant at a point's start (the proof data at its position), restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- Where the closing conditional is not taken the output window is idle and not written back. -/
theorem idle1_3 (t : Fin cfg1.N) (h1 : ¬t.val % 4 = 3) : cfg1.idle 3 (cfg1.grid.coords t) = true := by
  have hc : ¬k1_cond2 (grid1.coords t) = 1#1 := fun h => h1 ((hcond1_2 t).mp h)
  show (!(k1_cond2 (grid1.coords t) == 1#1)) = true
  rw [Bool.not_eq_true', beq_eq_false_iff_ne]; exact hc

theorem noFlush1_3 (t : Fin cfg1.N) (h1 : ¬t.val % 4 = 3) : (cfg1.win 3).flush t = false :=
  Bool.eq_false_iff.mpr fun h => h1 ((flush1_3 t).mp h)

/-- Where it is taken the window is live. -/
theorem live1_3 (t : Fin cfg1.N) (h1 : t.val % 4 = 3) : cfg1.idle 3 (cfg1.grid.coords t) = false := by
  show (!(k1_cond2 (grid1.coords t) == 1#1)) = false
  rw [(hcond1_2 t).mpr h1]; rfl

set_option maxHeartbeats 2000000 in
/-- The body at any point: the inputs' memrefs hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases h0 : t.val % 4 = 0
  · have h1 : ¬t.val % 4 = 3 := by omega
    rw [Dat.leavesExact_idle (dat1 V c) 3 t (idle1_3 t h1) (noFlush1_3 t h1), acc1_reset V c t h0]
    iintro ⟨HΦ, Ho, ⟨%d0, H0⟩, ⟨%d1, H1⟩, ⟨%d2, H2⟩, ⟨%d3, H3⟩⟩
    icases (Phi1_any V c _ _) $$ HΦ with ⟨HS, HR⟩
    iapply (run1_A c Set.univ (grid1.coords t) _ _ _ _ _ _ _ _ _ _ ((hcond1_1 t).mpr h0) (fun h => h1 ((hcond1_2 t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexists _; iexact H3
  · have hz : t.val ≠ 0 := fun e => h0 (by rw [e])
    rw [Phi1_pos V c _ _ hz, acc1_step V c t h0]
    by_cases h1 : t.val % 4 = 3
    · rw [show (dat1 V c).leavesExact 3 t = owns (c : Thread nD τ) (st1_3 t) fullShare ((dat1 V c).after 3 t) from by
        unfold Dat.leavesExact; rw [live1_3 t h1], after1_3, acc1_step V c t h0]
      iintro ⟨⟨HS, HR⟩, Ho, ⟨%d0, H0⟩, ⟨%d1, H1⟩, ⟨%d2, H2⟩, ⟨%d3, H3⟩⟩
      iapply (run1_C c Set.univ (grid1.coords t) _ _ _ _ _ _ _ _ _ _ (fun h => h0 ((hcond1_1 t).mp h)) ((hcond1_2 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat1 V c) 3 t (idle1_3 t h1) (noFlush1_3 t h1)]
      iintro ⟨⟨HS, HR⟩, Ho, ⟨%d0, H0⟩, ⟨%d1, H1⟩, ⟨%d2, H2⟩, ⟨%d3, H3⟩⟩
      iapply (run1_B c Set.univ (grid1.coords t) _ _ _ _ _ _ _ _ _ _ (fun h => h0 ((hcond1_1 t).mp h)) (fun h => h1 ((hcond1_2 t).mp h))
        (iblk1 V c 0 t) (iblk1 V c 1 t) (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant at the first point, from the generator register and the scoped buffers no window stages: the
    accumulator is one of them, opened out at whatever it holds. -/
theorem phi_in1 (c : Dev nD) : (iprop((∃ r, prngReg c r) ∗ Pipeline.scopedRest spec1 c) : sProp 𝕄) ⊢ (dat1 (F := F) V c).Φ 0 := by
  rw [show (dat1 (F := F) V c).Φ 0 = Phi1 V c 0 (Nat.zero_le _) from rfl, scopedRest1_split]
  unfold Phi1
  iintro ⟨Hg, ⟨%f, HS⟩, HR⟩
  isplitl [HS]
  · iexists f; rw [owns_whole_eq]; iexists f; isplitr; · ipureintro; rfl
    iexact HS
  isplitl [HR]; · iexact HR
  iexact Hg

/-- The invariant at the last point gives them back: the accumulator's named contents are forgotten. -/
theorem phi_out1 (c : Dev nD) : (dat1 (F := F) V c).Φ (Fin.last cfg1.N) ⊢ (iprop((∃ r, prngReg c r) ∗ Pipeline.scopedRest spec1 c) : sProp 𝕄) := by
  rw [show (dat1 (F := F) V c).Φ (Fin.last cfg1.N) = Phi1 V c (Fin.last cfg1.N).val (Nat.le_of_lt_succ (Fin.last cfg1.N).isLt) from rfl, scopedRest1_split]
  refine (Phi1_any V c _ _).trans ?_
  simp only [owns_whole_eq]
  iintro ⟨⟨%x, %f, -, HS⟩, HR, Hg⟩
  isplitl [Hg]; · iexact Hg
  isplitl [HS]; · iexists f; iexact HS
  iexact HR

end Cert.KernelIdeal.Hand

end
-- ==== Proof.KI.Reg3.lean ====
/-
  Region 3 of the program, frame side: the windows' blocks as the region finds them, what the body leaves in each
  window's staging buffer, the pipeline's proof data and the body obligation at a generic grid point.
-/
import proofs.«416422_j54030688584368_1_alg».proof.Proof.Gen.KernelIdeal.Launch
import proofs.«416422_j54030688584368_1_alg».proof.Proof.Gen.KernelIdeal.Skeleton
import proofs.«416422_j54030688584368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's rectangles: every load and store is of a whole buffer -/

abbrev r3_A : Rect S1024x2048 := Rect.unit (s := S1024x2048) ![0, 0] S1024x2048.size inb_S1024x2048_S1024x2048_0_0
abbrev r3_H : Rect S2048x512 := Rect.unit (s := S2048x512) ![0, 0] S2048x512.size inb_S2048x512_S2048x512_0_0
abbrev r3_b : Rect S1x512 := Rect.unit (s := S1x512) ![0, 0] S1x512.size inb_S1x512_S1x512_0_0
abbrev r3_o : Rect S1024x256 := Rect.unit (s := S1024x256) ![0, 0] S1024x256.size inb_S1024x256_S1024x256_0_0
abbrev r3_s : Rect S1024x512 := Rect.unit (s := S1024x512) ![0, 0] S1024x512.size inb_S1024x512_S1024x512_0_0

/-- The accumulator as a memref: the whole scratch buffer. -/
abbrev scM3 : Memref sig .tc .vmem S1024x512 .f32 := Memref.whole cc3_scratch0

/-! ## The accumulator, point by point -/

/-- The accumulator after the reset at the first point of a row of the grid: the zero payload stored whole. -/
def zero3 : Vec F S1024x512 .f32 := View.canon [⟨r3_s, k3_pay1 (F := F)⟩]

/-- One accumulation: from the accumulator at `s`, the adjacency block `a` and the feature block `h`, the
    accumulator at `s + a · h` (the skeleton's payload, stored whole). -/
def step3 (s : Vec F S1024x512 .f32) (a : Vec F S1024x2048 .bf16) (h : Vec F S2048x512 .bf16) : Vec F S1024x512 .f32 :=
  View.canon [⟨r3_s, k3_pay2 (View.ld s r3_s) (View.ld a r3_A) (View.ld h r3_H)⟩]

/-- THE ACCUMULATION. What the accumulator holds after the body at position `n`: at the first point of a row of
    the grid (`n % 4 = 0`) one accumulation from the reset accumulator, at the others one accumulation from what the
    point before left. -/
def acc3 (c : Dev nD) : (n : ℕ) → n < cfg3.N → Vec F S1024x512 .f32
  | 0, hn => step3 (zero3 (F := F)) (iblk3 V c 0 ⟨0, hn⟩) (iblk3 V c 1 ⟨0, hn⟩)
  | n + 1, hn =>
    if (n + 1) % 4 = 0 then step3 (zero3 (F := F)) (iblk3 V c 0 ⟨n + 1, hn⟩) (iblk3 V c 1 ⟨n + 1, hn⟩)
    else step3 (acc3 c n (Nat.lt_of_succ_lt hn)) (iblk3 V c 0 ⟨n + 1, hn⟩) (iblk3 V c 1 ⟨n + 1, hn⟩)

/-- `acc3` at the first point of a row: one accumulation from the reset accumulator. -/
theorem acc3_reset (c : Dev nD) (t : Fin cfg3.N) (h0 : t.val % 4 = 0) :
    acc3 V c t.val t.isLt = step3 (zero3 (F := F)) (iblk3 V c 0 t) (iblk3 V c 1 t) := by
  obtain ⟨n, hn⟩ := t
  cases n with
  | zero => rfl
  | succ n => exact if_pos h0

/-- `acc3` at any other point: one accumulation from what the point before left. -/
theorem acc3_step (c : Dev nD) (t : Fin cfg3.N) (h0 : ¬t.val % 4 = 0) :
    acc3 V c t.val t.isLt
      = step3 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-! ## What the body leaves in each output window's buffer at the last point of a row -/

/-- Window 4 (the mean): columns 0..255 of the accumulator plus the bias row, stored whole. -/
def out3_4 (s : Vec F S1024x512 .f32) (b : Vec F S1x512 .f32) : Vec F S1024x256 .f32 :=
  View.canon [⟨r3_o, k3_pay4 (View.ld s r3_s) (View.ld b r3_b)⟩]

/-- Window 5 (the log-variance): columns 256..511 of the accumulator plus the bias row, stored whole. -/
def out3_5 (s : Vec F S1024x512 .f32) (b : Vec F S1x512 .f32) : Vec F S1024x256 .f32 :=
  View.canon [⟨r3_o, k3_pay5 (View.ld s r3_s) (View.ld b r3_b)⟩]

/-- Window 6 (the sample): the mean plus the noise block times the exponential of half the log-variance, stored whole. -/
def out3_6 (s : Vec F S1024x512 .f32) (b : Vec F S1x512 .f32) (e : Vec F S1024x256 .f32) : Vec F S1024x256 .f32 :=
  View.canon [⟨r3_o, k3_pay6 (View.ld s r3_s) (View.ld b r3_b) (View.ld e r3_o)⟩]

/-! ## The invariant: the accumulator's contents between points -/

/-- The region invariant before position `n`: the accumulator at SOME contents before the first point, at what the
    point before left (`acc3`) afterwards; every other scoped buffer no window stages, unopened; the generator register
    at some state. -/
def Phi3 (c : Dev nD) : (n : ℕ) → n ≤ cfg3.N → sProp 𝕄
  | 0, _ => iprop((∃ x, owns (c : Thread nD τ) scM3 fullShare x) ∗ Pipeline.scopedRestBut spec3 c [cc3_scratch0] ∗ (∃ r, prngReg c r))
  | n + 1, hn => iprop(owns (c : Thread nD τ) scM3 fullShare (acc3 V c n hn) ∗ Pipeline.scopedRestBut spec3 c [cc3_scratch0] ∗ (∃ r, prngReg c r))

/-! ## The pipeline's proof data -/

/-- The proof data of pipeline 3 on core `c`: the arrays as the region finds them; after the body each input's buffer at
    its block and each output's at its term over the accumulator (consulted only at the last point of a row, where the
    window is written back; elsewhere the window is idle); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (acc3 V c t.val t.isLt) (iblk3 V c 2 t)
    | ⟨5, _⟩ => out3_5 (acc3 V c t.val t.isLt) (iblk3 V c 2 t)
    | ⟨6, _⟩ => out3_6 (acc3 V c t.val t.isLt) (iblk3 V c 2 t) (iblk3 V c 3 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (acc3 V c t.val t.isLt) (iblk3 V c 2 t) := by dsimp only [dat3]
theorem after3_5 (c : Dev nD) (t : Fin cfg3.N) : (dat3 V c).after 5 t = out3_5 (acc3 V c t.val t.isLt) (iblk3 V c 2 t) := by dsimp only [dat3]
theorem after3_6 (c : Dev nD) (t : Fin cfg3.N) : (dat3 V c).after 6 t = out3_6 (acc3 V c t.val t.isLt) (iblk3 V c 2 t) (iblk3 V c 3 t) := by dsimp only [dat3]

/-! ## The body's branch conditions -/

/-- The condition of the body's first conditional (the reset), from the grid coordinates. -/
abbrev cond3_1 (i : grid3.Coords) : Prop := (Scalar.cmpi .ne (Scalar.extui (Scalar.cmpi .eq (BitVec.ofNat 32 (i 1).val) 0#32)) 0#32) = 1#1
/-- It holds at the first point of each row of the grid — decided over the 32 points. -/
theorem hcond3_1 : ∀ t : Fin cfg3.N, cond3_1 (grid3.coords t) ↔ t.val % 4 = 0 :=
  (by decide +kernel : ∀ t : Fin grid3.N, cond3_1 (grid3.coords t) ↔ t.val % 4 = 0)

/-- The condition of the body's second conditional (the stores of the results). -/
abbrev cond3_2 (i : grid3.Coords) : Prop := k3_cond2 i = 1#1
/-- It holds at the last point of each row of the grid — decided over the 32 points. -/
theorem hcond3_2 : ∀ t : Fin cfg3.N, cond3_2 (grid3.coords t) ↔ t.val % 4 = 3 :=
  (by decide +kernel : ∀ t : Fin grid3.N, cond3_2 (grid3.coords t) ↔ t.val % 4 = 3)

/-! ## A whole-buffer store covers its buffer -/

theorem cover3_s (p : Vec F S1024x512 .f32) (y : S1024x512.Idx) :
    ∃ pc ∈ ([⟨r3_s, p⟩] : List (View.Piece (Elt F) S1024x512 .f32)), y ∈ pc.1.set :=
  View.cover_of_tiled [⟨r3_s, p⟩] S1024x512.size (by rfl) y

theorem cover3_o (p : Vec F S1024x256 .f32) (y : S1024x256.Idx) :
    ∃ pc ∈ ([⟨r3_o, p⟩] : List (View.Piece (Elt F) S1024x256 .f32)), y ∈ pc.1.set :=
  View.cover_of_tiled [⟨r3_o, p⟩] S1024x256.size (by rfl) y

/-! ## The body's triples, one per control case -/

set_option maxHeartbeats 400000 in
/-- At a middle point of a row (neither conditional taken) the body accumulates once into the accumulator. -/
theorem sound3_B (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x256 .f32) (harg5 : arg5.IsWhole)
    (arg6 : Memref sig .tc .vmem S1024x256 .f32) (harg6 : arg6.IsWhole) (arg7 : Memref sig .tc .vmem S1024x256 .f32) (harg7 : arg7.IsWhole)
    (arg8 : Memref sig .tc .vmem S1024x256 .f32) (harg8 : arg8.IsWhole) (arg9 : Memref sig .tc .vmem S1024x512 .f32) (harg9 : arg9.IsWhole)
    (hc1 : ¬cond3_1 i) (hc2 : ¬cond3_2 i)
    (x0 : Vec F S1024x2048 .bf16) (x1 : Vec F S2048x512 .bf16) (s : Vec F S1024x512 .f32) (K : PUnit → sProp 𝕄) :
    iprop(owns (c : Thread nD τ) arg2 fullShare x0 ∗ owns (c : Thread nD τ) arg3 fullShare x1 ∗ owns (c : Thread nD τ) arg9 fullShare s
        ∗ (iprop(owns (c : Thread nD τ) arg2 fullShare x0 ∗ owns (c : Thread nD τ) arg3 fullShare x1 ∗ owns (c : Thread nD τ) arg9 fullShare (step3 s x0 x1)) -∗ K ⟨⟩))
      ⊢ wp frame (wpE (defs₀ (F := F)) Variants.none c none) E (cc3__gcn_layer23_kernel i arg2 harg2 arg3 harg3 arg4 harg4 arg5 harg5 arg6 harg6 arg7 harg7 arg8 harg8 arg9 harg9) K := by
  simp only [cc3__gcn_layer23_kernel_eq_skeleton]; unfold cc3__gcn_layer23_kernel_skel
  unfold owns
  iintro ⟨⟨%f0, %hf0, H0⟩, ⟨%f1, %hf1, H1⟩, ⟨%fs, %hfs, HS⟩, Hk⟩
  subst hf0 hf1 hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover3_s _)

set_option maxHeartbeats 400000 in
/-- At the first point of a row (the reset taken, the stores of the results not) the body zeroes the accumulator, whatever
    it held, and accumulates once into it. -/
theorem sound3_A (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x256 .f32) (harg5 : arg5.IsWhole)
    (arg6 : Memref sig .tc .vmem S1024x256 .f32) (harg6 : arg6.IsWhole) (arg7 : Memref sig .tc .vmem S1024x256 .f32) (harg7 : arg7.IsWhole)
    (arg8 : Memref sig .tc .vmem S1024x256 .f32) (harg8 : arg8.IsWhole) (arg9 : Memref sig .tc .vmem S1024x512 .f32) (harg9 : arg9.IsWhole)
    (hc1 : cond3_1 i) (hc2 : ¬cond3_2 i)
    (x0 : Vec F S1024x2048 .bf16) (x1 : Vec F S2048x512 .bf16) (K : PUnit → sProp 𝕄) :
    iprop(owns (c : Thread nD τ) arg2 fullShare x0 ∗ owns (c : Thread nD τ) arg3 fullShare x1 ∗ (∃ s, owns (c : Thread nD τ) arg9 fullShare s)
        ∗ (iprop(owns (c : Thread nD τ) arg2 fullShare x0 ∗ owns (c : Thread nD τ) arg3 fullShare x1 ∗ owns (c : Thread nD τ) arg9 fullShare (step3 (zero3 (F := F)) x0 x1)) -∗ K ⟨⟩))
      ⊢ wp frame (wpE (defs₀ (F := F)) Variants.none c none) E (cc3__gcn_layer23_kernel i arg2 harg2 arg3 harg3 arg4 harg4 arg5 harg5 arg6 harg6 arg7 harg7 arg8 harg8 arg9 harg9) K := by
  simp only [cc3__gcn_layer23_kernel_eq_skeleton]; unfold cc3__gcn_layer23_kernel_skel
  unfold owns
  iintro ⟨⟨%f0, %hf0, H0⟩, ⟨%f1, %hf1, H1⟩, ⟨%s, %fs, -, HS⟩, Hk⟩
  subst hf0 hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  -- the accumulator read back after the reset is the reset's payload; the second whole store shadows the first
  rw [View.readCov_eq_canon_ld _ _ r3_s (cover3_s _)]
  have hmem : ∀ y : S1024x512.Idx, y ∈ (r3_s).set := fun y => by
    obtain ⟨pc, hm, hy⟩ := cover3_s (F := F) (k3_pay1 (F := F)) y
    rw [List.mem_singleton] at hm; subst hm; exact hy
  rw [View.read_writes_of_cover_last arg9.view fs arg9.view fs ⟨r3_s, _⟩ _ [] hmem]
  exact View.read_writes_eq_canon _ _ _ (cover3_s _)

set_option maxHeartbeats 400000 in
/-- At the last point of a row (the reset not taken, the stores of the results taken) the body accumulates once and stores
    the three results off the accumulator, the bias row and the noise block. -/
theorem sound3_C (c : Dev nD) (E : Set ℕ) (i : grid3.Coords)
    (arg2 : Memref sig .tc .vmem S1024x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S1024x256 .f32) (harg5 : arg5.IsWhole)
    (arg6 : Memref sig .tc .vmem S1024x256 .f32) (harg6 : arg6.IsWhole) (arg7 : Memref sig .tc .vmem S1024x256 .f32) (harg7 : arg7.IsWhole)
    (arg8 : Memref sig .tc .vmem S1024x256 .f32) (harg8 : arg8.IsWhole) (arg9 : Memref sig .tc .vmem S1024x512 .f32) (harg9 : arg9.IsWhole)
    (hc1 : ¬cond3_1 i) (hc2 : cond3_2 i)
    (x0 : Vec F S1024x2048 .bf16) (x1 : Vec F S2048x512 .bf16) (x2 : Vec F S1x512 .f32) (x3 : Vec F S1024x256 .f32)
    (s : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out3_4 (step3 s x0 x1) x2)
            ∗ owns (c : Thread nD τ) arg7 fullShare (out3_5 (step3 s x0 x1) x2)
            ∗ owns (c : Thread nD τ) arg8 fullShare (out3_6 (step3 s x0 x1) x2 x3)
            ∗ owns (c : Thread nD τ) arg9 fullShare (step3 s x0 x1)) -∗ K ⟨⟩))
      ⊢ wp frame (wpE (defs₀ (F := F)) Variants.none c none) E (cc3__gcn_layer23_kernel i arg2 harg2 arg3 harg3 arg4 harg4 arg5 harg5 arg6 harg6 arg7 harg7 arg8 harg8 arg9 harg9) K := by
  simp only [cc3__gcn_layer23_kernel_eq_skeleton]; unfold cc3__gcn_layer23_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs, %hfs, HS⟩, Hk⟩
  subst hf0 hf1 hf2 hf3 hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ r3_s (cover3_s _)]
    exact View.read_writes_eq_canon _ _ _ (cover3_o _)
  isplitl [H5]
  · iexists _; isplitr
    swap; · iexact H5
    ipureintro
    sl_unfold_run_names
    rw [View.readCov_eq_canon_ld _ _ r3_s (cover3_s _)]
    exact View.read_writes_eq_canon _ _ _ (cover3_o _)
  isplitl [H6]
  · iexists _; isplitr
    swap; · iexact H6
    ipureintro
    sl_unfold_run_names
    rw [View.readCov_eq_canon_ld _ _ r3_s (cover3_s _)]
    exact View.read_writes_eq_canon _ _ _ (cover3_o _)
  iexists _; isplitr
  swap; · iexact HS
  ipureintro
  sl_unfold_run_names
  exact View.read_writes_eq_canon _ _ _ (cover3_s _)

/-! ## Each input's staging buffer holds its block, fetched at the point or not -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## Where the windows are idle, and where they are written back -/

/-- A window live at a point is left at `after`. -/
theorem leavesExact_live3 (c : Dev nD) (w : Fin cfg3.W) (t : Fin cfg3.N) (hi : cfg3.idle w (cfg3.grid.coords t) = false) :
    (dat3 V c).leavesExact w t = owns (c : Thread nD τ) ((cfg3.win w).stage (cfg3.slots t w)) fullShare ((dat3 V c).after w t) := by
  unfold Dat.leavesExact; rw [hi]

/-- The three result windows are idle off the last point of a row, live at it — decided over the 32 points. -/
theorem idleAt3_4 : ∀ t : Fin cfg3.N, ¬t.val % 4 = 3 → cfg3.idle 4 (cfg3.grid.coords t) = true := by decide +kernel
theorem idleAt3_5 : ∀ t : Fin cfg3.N, ¬t.val % 4 = 3 → cfg3.idle 5 (cfg3.grid.coords t) = true := by decide +kernel
theorem idleAt3_6 : ∀ t : Fin cfg3.N, ¬t.val % 4 = 3 → cfg3.idle 6 (cfg3.grid.coords t) = true := by decide +kernel
theorem liveAt3_4 : ∀ t : Fin cfg3.N, t.val % 4 = 3 → cfg3.idle 4 (cfg3.grid.coords t) = false := by decide +kernel
theorem liveAt3_5 : ∀ t : Fin cfg3.N, t.val % 4 = 3 → cfg3.idle 5 (cfg3.grid.coords t) = false := by decide +kernel
theorem liveAt3_6 : ∀ t : Fin cfg3.N, t.val % 4 = 3 → cfg3.idle 6 (cfg3.grid.coords t) = false := by decide +kernel

/-- Off the last point of a row the result windows are not written back. -/
theorem noFlush3_4 (t : Fin cfg3.N) (h : ¬t.val % 4 = 3) : (cfg3.win 4).flush t = false :=
  Bool.eq_false_iff.mpr fun hf => h ((flush3_4 t).mp hf)
theorem noFlush3_5 (t : Fin cfg3.N) (h : ¬t.val % 4 = 3) : (cfg3.win 5).flush t = false :=
  Bool.eq_false_iff.mpr fun hf => h ((flush3_5 t).mp hf)
theorem noFlush3_6 (t : Fin cfg3.N) (h : ¬t.val % 4 = 3) : (cfg3.win 6).flush t = false :=
  Bool.eq_false_iff.mpr fun hf => h ((flush3_6 t).mp hf)

/-! ## The invariant, position by position -/

theorem Phi3_zero (c : Dev nD) (n : ℕ) (h : n ≤ cfg3.N) (hz : n = 0) :
    Phi3 V c n h = iprop((∃ x, owns (c : Thread nD τ) scM3 fullShare x) ∗ Pipeline.scopedRestBut spec3 c [cc3_scratch0] ∗ (∃ r, prngReg c r)) := by
  subst hz; rfl

theorem Phi3_succ (c : Dev nD) (n : ℕ) (hn : n < cfg3.N) :
    Phi3 V c (n + 1) hn = iprop(owns (c : Thread nD τ) scM3 fullShare (acc3 V c n hn) ∗ Pipeline.scopedRestBut spec3 c [cc3_scratch0] ∗ (∃ r, prngReg c r)) := rfl

theorem Phi3_pos (c : Dev nD) (n : ℕ) (h : n ≤ cfg3.N) (hz : n ≠ 0) :
    Phi3 V c n h = iprop(owns (c : Thread nD τ) scM3 fullShare (acc3 V c (n - 1) (by omega)) ∗ Pipeline.scopedRestBut spec3 c [cc3_scratch0] ∗ (∃ r, prngReg c r)) := by
  cases n with
  | zero => exact absurd rfl hz
  | succ n => rfl

/-- At any position the invariant holds the accumulator at SOME contents. -/
theorem Phi3_forget (c : Dev nD) (n : ℕ) (h : n ≤ cfg3.N) :
    Phi3 V c n h ⊢ (iprop((∃ x, owns (c : Thread nD τ) scM3 fullShare x) ∗ Pipeline.scopedRestBut spec3 c [cc3_scratch0] ∗ (∃ r, prngReg c r)) : sProp 𝕄) := by
  cases n with
  | zero => exact Idealize.SL.BI.Entails.refl _
  | succ n =>
    rw [Phi3_succ]
    iintro ⟨HS, HR, Hg⟩
    isplitl [HS]; · iexists _; iexact HS
    isplitl [HR]; · iexact HR
    iexact Hg

theorem Phi3_castSucc (c : Dev nD) (t : Fin cfg3.N) :
    (dat3 V c).Φ t.castSucc = Phi3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t
    ∗ (dat3 V c).leavesExact 4 t ∗ (dat3 V c).leavesExact 5 t ∗ (dat3 V c).leavesExact 6 t)

set_option maxHeartbeats 400000 in
/-- The body at any point: the inputs' memrefs hold their blocks; the closed forms say which control case the point is
    in; the invariant hands the body the accumulator (at what the point before left, or at anything where the body resets
    it) and takes it back at this point's contents; a result window is handed back untouched off the last point of a
    row and at its term at it; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ, Phi3_castSucc]
  rw [leavesExact_live3 V c 0 t rfl, leavesExact_live3 V c 1 t rfl, leavesExact_live3 V c 2 t rfl, leavesExact_live3 V c 3 t rfl,
    after3_0, after3_1, after3_2, after3_3]
  have hN : t.val < 32 := lt_of_lt_of_eq t.isLt (show cfg3.N = 32 from N_3)
  by_cases h0 : t.val % 4 = 0
  · -- the first point of a row: the reset, then one accumulation
    have h3 : ¬t.val % 4 = 3 := by omega
    rw [Dat.leavesExact_idle (dat3 V c) 4 t (idleAt3_4 t h3) (noFlush3_4 t h3),
      Dat.leavesExact_idle (dat3 V c) 5 t (idleAt3_5 t h3) (noFlush3_5 t h3),
      Dat.leavesExact_idle (dat3 V c) 6 t (idleAt3_6 t h3) (noFlush3_6 t h3)]
    rw [acc3_reset V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi3_forget V c t.val _) $$ HΦ
    icases HΦ' with ⟨HS, HR, Hg⟩
    iapply (sound3_A c Set.univ (grid3.coords t) _ _ _ _ _ _ _ _ _ _ _ _ _ _ _ _ ((hcond3_1 t).mpr h0) (fun h => h3 ((hcond3_2 t).mp h))
      (iblk3 V c 0 t) (iblk3 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun e => h0 (by rw [e])
    rw [Phi3_pos V c _ _ hz, acc3_step V c t h0]
    by_cases h3 : t.val % 4 = 3
    · -- the last point of a row: one accumulation, then the three results stored
      rw [leavesExact_live3 V c 4 t (liveAt3_4 t h3), leavesExact_live3 V c 5 t (liveAt3_5 t h3), leavesExact_live3 V c 6 t (liveAt3_6 t h3),
        after3_4, after3_5, after3_6, acc3_step V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (sound3_C c Set.univ (grid3.coords t) _ _ _ _ _ _ _ _ _ _ _ _ _ _ _ _ (fun h => h0 ((hcond3_1 t).mp h)) ((hcond3_2 t).mpr h3)
        (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point of a row: one accumulation
      rw [Dat.leavesExact_idle (dat3 V c) 4 t (idleAt3_4 t h3) (noFlush3_4 t h3),
        Dat.leavesExact_idle (dat3 V c) 5 t (idleAt3_5 t h3) (noFlush3_5 t h3),
        Dat.leavesExact_idle (dat3 V c) 6 t (idleAt3_6 t h3) (noFlush3_6 t h3)]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
      iapply (sound3_B c Set.univ (grid3.coords t) _ _ _ _ _ _ _ _ _ _ _ _ _ _ _ _ (fun h => h0 ((hcond3_1 t).mp h)) (fun h => h3 ((hcond3_2 t).mp h))
        (iblk3 V c 0 t) (iblk3 V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant at the first point, from the generator register and the scoped buffers no window stages. -/
theorem phi_in3 (c : Dev nD) : (iprop((∃ r, prngReg c r) ∗ Pipeline.scopedRest spec3 c) : sProp 𝕄) ⊢ (dat3 (F := F) V c).Φ 0 := by
  rw [show (dat3 (F := F) V c).Φ 0 = Phi3 V c 0 (Nat.zero_le _) from rfl, Phi3_zero V c 0 _ rfl, scopedRest3_split]
  simp only [owns_whole]
  iintro ⟨Hg, ⟨%f, HS⟩, HR⟩
  isplitl [HS]; · iexists f; iexact HS
  isplitl [HR]; · iexact HR
  iexact Hg

/-- The invariant at the last point gives them back. -/
theorem phi_out3 (c : Dev nD) : (dat3 (F := F) V c).Φ (Fin.last cfg3.N) ⊢ (iprop((∃ r, prngReg c r) ∗ Pipeline.scopedRest spec3 c) : sProp 𝕄) := by
  rw [show (dat3 (F := F) V c).Φ (Fin.last cfg3.N) = Phi3 V c cfg3.N (Nat.le_refl _) from rfl, scopedRest3_split]
  refine (Phi3_forget V c _ _).trans ?_
  simp only [owns_whole]
  iintro ⟨⟨%f, HS⟩, HR, Hg⟩
  isplitl [Hg]; · iexact Hg
  isplitl [HS]; · iexists f; iexact HS
  iexact HR

end Cert.KernelIdeal.Hand

end
-- ==== Proof.KI.Reg4.lean ====
/-
  Region 4 of the program, frame side: the windows' blocks as the region finds them, what the body leaves in each
  window's staging buffer, the pipeline's proof data and the body obligation at a generic grid point.
  The region conditions the latent: over a grid of 8 row blocks it reads a block of 1024 rows of the features,
  the whole conditioning weight, the bias row and the matching block of the latent, and writes the block of the
  conditioned latent.
-/
import proofs.«416422_j54030688584368_1_alg».proof.Proof.Gen.KernelIdeal.Launch
import proofs.«416422_j54030688584368_1_alg».proof.Proof.Gen.KernelIdeal.Skeleton
import proofs.«416422_j54030688584368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (a block of 1024 rows of the features) holds its block at every point, for any proof data whose
    array is the entry contents and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the whole conditioning weight) is fetched at the first point only; at a later point its block
    index has not moved, so its buffer still holds the block, which is the whole array at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the bias row) is fetched at the first point only, and likewise holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the matching block of 1024 rows of the latent) holds its block at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take the whole staging buffer -/

abbrev r4_0 : Rect S1024x512 := Rect.unit (s := S1024x512) ![0, 0] S1024x512.size inb_S1024x512_S1024x512_0_0
abbrev r4_1 : Rect S512x256 := Rect.unit (s := S512x256) ![0, 0] S512x256.size inb_S512x256_S512x256_0_0
abbrev r4_2 : Rect S1x256 := Rect.unit (s := S1x256) ![0, 0] S1x256.size inb_S1x256_S1x256_0_0
abbrev r4_3 : Rect S1024x256 := Rect.unit (s := S1024x256) ![0, 0] S1024x256.size inb_S1024x256_S1024x256_0_0

/-! ## What the body leaves in the output window's buffer -/

/-- Window 4's staging buffer after the body, from the four input blocks: its one store, of the payload
    (the latent block plus the rectified affine image of the feature block, rounded to the output format). -/
def out4_4 (x0 : Vec F S1024x512 .f32) (x1 : Vec F S512x256 .f32) (x2 : Vec F S1x256 .f32) (x3 : Vec F S1024x256 .f32) : Vec F S1024x256 .bf16 :=
  View.canon [⟨r4_3, k4_pay1 (View.ld x0 r4_0) (View.ld x1 r4_1) (View.ld x2 r4_2) (View.ld x3 r4_3)⟩]

/-- The one store takes the whole buffer, so it covers it. -/
theorem cover4_4 (p0 : Vec F S1024x256 .bf16) (y : S1024x256.Idx) :
    ∃ pc ∈ ([⟨r4_3, p0⟩] : List (View.Piece (Elt F) S1024x256 .bf16)), y ∈ pc.1.set :=
  View.cover_of_tiled [⟨r4_3, p0⟩] S1024x256.size (by rfl) y

/-! ## The body's triple -/

set_option maxHeartbeats 1000000 in
/-- The kernel body on whole staging memrefs, the four inputs' at read contents `x0 … x3` and the output's at
    anything, runs to the continuation holding the inputs' as they were and the output's at `out4_4` of the inputs'. -/
theorem sound_kernel4 (c : Dev nD) (E : Set ℕ) (i : grid4.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x256 .f32) (harg4 : arg4.IsWhole)
    (arg5 : Memref sig .tc .vmem S1024x256 .bf16) (harg5 : arg5.IsWhole)
    (x0 : Vec F S1024x512 .f32) (x1 : Vec F S512x256 .f32) (x2 : Vec F S1x256 .f32) (x3 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__cond_latent_kernel i arg1 harg1 arg2 harg2 arg3 harg3 arg4 harg4 arg5 harg5) K := by
  simp only [cc4__cond_latent_kernel_eq_skeleton]; unfold cc4__cond_latent_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them; after the body at point `t`
    each input's buffer at its block and the output's at `out4_4` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- The invariant at the first point, from the generator register and the scoped buffers no window stages. -/
theorem phi_in4 (c : Dev nD) : (iprop((∃ r, prngReg c r) ∗ Pipeline.scopedRest spec4 c) : sProp 𝕄) ⊢ (dat4 (F := F) V c).Φ 0 := by
  rw [show (dat4 (F := F) V c).Φ 0 = Pipeline.ΦA spec4 c from rfl]; unfold Pipeline.ΦA
  iintro ⟨Hp, Hr⟩
  isplitl [Hr]; · iexact Hr
  iexact Hp

/-- The invariant at the last point gives them back. -/
theorem phi_out4 (c : Dev nD) : (dat4 (F := F) V c).Φ (Fin.last cfg4.N) ⊢ (iprop((∃ r, prngReg c r) ∗ Pipeline.scopedRest spec4 c) : sProp 𝕄) := by
  rw [show (dat4 (F := F) V c).Φ (Fin.last cfg4.N) = Pipeline.ΦA spec4 c from rfl]; unfold Pipeline.ΦA
  iintro ⟨Hr, Hp⟩
  isplitl [Hp]; · iexact Hp
  iexact Hr

end Cert.KernelIdeal.Hand

end
-- ==== Proof.KI.Reg5.lean ====
/-
  Region 5 of the program, frame side: the windows' blocks as the region finds them, what the body leaves in each
  window's staging buffer, the pipeline's proof data and the body obligation at a generic grid point. The two
  input windows of this region read ONE array (row block i and row block j of the same matrix): each holds half
  of the array's share, and the two halves together are the whole array.
-/
import proofs.«416422_j54030688584368_1_alg».proof.Proof.Gen.KernelIdeal.Launch
import proofs.«416422_j54030688584368_1_alg».proof.Proof.Gen.KernelIdeal.Skeleton
import proofs.«416422_j54030688584368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (row block i, refetched only when i moves) holds its block at every point, fetched there or
    not, for any proof data whose array is `V`'s and whose body leaves the block in place: where it is not
    fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (row block j) likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each staging buffer whole -/

abbrev r5_0 : Rect S1024x256 := Rect.unit (s := S1024x256) ![0, 0] S1024x256.size inb_S1024x256_S1024x256_0_0
abbrev r5_1 : Rect S2048x256 := Rect.unit (s := S2048x256) ![0, 0] S2048x256.size inb_S2048x256_S2048x256_0_0
abbrev r5_2 : Rect S1024x2048 := Rect.unit (s := S1024x2048) ![0, 0] S1024x2048.size inb_S1024x2048_S1024x2048_0_0

/-! ## What the body leaves in the output window's buffer -/

/-- Window 2's staging buffer after the body, from the two input blocks: one store of the whole buffer, the
    logistic function of the product of block i with the transpose of block j. -/
def out5_2 (x0 : Vec F S1024x256 .bf16) (x1 : Vec F S2048x256 .bf16) : Vec F S1024x2048 .f32 :=
  View.canon [⟨r5_2, k5_pay1 (View.ld x0 r5_0) (View.ld x1 r5_1)⟩]

/-- The one store covers the buffer. -/
theorem cover5_2 (p0 : Vec F S1024x2048 .f32) (y : S1024x2048.Idx) :
    ∃ pc ∈ ([⟨r5_2, p0⟩] : List (View.Piece (Elt F) S1024x2048 .f32)), y ∈ pc.1.set :=
  View.cover_of_tiled [⟨r5_2, p0⟩] S1024x2048.size (by rfl) y

/-! ## The body's triple -/

set_option maxHeartbeats 1000000 in
/-- The kernel body on whole staging memrefs, the inputs' at read contents and the output's at anything, runs to
    the continuation holding the inputs' as they were and the output's at `out5_2` of the inputs'. -/
theorem sound_kernel5 (c : Dev nD) (E : Set ℕ) (i : grid5.Coords)
    (arg2 : Memref sig .tc .vmem S1024x256 .bf16) (harg2 : arg2.IsWhole) (arg3 : Memref sig .tc .vmem S2048x256 .bf16) (harg3 : arg3.IsWhole)
    (arg4 : Memref sig .tc .vmem S1024x2048 .f32) (harg4 : arg4.IsWhole)
    (x0 : Vec F S1024x256 .bf16) (x1 : Vec F S2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out5_2 x0 x1)) -∗ K ⟨⟩))
      ⊢ wp frame (wpE (defs₀ (F := F)) Variants.none c none) E (cc5__apred_kernel i arg2 harg2 arg3 harg3 arg4 harg4) K := by
  simp only [cc5__apred_kernel_eq_skeleton]; unfold cc5__apred_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them; after the body at point `t`
    each input's buffer at its block and the output's at `out5_2` of the two input blocks; the class invariant
    (the scoped rest and the generator register, untouched); nothing owed. The two input windows read one
    array: window 0 holds the left half of its share and window 1 the right half. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- The invariant at the first point, from the generator register and the scoped buffers no window stages. -/
theorem phi_in5 (c : Dev nD) : (iprop((∃ r, prngReg c r) ∗ Pipeline.scopedRest spec5 c) : sProp 𝕄) ⊢ (dat5 (F := F) V c).Φ 0 := by
  rw [show (dat5 (F := F) V c).Φ 0 = Pipeline.ΦA spec5 c from rfl]; unfold Pipeline.ΦA
  iintro ⟨Hp, Hr⟩
  isplitl [Hr]; · iexact Hr
  iexact Hp

/-- The invariant at the last point gives them back. -/
theorem phi_out5 (c : Dev nD) : (dat5 (F := F) V c).Φ (Fin.last cfg5.N) ⊢ (iprop((∃ r, prngReg c r) ∗ Pipeline.scopedRest spec5 c) : sProp 𝕄) := by
  rw [show (dat5 (F := F) V c).Φ (Fin.last cfg5.N) = Pipeline.ΦA spec5 c from rfl]; unfold Pipeline.ΦA
  iintro ⟨Hr, Hp⟩
  isplitl [Hp]; · iexact Hp
  iexact Hr

/-! ## The region's entry and exit: its arrays out of the core's unscoped buffers and back

The two input windows read one buffer. Held whole, that buffer is the left half of its share (window 0's) beside
the right half (window 1's), at the same contents; so the distinct buffers behind the windows, each whole, ARE the
pipeline's arrays, and conversely. -/

/-- What of the core's unscoped buffers bypasses the region: those that are no array of it, at the entry contents. -/
def Z5 (c : Dev nD) : sProp 𝕄 :=
  Pipeline.unscopedRest (Ix := Unit) (Name := ℕ) (U := UR sig nD τ) (Lvl := ℕ) spec5 c (V c)

/-- The buffers behind the three windows are two. -/
theorem arrImage5 : Finset.univ.image (Pipeline.arrRef spec5) = {main_v59, main_v60} := by decide

/-- The distinct buffers behind the windows, whole at contents `V'`, one by one. -/
theorem arrBufs5_eq (c : Dev nD) (V' : (b : Ref sig .tc) → Buf (Elt F) ((c : Thread nD τ).loc b)) :
    (Pipeline.arrBufs (Ix := Unit) (Name := ℕ) (U := UR sig nD τ) (Lvl := ℕ) spec5 c V' : sProp 𝕄)
      = iprop((((c : Thread nD τ).loc main_v59) ↦{fullShare} V' main_v59) ∗ (((c : Thread nD τ).loc main_v60) ↦{fullShare} V' main_v60)) := by
  unfold Pipeline.arrBufs
  rw [arrImage5, bigSep_insert (by decide), bigSep_singleton]
  rfl

/-- The pipeline's arrays at contents `G`, one by one: the shared buffer's two halves and the output's buffer whole. -/
theorem arrays5_eq (c : Dev nD) (G : (w : Fin cfg5.W) → Buf (Elt F) ((cfg5.win w).arr.view.loc (c.tc : Thread nD τ))) :
    ((dat5 V c).arrays G : sProp 𝕄)
      = iprop((((c : Thread nD τ).loc main_v59) ↦{fullShare.left} G 0) ∗ (((c : Thread nD τ).loc main_v59) ↦{fullShare.right} G 1)
          ∗ (((c : Thread nD τ).loc main_v60) ↦{fullShare} G 2)) := by
  unfold Dat.arrays
  rw [bigSep_W5, (arr_whole5 0).set_eq_univ, (arr_whole5 2).set_eq_univ]
  rfl

set_option maxHeartbeats 400000 in
/-- ENTRY: the core's unscoped buffers at a valuation that `V` reads are the pipeline's arrays at the proof data's
    entry contents and the rest. -/
theorem entry5_plain (c : Dev nD) (Win : Valuation τ sig (Elt F)) (hV : ∀ b : Ref sig .tc, V c b = Win (Proc.devRef .tc b)) :
    (StableHlo.held (c : Thread nD τ) (Pipeline.ucRefs τ sig) Win : sProp 𝕄)
      ⊢ iprop((dat5 V c).arrays ((dat5 V c).arrAt · 0) ∗ Z5 V c) := by
  have hVW : (fun b : Ref sig .tc => Win b) = V c := funext fun b => (hV b).symm
  have hsplit : (unscopedBufs (Ix := Unit) (Name := ℕ) (U := UR sig nD τ) (Lvl := ℕ) c (V c) : sProp 𝕄)
      = iprop((Pipeline.arrBufs spec5 c (V c) : sProp 𝕄) ∗ Pipeline.unscopedRest spec5 c (V c)) :=
    Pipeline.unscopedBufs_split₀ cfgs 5 winFacts₀5.arr_unscoped c (V c)
  rw [← Pipeline.unscopedBufs_held (Ix := Unit) (Name := ℕ) (U := UR sig nD τ) (Lvl := ℕ), hVW, hsplit, arrBufs5_eq, arrays5_eq]
  unfold Z5
  refine sep_mono ?_ .rfl
  rw [show (dat5 V c).arrAt 0 0 = V c main_v59 from rfl, show (dat5 V c).arrAt 1 0 = V c main_v59 from rfl,
    show (dat5 V c).arrAt 2 0 = V c main_v60 from rfl]
  iintro ⟨H59, H60⟩
  ihave H := (pointsTo_share (PosShare.mem_left_op_right fullShare)).1 $$ H59
  icases H with ⟨Hl, Hr⟩
  isplitl [Hl]; · iexact Hl
  isplitl [Hr]; · iexact Hr
  iexact H60

set_option maxHeartbeats 400000 in
/-- EXIT: the pipeline's arrays at their final contents and the rest are the core's unscoped buffers at any
    valuation that has the output's buffer at what the write-backs left and agrees with the entry valuation off
    it. The two halves of the shared input buffer, at the contents they were entered at, make it whole again. -/
theorem exit5_plain (c : Dev nD) (Win Wout : Valuation τ sig (Elt F)) (hV : ∀ b : Ref sig .tc, V c b = Win (Proc.devRef .tc b))
    (hoff : ∀ b : Ref sig .tc, b ≠ main_v60 → Wout (Proc.devRef .tc b) = Win (Proc.devRef .tc b))
    (hout : Wout (Proc.devRef .tc main_v60) = (dat5 V c).arrAt 2 cfg5.N) :
    iprop((dat5 V c).arrays ((dat5 V c).arrAt · cfg5.N) ∗ Z5 V c)
      ⊢ (StableHlo.held (c : Thread nD τ) (Pipeline.ucRefs τ sig) Wout : sProp 𝕄) := by
  have hsplit : (unscopedBufs (Ix := Unit) (Name := ℕ) (U := UR sig nD τ) (Lvl := ℕ) c (fun b : Ref sig .tc => Wout b) : sProp 𝕄)
      = iprop((Pipeline.arrBufs spec5 c (fun b : Ref sig .tc => Wout b) : sProp 𝕄) ∗ Pipeline.unscopedRest spec5 c (fun b : Ref sig .tc => Wout b)) :=
    Pipeline.unscopedBufs_split₀ cfgs 5 winFacts₀5.arr_unscoped c (fun b : Ref sig .tc => Wout b)
  rw [← Pipeline.unscopedBufs_held (Ix := Unit) (Name := ℕ) (U := UR sig nD τ) (Lvl := ℕ), hsplit, arrBufs5_eq, arrays5_eq]
  refine sep_mono ?_ (Entails.of_eq ?_)
  · rw [(dat5 V c).arrAt_in 0 rfl, (dat5 V c).arrAt_in 1 rfl, A_eq5, A_eq5]
    show iprop((((c : Thread nD τ).loc main_v59) ↦{fullShare.left} V c main_v59) ∗ (((c : Thread nD τ).loc main_v59) ↦{fullShare.right} V c main_v59)
        ∗ (((c : Thread nD τ).loc main_v60) ↦{fullShare} (dat5 V c).arrAt 2 cfg5.N))
      ⊢ iprop((((c : Thread nD τ).loc main_v59) ↦{fullShare} Wout (Proc.devRef .tc main_v59)) ∗ (((c : Thread nD τ).loc main_v60) ↦{fullShare} Wout (Proc.devRef .tc main_v60)))
    rw [hout, hoff main_v59 (by decide), ← hV main_v59]
    iintro ⟨Hl, Hr, H60⟩
    isplitl [Hl Hr]
    · iapply (pointsTo_share (PosShare.mem_left_op_right fullShare)).2
      isplitl [Hl]; · iexact Hl
      iexact Hr
    iexact H60
  · unfold Z5 Pipeline.unscopedRest
    exact bigSep_congr fun b hb => by
      have hne : b ≠ main_v60 := fun e =>
        (Finset.mem_sdiff.mp hb).2 (e ▸ Finset.mem_image.mpr ⟨(2 : Fin 3), Finset.mem_univ _, rfl⟩)
      rw [hV b, ← hoff b hne]

/-- ENTRY and EXIT under the update modality, as a region's protocol states them. -/
theorem entry5 (c : Dev nD) (Win : Valuation τ sig (Elt F)) (hV : ∀ b : Ref sig .tc, V c b = Win (Proc.devRef .tc b)) :
    (StableHlo.held (c : Thread nD τ) (Pipeline.ucRefs τ sig) Win : sProp 𝕄)
      ⊢ |={Set.univ}=> iprop((dat5 V c).arrays ((dat5 V c).arrAt · 0) ∗ Z5 V c) :=
  (entry5_plain V c Win hV).trans fupd_intro

theorem exit5 (c : Dev nD) (Win Wout : Valuation τ sig (Elt F)) (hV : ∀ b : Ref sig .tc, V c b = Win (Proc.devRef .tc b))
    (hoff : ∀ b : Ref sig .tc, b ≠ main_v60 → Wout (Proc.devRef .tc b) = Win (Proc.devRef .tc b))
    (hout : Wout (Proc.devRef .tc main_v60) = (dat5 V c).arrAt 2 cfg5.N) :
    iprop((dat5 V c).arrays ((dat5 V c).arrAt · cfg5.N) ∗ Z5 V c)
      ⊢ |={Set.univ}=> (StableHlo.held (c : Thread nD τ) (Pipeline.ucRefs τ sig) Wout : sProp 𝕄) :=
  (exit5_plain V c Win Wout hV hoff hout).trans fupd_intro

end Cert.KernelIdeal.Hand

end
-- ==== Proof.KI.HostVals.lean ====
/-
  What the small host stretches leave in the buffers the kernel regions read, for arbitrary contents `W` at the stretch's
  entry. Each is a reshape of a vector to a one-row matrix, a zero row, or the concatenation of two given arrays; the
  value left is an explicit term of `W` at the stretch's inputs. Beside each equation stands its reading at an index:
  a one-row reshape at `(0, q)` is the vector at `q` (both have row-major position `q`), a zero row is zero, a
  concatenation along an axis reads the first piece below that piece's extent and the second piece, shifted back by
  that extent, from there on.
-/
import proofs.«416422_j54030688584368_1_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-! ## A one-row reshape read at an index -/

/-- A vector of length `n` reshaped to one row: the entry at `(0, q)` is the vector's entry at `q`. -/
theorem hostRow_reshape_apply {α : Type} {n : Nat} (x : (⟨1, ![n]⟩ : Shape).Idx → α)
    (h : (⟨1, ![n]⟩ : Shape).ShapeCasts ⟨2, ![1, n]⟩) (q : Fin n) :
    shapeCast (⟨2, ![1, n]⟩ : Shape) x h (ix2 (0 : Fin 1) q) = x (ix1 q) :=
  shapeCast_apply x h _ _ (by
    rw [Shape.rowMajor_val_one, Shape.rowMajor_val_two]
    show q.val = (0 : Fin 1).val * n + q.val
    simp)

/-! ## The long stretch: a zero row of length 512 -/

set_option maxHeartbeats 1000000 in
/-- The zero constant broadcast to length 512 and reshaped to one row. -/
theorem hostOps0_2_v47 (W : Valuation τ sig (Elt F)) :
    StableHlo.after (hostOps0_2 (F := F)) W (Proc.devRef .tc main_v47)
      = (shapeCast S1x512 (broadcastInDim S512 ![] bcast_S_S512 (constant (F := F) S_ .f32 0x00000000#32))
          shapeCasts_S512_S1x512 : FVec F S1x512 .f32) := by
  show StableHlo.after hostOps0_2 W (Proc.devRef .tc main_v47) = _
  simp only [hostOps0_2]
  after_results
  rfl

/-- That row is zero over the extended reals. -/
theorem hostOps0_2_v47_apply (W : Valuation τ sig (Elt Ideal)) (i : S1x512.Idx) :
    StableHlo.after (hostOps0_2 (F := Ideal)) W (Proc.devRef .tc main_v47) i = (0 : EReal) := by
  rw [hostOps0_2_v47]
  exact Ideal.ofBits_zero_f32

/-! ## One-row reshapes of given vectors -/

/-- Argument 3, a vector of length 512, as one row. -/
theorem hostOps1_v49 (W : Valuation τ sig (Elt F)) :
    StableHlo.after (hostOps1 (F := F)) W (Proc.devRef .tc main_v49)
      = (shapeCast S1x512 (W (Proc.devRef .tc main_arg3) : FVec F S512 .f32) shapeCasts_S512_S1x512 : FVec F S1x512 .f32) := by
  show StableHlo.after hostOps1 W (Proc.devRef .tc main_v49) = _
  simp only [hostOps1]
  after_results
  rfl

/-- Its entry at `(0, q)` is the vector's entry at `q`. -/
theorem hostOps1_v49_apply (W : Valuation τ sig (Elt F)) (q : Fin 512) :
    StableHlo.after (hostOps1 (F := F)) W (Proc.devRef .tc main_v49) (ix2 (0 : Fin 1) q)
      = (W (Proc.devRef .tc main_arg3) : FVec F S512 .f32) (ix1 q) := by
  rw [hostOps1_v49]
  exact hostRow_reshape_apply _ _ q

/-- The concatenated vector `main_v52`, of length 512, as one row. -/
theorem hostOps3_v56 (W : Valuation τ sig (Elt F)) :
    StableHlo.after (hostOps3 (F := F)) W (Proc.devRef .tc main_v56)
      = (shapeCast S1x512 (W (Proc.devRef .tc main_v52) : FVec F S512 .f32) shapeCasts_S512_S1x512 : FVec F S1x512 .f32) := by
  show StableHlo.after hostOps3 W (Proc.devRef .tc main_v56) = _
  simp only [hostOps3]
  after_results
  rfl

/-- Its entry at `(0, q)` is the vector's entry at `q`. -/
theorem hostOps3_v56_apply (W : Valuation τ sig (Elt F)) (q : Fin 512) :
    StableHlo.after (hostOps3 (F := F)) W (Proc.devRef .tc main_v56) (ix2 (0 : Fin 1) q)
      = (W (Proc.devRef .tc main_v52) : FVec F S512 .f32) (ix1 q) := by
  rw [hostOps3_v56]
  exact hostRow_reshape_apply _ _ q

/-- Argument 9, a vector of length 256, as one row. -/
theorem hostOps4_v58 (W : Valuation τ sig (Elt F)) :
    StableHlo.after (hostOps4 (F := F)) W (Proc.devRef .tc main_v58)
      = (shapeCast S1x256 (W (Proc.devRef .tc main_arg9) : FVec F S256 .f32) shapeCasts_S256_S1x256 : FVec F S1x256 .f32) := by
  show StableHlo.after hostOps4 W (Proc.devRef .tc main_v58) = _
  simp only [hostOps4]
  after_results
  rfl

/-- Its entry at `(0, q)` is the vector's entry at `q`. -/
theorem hostOps4_v58_apply (W : Valuation τ sig (Elt F)) (q : Fin 256) :
    StableHlo.after (hostOps4 (F := F)) W (Proc.devRef .tc main_v58) (ix2 (0 : Fin 1) q)
      = (W (Proc.devRef .tc main_arg9) : FVec F S256 .f32) (ix1 q) := by
  rw [hostOps4_v58]
  exact hostRow_reshape_apply _ _ q

/-- Argument 11, a vector of length 512, as one row. -/
theorem hostOps6_v61 (W : Valuation τ sig (Elt F)) :
    StableHlo.after (hostOps6 (F := F)) W (Proc.devRef .tc main_v61)
      = (shapeCast S1x512 (W (Proc.devRef .tc main_arg11) : FVec F S512 .f32) shapeCasts_S512_S1x512 : FVec F S1x512 .f32) := by
  show StableHlo.after hostOps6 W (Proc.devRef .tc main_v61) = _
  simp only [hostOps6]
  after_results
  rfl

/-- Its entry at `(0, q)` is the vector's entry at `q`. -/
theorem hostOps6_v61_apply (W : Valuation τ sig (Elt F)) (q : Fin 512) :
    StableHlo.after (hostOps6 (F := F)) W (Proc.devRef .tc main_v61) (ix2 (0 : Fin 1) q)
      = (W (Proc.devRef .tc main_arg11) : FVec F S512 .f32) (ix1 q) := by
  rw [hostOps6_v61]
  exact hostRow_reshape_apply _ _ q

/-- Argument 13, a vector of length 512, as one row. -/
theorem hostOps7_v63 (W : Valuation τ sig (Elt F)) :
    StableHlo.after (hostOps7 (F := F)) W (Proc.devRef .tc main_v63)
      = (shapeCast S1x512 (W (Proc.devRef .tc main_arg13) : FVec F S512 .f32) shapeCasts_S512_S1x512 : FVec F S1x512 .f32) := by
  show StableHlo.after hostOps7 W (Proc.devRef .tc main_v63) = _
  simp only [hostOps7]
  after_results
  rfl

/-- Its entry at `(0, q)` is the vector's entry at `q`. -/
theorem hostOps7_v63_apply (W : Valuation τ sig (Elt F)) (q : Fin 512) :
    StableHlo.after (hostOps7 (F := F)) W (Proc.devRef .tc main_v63) (ix2 (0 : Fin 1) q)
      = (W (Proc.devRef .tc main_arg13) : FVec F S512 .f32) (ix1 q) := by
  rw [hostOps7_v63]
  exact hostRow_reshape_apply _ _ q

/-- Argument 15, a vector of length 16, as one row. -/
theorem hostOps8_v65 (W : Valuation τ sig (Elt F)) :
    StableHlo.after (hostOps8 (F := F)) W (Proc.devRef .tc main_v65)
      = (shapeCast S1x16 (W (Proc.devRef .tc main_arg15) : FVec F S16 .f32) shapeCasts_S16_S1x16 : FVec F S1x16 .f32) := by
  show StableHlo.after hostOps8 W (Proc.devRef .tc main_v65) = _
  simp only [hostOps8]
  after_results
  rfl

/-- Its entry at `(0, q)` is the vector's entry at `q`. -/
theorem hostOps8_v65_apply (W : Valuation τ sig (Elt F)) (q : Fin 16) :
    StableHlo.after (hostOps8 (F := F)) W (Proc.devRef .tc main_v65) (ix2 (0 : Fin 1) q)
      = (W (Proc.devRef .tc main_arg15) : FVec F S16 .f32) (ix1 q) := by
  rw [hostOps8_v65]
  exact hostRow_reshape_apply _ _ q

/-! ## The stretch of two concatenations and a zero row -/

/-- Arguments 4 and 6, two `512 × 256` matrices, side by side as one `512 × 512` matrix. -/
theorem hostOps2_v51 (W : Valuation τ sig (Elt F)) :
    StableHlo.after (hostOps2 (F := F)) W (Proc.devRef .tc main_v51)
      = (concatenate S512x512 1 [⟨S512x256, (W (Proc.devRef .tc main_arg4) : FVec F S512x256 .f32)⟩,
          ⟨S512x256, (W (Proc.devRef .tc main_arg6) : FVec F S512x256 .f32)⟩]
          concatenates_S512x256_S512x256_S512x512_d1 : FVec F S512x512 .f32) := by
  show StableHlo.after hostOps2 W (Proc.devRef .tc main_v51) = _
  simp only [hostOps2]
  after_results

/-- Arguments 5 and 7, two vectors of length 256, end to end as one vector of length 512. -/
theorem hostOps2_v52 (W : Valuation τ sig (Elt F)) :
    StableHlo.after (hostOps2 (F := F)) W (Proc.devRef .tc main_v52)
      = (concatenate S512 0 [⟨S256, (W (Proc.devRef .tc main_arg5) : FVec F S256 .f32)⟩,
          ⟨S256, (W (Proc.devRef .tc main_arg7) : FVec F S256 .f32)⟩]
          concatenates_S256_S256_S512_d0 : FVec F S512 .f32) := by
  show StableHlo.after hostOps2 W (Proc.devRef .tc main_v52) = _
  simp only [hostOps2]
  after_results

/-- The zero constant broadcast to length 512 and reshaped to one row. -/
theorem hostOps2_v54 (W : Valuation τ sig (Elt F)) :
    StableHlo.after (hostOps2 (F := F)) W (Proc.devRef .tc main_v54)
      = (shapeCast S1x512 (broadcastInDim S512 ![] bcast_S_S512 (constant (F := F) S_ .f32 0x00000000#32))
          shapeCasts_S512_S1x512 : FVec F S1x512 .f32) := by
  show StableHlo.after hostOps2 W (Proc.devRef .tc main_v54) = _
  simp only [hostOps2]
  after_results
  rfl

/-- That row is zero over the extended reals. -/
theorem hostOps2_v54_apply (W : Valuation τ sig (Elt Ideal)) (i : S1x512.Idx) :
    StableHlo.after (hostOps2 (F := Ideal)) W (Proc.devRef .tc main_v54) i = (0 : EReal) := by
  rw [hostOps2_v54]
  exact Ideal.ofBits_zero_f32

/-- The side-by-side matrix at a column below 256 is argument 4 there. -/
theorem hostOps2_v51_apply_left (W : Valuation τ sig (Elt F)) (p : Fin 512) (q : Fin 512) (hq : q.val < 256) :
    StableHlo.after (hostOps2 (F := F)) W (Proc.devRef .tc main_v51) (ix2 p q)
      = (W (Proc.devRef .tc main_arg4) : FVec F S512x256 .f32) (ix2 p (⟨q.val, hq⟩ : Fin 256)) := by
  rw [hostOps2_v51]
  refine concatenate_pair_apply_left (t := S512x512) (s₁ := S512x256) (s₂ := S512x256) (1 : Fin 2) _ _ _ (ix2 p q) rfl (ix2 p (⟨q.val, hq⟩ : Fin 256)) ?_
  intro b
  fin_cases b <;> rfl

/-- The side-by-side matrix at a column from 256 on is argument 6 at that column less 256. -/
theorem hostOps2_v51_apply_right (W : Valuation τ sig (Elt F)) (p : Fin 512) (q : Fin 512) (hq : 256 ≤ q.val) :
    StableHlo.after (hostOps2 (F := F)) W (Proc.devRef .tc main_v51) (ix2 p q)
      = (W (Proc.devRef .tc main_arg6) : FVec F S512x256 .f32) (ix2 p (⟨q.val - 256, by omega⟩ : Fin 256)) := by
  rw [hostOps2_v51]
  refine concatenate_pair_apply_right (t := S512x512) (s₁ := S512x256) (s₂ := S512x256) (1 : Fin 2) _ _ _ (ix2 p q) rfl rfl (ix2 p (⟨q.val - 256, by omega⟩ : Fin 256)) ?_ ?_
  · intro b hb
    fin_cases b
    · rfl
    · exact absurd rfl hb
  · show q.val - 256 + 256 = q.val
    omega

/-- The end-to-end vector at a position below 256 is argument 5 there. -/
theorem hostOps2_v52_apply_left (W : Valuation τ sig (Elt F)) (q : Fin 512) (hq : q.val < 256) :
    StableHlo.after (hostOps2 (F := F)) W (Proc.devRef .tc main_v52) (ix1 q)
      = (W (Proc.devRef .tc main_arg5) : FVec F S256 .f32) (ix1 (⟨q.val, hq⟩ : Fin 256)) := by
  rw [hostOps2_v52]
  refine concatenate_pair_apply_left (t := S512) (s₁ := S256) (s₂ := S256) (0 : Fin 1) _ _ _ (ix1 q) rfl (ix1 (⟨q.val, hq⟩ : Fin 256)) ?_
  intro b
  fin_cases b
  rfl

/-- The end-to-end vector at a position from 256 on is argument 7 at that position less 256. -/
theorem hostOps2_v52_apply_right (W : Valuation τ sig (Elt F)) (q : Fin 512) (hq : 256 ≤ q.val) :
    StableHlo.after (hostOps2 (F := F)) W (Proc.devRef .tc main_v52) (ix1 q)
      = (W (Proc.devRef .tc main_arg7) : FVec F S256 .f32) (ix1 (⟨q.val - 256, by omega⟩ : Fin 256)) := by
  rw [hostOps2_v52]
  refine concatenate_pair_apply_right (t := S512) (s₁ := S256) (s₂ := S256) (0 : Fin 1) _ _ _ (ix1 q) rfl rfl (ix1 (⟨q.val - 256, by omega⟩ : Fin 256)) ?_ ?_
  · intro b hb
    fin_cases b
    exact absurd rfl hb
  · show q.val - 256 + 256 = q.val
    omega

end Cert.KernelIdeal.Hand

end
-- ==== Proof.Spec.lean ====
/-
  The mathematics both programs are compared through, stated once over the extended reals and over no program:
  a dense matrix is a function on pairs of indices, a matrix product is a finite sum of products, a bias is added
  to every row, the rectifier is the maximum with zero, the logistic function is 1 / (1 + exp (-v)).
  Every stage of the graph auto-encoder (the two graph-convolution layers, the reparameterised latent, the
  conditioned latent, the three decoders) is a composition of these, and each side of the certificate is shown to
  compute that composition.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns, as a function of its index. -/
abbrev Mat (r c : Nat) : Type := (⟨2, ![r, c]⟩ : Shape).Idx → EReal
/-- A vector of extended reals of length `n`. -/
abbrev Vc (n : Nat) : Type := (⟨1, ![n]⟩ : Shape).Idx → EReal

/-- The matrix product: entry `(p, q)` is the sum over `j` of `a p j * b j q`. -/
def mm {r k c : Nat} (a : Mat r k) (b : Mat k c) : Mat r c :=
  fun i => ∑ j : Fin k, a (ix2 (i 0 : Fin r) j) * b (ix2 j (i 1 : Fin c))

/-- The product with the transpose of the second factor: entry `(p, q)` is the sum over `j` of `a p j * b q j`. -/
def mmT {r k c : Nat} (a : Mat r k) (b : Mat c k) : Mat r c :=
  fun i => ∑ j : Fin k, a (ix2 (i 0 : Fin r) j) * b (ix2 (i 1 : Fin c) j)

/-- A one-row matrix added to every row. -/
def addRow {r c : Nat} (a : Mat r c) (b : Mat 1 c) : Mat r c :=
  fun i => a i + b (ix2 (0 : Fin 1) (i 1 : Fin c))

/-- The rectifier, entry by entry. -/
def relu {r c : Nat} (a : Mat r c) : Mat r c := fun i => max (a i) 0

end Cert.Spec

end
-- ==== Proof.KI.Val0.lean ====
/-
  Region 0 of the program (an affine map: a matrix of activations times a matrix of weights, a bias row added to every
  row), value side at the ideal instance: the array the region leaves is that matrix, whatever the region found in its
  arrays. The body's payload is read at an entry (a block product into the zero accumulator is a finite sum; a format
  change, and a cast to the same shape, is the identity on the values), each of the eight row blocks written back is
  the corresponding block of that matrix, and the eight blocks of 1024 rows tile the 8192 rows.
-/
import proofs.«416422_j54030688584368_1_alg».proof.Proof.KI.Reg0
import proofs.«416422_j54030688584368_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

/-! ## The block product read at an entry -/

theorem aff0_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem aff0_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem aff0_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem aff0_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

set_option maxHeartbeats 400000 in
/-- Into the zero accumulator, the product of a block of 1024 rows with the weight matrix, at entry `(p, q)`, is the sum
    over the contracted axis of the row's entries times the column's. -/
theorem aff0_mm_apply (x : FVec Ideal S1024x512 .bf16) (w : FVec Ideal S512x512 .bf16) (p : Fin 1024) (q : Fin 512) :
    matmul dot_S1024x512_S512x512_S1024x512_1_0_0_1_n_n none x w (constant (F := Ideal) S1024x512 .f32 0x00000000#32) (ix2 p q)
      = ∑ k : Fin 512, x (ix2 p k) * w (ix2 k q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact aff0_lhs_0 _ _
    | ⟨1, _⟩ => exact (aff0_lhs_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (aff0_rhs_0 _ _).trans hk
    | ⟨1, _⟩ => exact aff0_rhs_1 _ _)
  rw [el, er]

/-- The bias row broadcast over the block reads the row's entry in the same column. -/
theorem aff0_bias_apply (b : FVec Ideal S1x512 .f32) (p : Fin 1024) (q : Fin 512) :
    broadcastTo S1024x512 b broadcasts_S1x512_S1024x512 (ix2 p q) = b (ix2 (0 : Fin 1) q) :=
  broadcastTo_apply b broadcasts_S1x512_S1024x512 (ix2 p q) (ix2 (0 : Fin 1) q) (fun a => by
    match a with
    | ⟨0, _⟩ => rfl
    | ⟨1, _⟩ => rfl)

set_option maxHeartbeats 400000 in
/-- The body's payload at an entry of the block: the block's row against the weights' column, plus the bias (the format
    changes and the casts to the same shape are the identity on the values). -/
theorem aff0_pay_apply (x : Vec Ideal S1024x512 .f32) (w : Vec Ideal S512x512 .f32) (b : Vec Ideal S1x512 .f32) (p : Fin 1024) (q : Fin 512) :
    k0_pay1 (F := Ideal) x w b (ix2 p q) = (∑ k : Fin 512, x (ix2 p k) * w (ix2 k q)) + b (ix2 (0 : Fin 1) q) := by
  unfold k0_pay1
  simp only [truncf_apply, addf_apply, shapeCast_self, aff0_mm_apply, aff0_bias_apply] <;> rfl

/-! ## From the blocks to the array -/

section Value
variable (V : (c : Dev nD) → (b : Ref sig .tc) → Buf (Elt Ideal) ((c : Thread nD τ).loc b))

theorem aff0_zeros : (![0, 0] : Fin 2 → Nat) = fun _ => 0 := funext fun a => by fin_cases a <;> rfl

/-- The printed index maps over the eight points: the row block of the activations and of the result is the point, the
    weights and the bias are whole. -/
theorem aff0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the region's result array ends holding: the activations times the weights, the bias added to every row. -/
abbrev aff0_G (c : Dev nD) : Spec.Mat 8192 512 :=
  Spec.addRow (Spec.mm (V c main_arg0 : Spec.Mat 8192 512) (V c main_arg2 : Spec.Mat 512 512)) (V c main_v47 : Spec.Mat 1 512)

set_option maxHeartbeats 1000000 in
/-- Block `t` of the result, entry by entry: the payload on the three input blocks at `j` is the matrix at `j`'s place in
    the array (a block's coordinate in the array is its block index times the block size plus the coordinate inside). -/
theorem aff0_block (c : Dev nD) (t : Fin cfg0.N) (j : S1024x512.Idx) :
    k0_pay1 (F := Ideal) (iblk0 V c 0 t) (iblk0 V c 1 t) (iblk0 V c 2 t) j = aff0_G V c (((cfg0.win 3).blk t).view.emb j) := by
  obtain ⟨e00, e01, e10, e11, e20, e21, e30, e31⟩ := aff0_idx t
  obtain ⟨p, q, rfl⟩ : ∃ (p : Fin 1024) (q : Fin 512), j = ix2 p q := ⟨j 0, j 1, eq_ix2 j⟩
  rw [aff0_pay_apply]
  have hp : p.val < 1024 := p.isLt
  have hq : q.val < 512 := q.isLt
  have h0 : ∀ k : Fin 512, iblk0 V c 0 t (ix2 p k) = (V c main_arg0 : Spec.Mat 8192 512) (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * k.val = k.val; omega
  have h1 : ∀ k : Fin 512, iblk0 V c 1 t (ix2 k q) = (V c main_arg2 : Spec.Mat 512 512) (ix2 k ((((cfg0.win 3).blk t).view.emb (ix2 p q)) 1)) := fun k => by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 512 + 1 * q.val = win0_3.index t (1 : Fin 2) * 512 + 1 * q.val; omega
  have h2 : iblk0 V c 2 t (ix2 (0 : Fin 1) q) = (V c main_v47 : Spec.Mat 1 512) (ix2 (0 : Fin 1) ((((cfg0.win 3).blk t).view.emb (ix2 p q)) 1)) := by
    show V c main_v47 (((cfg0.win 2).blk t).view.emb (ix2 (0 : Fin 1) q)) = _
    refine congrArg (V c main_v47) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + 1 * q.val; omega
  rw [h2, Finset.sum_congr rfl fun k _ => by rw [h0 k, h1 k]]
  rfl

set_option maxHeartbeats 1000000 in
/-- What point `t` writes back is block `t` of that matrix. -/
theorem aff0_flushed (c : Dev nD) (t : Fin cfg0.N) :
    (dat0 (F := Ideal) V c).flushed 3 t = ((cfg0.win 3).blk t).view.read (Elt Ideal) (aff0_G V c) := by
  show (cfg0.win 3).cut (grid0.coords t) ((dat0 V c).after 3 t) = _
  rw [after0_3]
  unfold out0_3
  rw [View.canon_unit_zero aff0_zeros]
  simp only [View.ld_unit_zero (S := S1024x512) aff0_zeros, View.ld_unit_zero (S := S512x512) aff0_zeros, View.ld_unit_zero (S := S1x512) aff0_zeros]
  funext j
  exact aff0_block V c t j

/-- An index of the array is in point `t`'s block iff each coordinate is in the block's range on its axis. -/
theorem aff0_mem_blk (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v48).slice (win0_3.rect t)).set ↔ _
  rw [View.set_slice_whole, Rect.mem_set_unit]
  exact Iff.rfl

/-- Every row block of the result is some point's. -/
theorem aff0_onto : ∀ r : Fin 8, ∃ t : Fin cfg0.N, win0_3.index t = ![r.val, 0] :=
  (by decide +kernel : ∀ r : Fin 8, ∃ t : Fin grid0.N, win0_3.index t = ![r.val, 0])

/-- The eight row blocks of 1024 rows tile the 8192 rows: row `r` is in the block of point `r / 1024`. -/
theorem aff0_cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ := aff0_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [aff0_mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY the region leaves: the activations times the weights, the bias row added to every row. -/
theorem val0_3 (c : Dev nD) :
    (dat0 (F := Ideal) V c).arrAt 3 cfg0.N
      = Spec.addRow (Spec.mm (V c main_arg0) (V c main_arg2)) (V c main_v47) :=
  (dat0 V c).arrAt_eq_of_cover 3 (aff0_G V c) (fun t _ => aff0_flushed V c t) (aff0_cover)

end Value

end Cert.KernelIdeal.Hand

end
-- ==== Proof.KI.Val1.lean ====
/-
  Region 1 of the program, value side, at the extended reals: the first graph-convolution layer.
  The region walks an 8 × 4 grid; point 4·i + k multiplies the 1024 × 2048 block (i, k) of the adjacency matrix by
  the 2048 × 512 block k of the features and adds the product into a scratch block, which is reset to zero at k = 0;
  at k = 3 the output's row block i receives the rectifier of the scratch plus the bias row. Over the extended
  reals the four partial sums over 2048 columns are one sum over 8192 columns, so the array the region leaves is
  relu (A · H + bias).
-/
import proofs.«416422_j54030688584368_1_alg».proof.Proof.Gen.KernelIdeal.Skeleton
import proofs.«416422_j54030688584368_1_alg».proof.Proof.Gen.KernelIdeal.Points
import proofs.«416422_j54030688584368_1_alg».proof.Proof.Spec
import proofs.«416422_j54030688584368_1_alg».proof.Proof.KI.Reg1
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The three payloads of the body, read at an index -/

/-- The reset stores the zero block. -/
theorem k1_pay1_apply (p : Fin 1024) (q : Fin 512) : k1_pay1 (F := Ideal) (ix2 p q) = 0 := by
  unfold k1_pay1
  rw [shapeCast_self]
  exact Ideal.ofBits_zero_f32

/-- The product's left operand index at output index i and contraction position q: row i₀ … -/
theorem lhs_k1mm_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- … column q; -/
theorem lhs_k1mm_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
/-- the right operand's: row q … -/
theorem rhs_k1mm_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
/-- … column i₁. -/
theorem rhs_k1mm_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The block product into the zero accumulator, at entry (p, q): the sum over the 2048 columns of the block. -/
theorem k1_mm_apply (a : S1024x2048.Idx → EReal) (b : S2048x512.Idx → EReal) (p : Fin 1024) (q : Fin 512) :
    FloatOps.matmul (F := Ideal) (φ₁ := .bf16) (φ₂ := .bf16) dot_S1024x2048_S2048x512_S1024x512_1_0_0_1_n_n none a b
        (constant (F := Ideal) S1024x512 .f32 0x00000000#32) (ix2 p q)
      = ∑ j : Fin 2048, a (ix2 p j) * b (ix2 j q) := by
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_k1mm_0 _ _
    | ⟨1, _⟩ => exact (lhs_k1mm_1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_k1mm_0 _ _).trans hk
    | ⟨1, _⟩ => exact rhs_k1mm_1 _ _)
  rw [el, er]

/-- The accumulation step: the scratch plus the block product. -/
theorem k1_pay2_apply (v3 : Vec Ideal S1024x512 .f32) (v4 : Vec Ideal S1024x2048 .bf16) (v6 : Vec Ideal S2048x512 .bf16)
    (p : Fin 1024) (q : Fin 512) :
    k1_pay2 (F := Ideal) v3 v4 v6 (ix2 p q) = v3 (ix2 p q) + ∑ j : Fin 2048, v4 (ix2 p j) * v6 (ix2 j q) := by
  unfold k1_pay2
  simp only [shapeCast_self]
  refine (addf_apply _ _ _).trans ?_
  exact congrArg (v3 (ix2 p q) + ·) (k1_mm_apply v4 v6 p q)

/-- The last step: the rectifier of the scratch plus the bias row. -/
theorem k1_pay3_apply (v16 : Vec Ideal S1024x512 .f32) (v17 : Vec Ideal S1x512 .f32) (p : Fin 1024) (q : Fin 512) :
    k1_pay3 (F := Ideal) v16 v17 (ix2 p q) = max (v16 (ix2 p q) + v17 (ix2 0 q)) 0 := by
  unfold k1_pay3
  simp only [shapeCast_self]
  have hb : broadcastTo S1024x512 v17 broadcasts_S1x512_S1024x512 (ix2 p q) = v17 (ix2 0 q) :=
    broadcastTo_apply v17 broadcasts_S1x512_S1024x512 (ix2 p q) (ix2 0 q) (fun a => by
      match a with
      | ⟨0, _⟩ => rfl
      | ⟨1, _⟩ => rfl)
  show max (v16 (ix2 p q) + broadcastTo S1024x512 v17 broadcasts_S1x512_S1024x512 (ix2 p q)) (Ideal.ofBits .f32 0x00000000#32) = _
  rw [hb, Ideal.ofBits_zero_f32]

/-! ## Four sums over 2048 columns are one sum over 8192 -/

/-- A sum over 8192 indices, cut into four consecutive runs of 2048: only associativity and commutativity of the
    addition are used, so it holds over the extended reals with no finiteness. -/
theorem sum_four_runs1 {M : Type} [AddCommMonoid M] (f : Fin 8192 → M) :
    ∑ j : Fin 8192, f j
      = ∑ kb : Fin 4, ∑ j : Fin 2048, f ⟨2048 * kb.val + j.val, by have := kb.isLt; have := j.isLt; omega⟩ := by
  rw [← Equiv.sum_comp (finProdFinEquiv (m := 4) (n := 2048)) f, Fintype.sum_prod_type]
  refine Finset.sum_congr rfl fun kb _ => Finset.sum_congr rfl fun j _ => congrArg f (Fin.ext ?_)
  show j.val + 2048 * kb.val = 2048 * kb.val + j.val
  omega

/-! ## The blocks the windows read, entry by entry -/

theorem lt32_1 (t : Fin cfg1.N) : t.val < 32 := Nat.lt_of_lt_of_eq t.isLt N_1

/-- The printed index maps, decided once over the 32 points: point t = 4·i + k reads block (i, k) of the adjacency
    matrix, block k of the features, the one block of the bias, and owns row block i of the output. -/
theorem idx_facts1 : ∀ t : Fin cfg1.N,
      win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

variable (V : (c : Dev nD) → (b : Ref sig .tc) → Buf (Elt Ideal) ((c : Thread nD τ).loc b))

/-- The adjacency block, the feature block and the bias block point t reads, at their literal types. -/
abbrev ablk1 (c : Dev nD) (t : Fin cfg1.N) : Vec Ideal S1024x2048 .bf16 := iblk1 V c 0 t
abbrev hblk1 (c : Dev nD) (t : Fin cfg1.N) : Vec Ideal S2048x512 .bf16 := iblk1 V c 1 t
abbrev bblk1 (c : Dev nD) (t : Fin cfg1.N) : Vec Ideal S1x512 .f32 := iblk1 V c 2 t

/-- Entry (p, j) of the adjacency block at point t is entry (1024·(t/4) + p, 2048·(t%4) + j) of the matrix. -/
theorem ablk1_apply (c : Dev nD) (t : Fin cfg1.N) (p : Fin 1024) (j : Fin 2048) (r cc : Fin 8192)
    (hr : r.val = 1024 * (t.val / 4) + p.val) (hc : cc.val = 2048 * (t.val % 4) + j.val) :
    ablk1 V c t (ix2 p j) = V c main_v45 (ix2 r cc) := by
  show ((cfg1.win 0).blk t).view.read (Elt Ideal) (V c main_v45) (ix2 p j) = _
  rw [View.read_apply]
  obtain ⟨e0, e1, -⟩ := idx_facts1 t
  refine congrArg (V c main_v45) (funext fun a => Fin.ext ?_)
  match a with
  | ⟨0, _⟩ => show win1_0.index t (0 : Fin 2) * 1024 + 1 * p.val = r.val; rw [e0, hr]; omega
  | ⟨1, _⟩ => show win1_0.index t (1 : Fin 2) * 2048 + 1 * j.val = cc.val; rw [e1, hc]; omega

/-- Entry (j, q) of the feature block at point t is entry (2048·(t%4) + j, q) of the features. -/
theorem hblk1_apply (c : Dev nD) (t : Fin cfg1.N) (j : Fin 2048) (q : Fin 512) (cc : Fin 8192)
    (hc : cc.val = 2048 * (t.val % 4) + j.val) :
    hblk1 V c t (ix2 j q) = V c main_v48 (ix2 cc q) := by
  show ((cfg1.win 1).blk t).view.read (Elt Ideal) (V c main_v48) (ix2 j q) = _
  rw [View.read_apply]
  obtain ⟨-, -, e2, e3, -⟩ := idx_facts1 t
  refine congrArg (V c main_v48) (funext fun a => Fin.ext ?_)
  match a with
  | ⟨0, _⟩ => show win1_1.index t (0 : Fin 2) * 2048 + 1 * j.val = cc.val; rw [e2, hc]; omega
  | ⟨1, _⟩ => show win1_1.index t (1 : Fin 2) * 512 + 1 * q.val = q.val; rw [e3]; omega

/-- The bias block is the bias row. -/
theorem bblk1_apply (c : Dev nD) (t : Fin cfg1.N) (q : Fin 512) :
    bblk1 V c t (ix2 0 q) = V c main_v49 (ix2 0 q) := by
  show ((cfg1.win 2).blk t).view.read (Elt Ideal) (V c main_v49) (ix2 0 q) = _
  rw [View.read_apply]
  obtain ⟨-, -, -, -, e4, e5, -⟩ := idx_facts1 t
  refine congrArg (V c main_v49) (funext fun a => Fin.ext ?_)
  match a with
  | ⟨0, _⟩ => show win1_2.index t (0 : Fin 2) * 1 + 1 * 0 = 0; rw [e4]
  | ⟨1, _⟩ => show win1_2.index t (1 : Fin 2) * 512 + 1 * q.val = q.val; rw [e5]; omega

/-! ## The accumulator's terms, read at an index -/

theorem hz1 : (![0, 0] : Fin 2 → Nat) = fun _ => 0 := funext fun a => by fin_cases a <;> rfl

/-- The reset accumulator is zero everywhere. -/
theorem zero1_apply (p : Fin 1024) (q : Fin 512) : zero1 (F := Ideal) (ix2 p q) = 0 := by
  unfold zero1
  rw [View.canon_unit_zero hz1]
  exact k1_pay1_apply p q

/-- One accumulation adds the block product. -/
theorem step1_apply (s : Vec Ideal S1024x512 .f32) (a : Vec Ideal S1024x2048 .bf16) (h : Vec Ideal S2048x512 .bf16)
    (p : Fin 1024) (q : Fin 512) :
    step1 s a h (ix2 p q) = s (ix2 p q) + ∑ j : Fin 2048, a (ix2 p j) * h (ix2 j q) := by
  unfold step1
  rw [View.canon_unit_zero hz1]
  simp only [View.ld_unit_zero (S := S1024x512) hz1, View.ld_unit_zero (S := S1024x2048) hz1,
    View.ld_unit_zero (S := S2048x512) hz1]
  exact k1_pay2_apply s a h p q

/-- The output block is the rectifier of the accumulator plus the bias row. -/
theorem out1_3_apply (s : Vec Ideal S1024x512 .f32) (b : Vec Ideal S1x512 .f32) (p : Fin 1024) (q : Fin 512) :
    out1_3 s b (ix2 p q) = max (s (ix2 p q) + b (ix2 0 q)) 0 := by
  unfold out1_3
  rw [View.canon_unit_zero hz1]
  simp only [View.ld_unit_zero (S := S1024x512) hz1, View.ld_unit_zero (S := S1x512) hz1]
  exact k1_pay3_apply s b p q

/-! ## The accumulation over a row of the grid -/

/-- Column 2048·kb + j of the adjacency matrix (taken modulo 8192 so that it is a column for every kb; below kb = 4
    the remainder does nothing). -/
abbrev col1 (kb : ℕ) (j : Fin 2048) : Fin 8192 := ⟨(2048 * kb + j.val) % 8192, Nat.mod_lt _ (by decide)⟩

/-- Run kb of row r's product: the 2048 terms of columns 2048·kb … 2048·kb + 2047. -/
def run1 (A : Spec.Mat 8192 8192) (H : Spec.Mat 8192 512) (r : Fin 8192) (q : Fin 512) (kb : ℕ) : EReal :=
  ∑ j : Fin 2048, A (ix2 r (col1 kb j)) * H (ix2 (col1 kb j) q)

/-- The block product at point t, entry (p, q), is run t % 4 of row 1024·(t/4) + p. -/
theorem blockprod_eq_run1 (c : Dev nD) (t : Fin cfg1.N) (p : Fin 1024) (q : Fin 512) (r : Fin 8192)
    (hr : r.val = 1024 * (t.val / 4) + p.val) :
    ∑ j : Fin 2048, ablk1 V c t (ix2 p j) * hblk1 V c t (ix2 j q) = run1 (V c main_v45) (V c main_v48) r q (t.val % 4) := by
  unfold run1
  refine Finset.sum_congr rfl fun j _ => ?_
  have hc : (col1 (t.val % 4) j).val = 2048 * (t.val % 4) + j.val := by
    show (2048 * (t.val % 4) + j.val) % 8192 = _
    have := j.isLt
    omega
  rw [ablk1_apply V c t p j r (col1 (t.val % 4) j) hr hc, hblk1_apply V c t j q (col1 (t.val % 4) j) hc]

/-- THE ACCUMULATOR after point n, entry (p, q): runs 0 … n % 4 of row 1024·(n/4) + p, by induction on the point. -/
theorem acc1_apply (c : Dev nD) : ∀ (n : ℕ) (hn : n < cfg1.N) (p : Fin 1024) (q : Fin 512) (r : Fin 8192),
    r.val = 1024 * (n / 4) + p.val →
    acc1 V c n hn (ix2 p q) = ∑ kb ∈ Finset.range (n % 4 + 1), run1 (V c main_v45) (V c main_v48) r q kb := by
  intro n
  induction n with
  | zero =>
    intro hn p q r hr
    have e := acc1_reset V c ⟨0, hn⟩ rfl
    have e' : acc1 V c 0 hn = step1 (zero1 (F := Ideal)) (ablk1 V c ⟨0, hn⟩) (hblk1 V c ⟨0, hn⟩) := e
    rw [e']
    refine (step1_apply (zero1 (F := Ideal)) (ablk1 V c ⟨0, hn⟩) (hblk1 V c ⟨0, hn⟩) p q).trans ?_
    rw [zero1_apply, zero_add, blockprod_eq_run1 V c ⟨0, hn⟩ p q r hr]
    show _ = ∑ kb ∈ Finset.range 1, _
    rw [Finset.sum_range_one]
    rfl
  | succ m ih =>
    intro hn p q r hr
    by_cases h0 : (m + 1) % 4 = 0
    · have e : acc1 V c (m + 1) hn = step1 (zero1 (F := Ideal)) (ablk1 V c ⟨m + 1, hn⟩) (hblk1 V c ⟨m + 1, hn⟩) :=
        acc1_reset V c ⟨m + 1, hn⟩ h0
      rw [e]
      refine (step1_apply (zero1 (F := Ideal)) (ablk1 V c ⟨m + 1, hn⟩) (hblk1 V c ⟨m + 1, hn⟩) p q).trans ?_
      rw [zero1_apply, zero_add, blockprod_eq_run1 V c ⟨m + 1, hn⟩ p q r hr]
      show run1 _ _ r q ((m + 1) % 4) = _
      rw [h0, Finset.sum_range_one]
    · have e : acc1 V c (m + 1) hn
          = step1 (acc1 V c m (Nat.lt_of_succ_lt hn)) (ablk1 V c ⟨m + 1, hn⟩) (hblk1 V c ⟨m + 1, hn⟩) :=
        acc1_step V c ⟨m + 1, hn⟩ h0
      rw [e]
      refine (step1_apply (acc1 V c m (Nat.lt_of_succ_lt hn)) (ablk1 V c ⟨m + 1, hn⟩) (hblk1 V c ⟨m + 1, hn⟩) p q).trans ?_
      have hr' : r.val = 1024 * (m / 4) + p.val := by rw [hr]; omega
      have hk : (m + 1) % 4 = m % 4 + 1 := by omega
      rw [ih (Nat.lt_of_succ_lt hn) p q r hr', blockprod_eq_run1 V c ⟨m + 1, hn⟩ p q r hr]
      show _ + run1 _ _ r q ((m + 1) % 4) = _
      rw [hk]
      exact (Finset.sum_range_succ (fun kb => run1 (V c main_v45) (V c main_v48) r q kb) (m % 4 + 1)).symm

/-- The four runs of a row are the row's whole product. -/
theorem runs_eq_mm1 (A : Spec.Mat 8192 8192) (H : Spec.Mat 8192 512) (r : Fin 8192) (q : Fin 512) :
    ∑ kb ∈ Finset.range 4, run1 A H r q kb = Spec.mm A H (ix2 r q) := by
  show _ = ∑ j : Fin 8192, A (ix2 r j) * H (ix2 j q)
  rw [sum_four_runs1, Finset.sum_range]
  refine Finset.sum_congr rfl fun kb _ => Finset.sum_congr rfl fun j _ => ?_
  have e : col1 kb.val j = ⟨2048 * kb.val + j.val, by have := kb.isLt; have := j.isLt; omega⟩ :=
    Fin.ext (by show (2048 * kb.val + j.val) % 8192 = 2048 * kb.val + j.val; have := kb.isLt; have := j.isLt; omega)
  rw [e]

/-! ## From the blocks to the array -/

/-- What the region leaves in the output array: the rectifier of A · H plus the bias row. -/
abbrev G1 (c : Dev nD) : Spec.Mat 8192 512 :=
  Spec.relu (Spec.addRow (Spec.mm (V c main_v45) (V c main_v48)) (V c main_v49))

/-- WHAT A FLUSHING POINT WRITES BACK (t % 4 = 3) is row block t / 4 of that matrix. -/
theorem flushed1_3_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  obtain ⟨-, -, -, -, -, -, e6, e7⟩ := idx_facts1 t
  show (cfg1.win 3).cut (grid1.coords t) ((dat1 V c).after 3 t) = _
  rw [after1_3]
  funext y
  obtain ⟨p, q, rfl⟩ : ∃ (p : Fin 1024) (q : Fin 512), y = ix2 p q := ⟨y 0, y 1, eq_ix2 y⟩
  rw [View.read_apply]
  have hrow : 1024 * (t.val / 4) + p.val < 8192 := by have := lt32_1 t; have := p.isLt; omega
  have hemb : ((cfg1.win 3).blk t).view.emb (ix2 p q) = ix2 (⟨1024 * (t.val / 4) + p.val, hrow⟩ : Fin 8192) q :=
    funext fun a => Fin.ext (by
      match a with
      | ⟨0, _⟩ => show win1_3.index t (0 : Fin 2) * 1024 + 1 * p.val = 1024 * (t.val / 4) + p.val; rw [e6]; omega
      | ⟨1, _⟩ => show win1_3.index t (1 : Fin 2) * 512 + 1 * q.val = q.val; rw [e7]; omega)
  rw [hemb]
  show out1_3 (acc1 V c t.val t.isLt) (bblk1 V c t) (ix2 p q) = _
  refine (out1_3_apply (acc1 V c t.val t.isLt) (bblk1 V c t) p q).trans ?_
  rw [acc1_apply V c t.val t.isLt p q ⟨1024 * (t.val / 4) + p.val, hrow⟩ rfl, h3, bblk1_apply, runs_eq_mm1]
  rfl

/-- Row r of the output is in the block of point 4·(r / 1024) + 3, which flushes. -/
theorem cover1_3 (i : S8192x512.Idx) :
    ∃ t : Fin cfg1.N, (cfg1.win 3).flush t = true ∧ i ∈ ((cfg1.win 3).blk t).view.set := by
  have hi0 : (i 0).val < 8192 := (i 0).isLt
  have hi1 : (i 1).val < 512 := (i 1).isLt
  let t : Fin cfg1.N := ⟨4 * ((i 0).val / 1024) + 3, Nat.lt_of_lt_of_eq (by omega) N_1.symm⟩
  have ht : t.val = 4 * ((i 0).val / 1024) + 3 := rfl
  obtain ⟨-, -, -, -, -, -, e6, e7⟩ := idx_facts1 t
  refine ⟨t, (flush1_3 t).mpr (by rw [ht]; omega), ?_⟩
  show i ∈ ((View.whole main_v50).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e6, ht]; omega
  | ⟨1, _⟩ =>
    show win1_3.index t (1 : Fin 2) * 512 ≤ (i 1).val ∧ (i 1).val < win1_3.index t (1 : Fin 2) * 512 + 512
    rw [e7]; omega

/-- THE ARRAY THE REGION LEAVES: relu (A · H + bias), of the arrays it was given. -/
theorem val1_3 (c : Dev nD) :
    (dat1 (F := Ideal) V c).arrAt 3 cfg1.N
      = Spec.relu (Spec.addRow (Spec.mm (V c main_v45) (V c main_v48)) (V c main_v49)) :=
  (dat1 (F := Ideal) V c).arrAt_eq_of_cover 3 (G1 V c) (fun t hf => flushed1_3_eq V c t hf) (cover1_3)

end Cert.KernelIdeal.Hand

end
-- ==== Proof.KI.SumSplit.lean ====
/-
  A sum over an initial segment of the naturals, taken a stretch at a time: a function on the first N naturals is
  extended by zero; the sum of the extension over the first m + k naturals is its sum over the first m plus the sum
  of the function over the k indices that follow, and over the whole segment it is the sum of the function. This is
  what turns an accumulation over blocks of a contracted axis into the one sum over the axis.
-/
import Mathlib.Algebra.BigOperators.Fin

open scoped BigOperators

namespace Cert.KernelIdeal.Hand

/-- A function on the first N naturals, extended by zero. -/
def ext0 {M : Type} [Zero M] {N : ℕ} (f : Fin N → M) (j : ℕ) : M := if h : j < N then f ⟨j, h⟩ else 0

/-- The sum of the extension over the whole segment is the sum of the function. -/
theorem sum_range_ext0_full {M : Type} [AddCommMonoid M] {N : ℕ} (f : Fin N → M) :
    ∑ j ∈ Finset.range N, ext0 f j = ∑ j : Fin N, f j := by
  rw [Finset.sum_range]
  exact Finset.sum_congr rfl fun j _ => by unfold ext0; rw [dif_pos j.isLt]

/-- The sum over the first m + k is the sum over the first m plus the sum over the k that follow. -/
theorem sum_range_ext0_add {M : Type} [AddCommMonoid M] {N : ℕ} (f : Fin N → M) (m k : ℕ) (h : m + k ≤ N) :
    ∑ j ∈ Finset.range (m + k), ext0 f j
      = ∑ j ∈ Finset.range m, ext0 f j + ∑ j : Fin k, f ⟨m + j.val, by have := j.isLt; omega⟩ := by
  rw [Finset.sum_range_add]
  refine congrArg (_ + ·) ?_
  rw [Finset.sum_range]
  refine Finset.sum_congr rfl fun j _ => ?_
  unfold ext0
  rw [dif_pos (by have := j.isLt; omega)]

end Cert.KernelIdeal.Hand
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Graph.lean ====
/-
  The graph part of the specification. The edge list is the given `E = 262144` edges followed by one self loop per
  node; `endW ei r e` is end `r` (0 the source, 1 the target) of edge `e` as an index word, `endOf` the node it names.
  A node's degree counts the edges that end at it, `dinv` is the inverse square root of a positive degree (zero
  otherwise), and an edge's weight is the product of `dinv` at its two ends. The dense normalised adjacency `adj`
  collects, at `(i, j)`, the weights of the edges from `j` to `i`; the aggregate `agg ei H` collects, at row `i`, the
  weighted rows `H (source e)` of the edges that end at `i`. The law between them (a matrix product with the dense
  adjacency is the aggregate) is proved in Algebra.lean.
-/
import proofs.«416422_j54030688584368_1_alg».proof.Proof.Spec
import proofs.«416422_j54030688584368_1_alg».proof.Proof.LibGatherScatter

noncomputable section

open scoped BigOperators

namespace Cert.Spec

open Idealize.ShloMosaic Idealize.ShloMosaic.ValueIdx

/-- The edge index array: two rows of `262144` index words. -/
abbrev EI : Type := (⟨2, ![2, 262144]⟩ : Shape).Idx → BitVec 32

/-- Every index word names a node: its signed value lies in `[0, 8192)`. -/
def InRange (ei : EI) : Prop := ∀ j, 0 ≤ (ei j).toInt ∧ (ei j).toInt < 8192

/-- End `r` of edge `e` of the self-looped edge list, as an index word: a given edge's entry of row `r`, or, for the
    loop at node `e - 262144`, that node's number. -/
def endW (ei : EI) (r : Fin 2) (e : Fin 270336) : BitVec 32 :=
  if h : e.val < 262144 then ei (ix2 r (⟨e.val, h⟩ : Fin 262144)) else BitVec.ofNat 32 (e.val - 262144)

/-- The node that end names (the word read signed and clamped into the node range; the identity on a word in range). -/
def endOf (ei : EI) (r : Fin 2) (e : Fin 270336) : Fin 8192 := Cert.Proof.GS.row (by decide) (endW ei r e)

/-- The degree of node `i`: the number of edges (self loops included) that end at it. -/
def deg (ei : EI) (i : Fin 8192) : EReal := ∑ e : Fin 270336 with (endOf ei 1 e).val = i.val, (1 : EReal)

/-- The inverse square root of a positive degree, zero at degree zero. -/
def dinv (ei : EI) (i : Fin 8192) : EReal := if 0 < deg ei i then Ideal.rsqrt (deg ei i) else 0

/-- The symmetric normalisation weight of edge `e`. -/
def nrm (ei : EI) (e : Fin 270336) : EReal := dinv ei (endOf ei 0 e) * dinv ei (endOf ei 1 e)

/-- The dense normalised adjacency: entry `(i, j)` sums the weights of the edges from `j` to `i`. -/
def adj (ei : EI) : Mat 8192 8192 :=
  fun i => ∑ e : Fin 270336 with (endOf ei 1 e).val = (i 0).val ∧ (endOf ei 0 e).val = (i 1).val, nrm ei e

/-- The aggregate of a feature matrix: row `i` sums, over the edges that end at `i`, the source's row times the weight. -/
def agg {D : Nat} (ei : EI) (H : Mat 8192 D) : Mat 8192 D :=
  fun i => ∑ e : Fin 270336 with (endOf ei 1 e).val = (i 0).val, H (ix2 (endOf ei 0 e) (i 1 : Fin D)) * nrm ei e

end Cert.Spec

end
-- ==== Proof.Model.lean ====
/-
  The graph auto-encoder as ONE composition of the specification's operations, as functions of the argument arrays:
  `h1 = relu (agg (x W1) + b1)`, `mu = agg (h1 Wmu) + bmu`, `logvar = agg (h1 Wlv) + blv`,
  `z = mu + eps * exp (logvar / 2)`, the conditioned latent `hd = z + relu (x Wc + bc)`, and the three decoders
  `sigmoid (hd hdᵀ)`, `z Wf + bf`, `relu (z Wl1 + bl1) Wl2 + bl2`. Both programs are shown to compute these.
-/
import proofs.«416422_j54030688584368_1_alg».proof.Proof.Graph

noncomputable section

open scoped BigOperators

namespace Cert.Spec

open Idealize.ShloMosaic Idealize.ShloMosaic.ValueIdx

/-- A vector added to every row of a matrix. -/
def addV {r c : Nat} (a : Mat r c) (b : Vc c) : Mat r c := fun i => a i + b (ix1 (i 1 : Fin c))

/-- The logistic function as both programs spell it: one over one plus the exponential of the negation. -/
def logistic (v : EReal) : EReal := Ideal.div 1 (1 + Ideal.exp (-v))

/-- One half, the exact value of the binary32 word both programs carry. -/
def half : EReal := Ideal.ofBits .f32 0x3F000000#32

section Model

variable (x : Mat 8192 512) (ei : EI) (W1 : Mat 512 512) (b1 : Vc 512) (Wmu : Mat 512 256) (bmu : Vc 256)
  (Wlv : Mat 512 256) (blv : Vc 256) (Wc : Mat 512 256) (bc : Vc 256) (Wf : Mat 256 512) (bf : Vc 512)
  (Wl1 : Mat 256 512) (bl1 : Vc 512) (Wl2 : Mat 512 16) (bl2 : Vc 16) (eps : Mat 8192 256)

/-- The first graph-convolution layer, rectified. -/
def h1 : Mat 8192 512 := relu (addV (agg ei (mm x W1)) b1)
/-- The latent mean. -/
def mu : Mat 8192 256 := addV (agg ei (mm (h1 x ei W1 b1) Wmu)) bmu
/-- The latent log-variance. -/
def logvar : Mat 8192 256 := addV (agg ei (mm (h1 x ei W1 b1) Wlv)) blv
/-- The reparameterised latent. -/
def zz : Mat 8192 256 := fun i =>
  mu x ei W1 b1 Wmu bmu i + eps i * Ideal.exp (half * logvar x ei W1 b1 Wlv blv i)
/-- The latent conditioned on the features. -/
def hd : Mat 8192 256 := fun i =>
  zz x ei W1 b1 Wmu bmu Wlv blv eps i + max (addV (mm x Wc) bc i) 0
/-- The decoded adjacency. -/
def apred : Mat 8192 8192 := fun i =>
  logistic (mmT (hd x ei W1 b1 Wmu bmu Wlv blv Wc bc eps) (hd x ei W1 b1 Wmu bmu Wlv blv Wc bc eps) i)
/-- The decoded features. -/
def xpred : Mat 8192 512 := addV (mm (zz x ei W1 b1 Wmu bmu Wlv blv eps) Wf) bf
/-- The decoded labels. -/
def ylog : Mat 8192 16 :=
  addV (mm (relu (addV (mm (zz x ei W1 b1 Wmu bmu Wlv blv eps) Wl1) bl1)) Wl2) bl2

end Model

end Cert.Spec

end
-- ==== Proof.KI.Val3.lean ====
/-
  Region 3 of the program at the extended reals: the three arrays the region leaves, as functions of the arrays it
  was given. The region runs over a grid of 8 row blocks by 4 blocks of the contracted axis. An accumulator of one row
  block is reset at the first point of each row of the grid and at every point gains the product of the adjacency
  block with the feature block, so after the last point of the row it holds the whole sum over the contracted axis;
  there the three outputs are written: the accumulator plus the bias row, cut into its left half (the mean) and its
  right half (the log-variance), and the mean plus the noise times the exponential of half the log-variance.
-/
import proofs.«416422_j54030688584368_1_alg».proof.Proof.KI.Reg3
import proofs.«416422_j54030688584368_1_alg».proof.Proof.KI.SumSplit
import proofs.«416422_j54030688584368_1_alg».proof.Proof.Model
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## The product of a 1024×2048 block with a 2048×512 block, read at an entry -/

theorem lhs_mm3_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_mm3_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_mm3_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_mm3_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

set_option maxHeartbeats 400000 in
/-- Into the zero accumulator the block product at entry (p, q) is the sum over the contracted axis. -/
theorem mm3_apply (x : FVec Ideal S1024x2048 .bf16) (w : FVec Ideal S2048x512 .bf16) (p : Fin 1024) (q : Fin 512) :
    matmul dot_S1024x2048_S2048x512_S1024x512_1_0_0_1_n_n none x w (constant (F := Ideal) S1024x512 .f32 0x00000000#32) (ix2 p q)
      = ∑ j : Fin 2048, x (ix2 p j) * w (ix2 j q) := by
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 p q) ((ValueIdx.contrEquiv1 dot_S1024x2048_S2048x512_S1024x512_1_0_0_1_n_n 2048 rfl rfl).symm k) = ix2 p k := funext fun a => Fin.ext (by
    match a with
    | ⟨0, _⟩ => exact lhs_mm3_0 _ _
    | ⟨1, _⟩ => exact (lhs_mm3_1 _ _).trans hk)
  have er : dot_S1024x2048_S2048x512_S1024x512_1_0_0_1_n_n.rhsIdx (ix2 p q) ((ValueIdx.contrEquiv1 dot_S1024x2048_S2048x512_S1024x512_1_0_0_1_n_n 2048 rfl rfl).symm k) = ix2 k q := funext fun a => Fin.ext (by
    match a with
    | ⟨0, _⟩ => exact (rhs_mm3_0 _ _).trans hk
    | ⟨1, _⟩ => exact rhs_mm3_1 _ _)
  rw [el, er]

set_option maxHeartbeats 400000 in
/-- The bias row broadcast over the block reads the row's entry in the same column. -/
theorem bias3_apply (b : FVec Ideal S1x512 .f32) (p : Fin 1024) (q : Fin 512) :
    broadcastTo S1024x512 (shapeCast S1x512 b shapeCasts_S1x512_S1x512) broadcasts_S1x512_S1024x512 (ix2 p q) = b (ix2 (0 : Fin 1) q) := by
  rw [shapeCast_self]
  exact broadcastTo_1b_ab_apply b broadcasts_S1x512_S1024x512 p q

/-! ## The payloads of region 3 at an entry -/

set_option maxHeartbeats 400000 in
/-- The reset stores the zero block. -/
theorem pay3_1_apply (p : Fin 1024) (q : Fin 512) : k3_pay1 (F := Ideal) (ix2 p q) = 0 := by
  unfold k3_pay1
  rw [shapeCast_self]
  exact Ideal.ofBits_zero_f32

set_option maxHeartbeats 400000 in
/-- The update adds to the accumulator the row of the left block against the column of the right block. -/
theorem pay3_2_apply (s : Vec Ideal S1024x512 .f32) (x : Vec Ideal S1024x2048 .bf16) (w : Vec Ideal S2048x512 .bf16) (p : Fin 1024) (q : Fin 512) :
    k3_pay2 (F := Ideal) s x w (ix2 p q) = s (ix2 p q) + ∑ j : Fin 2048, x (ix2 p j) * w (ix2 j q) := by
  unfold k3_pay2
  rw [shapeCast_self, shapeCast_self, shapeCast_self, addf_apply, mm3_apply]

set_option maxHeartbeats 400000 in
/-- The accumulator plus the bias row. -/
theorem pay3_3_apply (s : Vec Ideal S1024x512 .f32) (b : Vec Ideal S1x512 .f32) (p : Fin 1024) (q : Fin 512) :
    k3_pay3 (F := Ideal) s b (ix2 p q) = s (ix2 p q) + b (ix2 (0 : Fin 1) q) := by
  unfold k3_pay3
  rw [addf_apply, bias3_apply]

set_option maxHeartbeats 400000 in
/-- The left half of the columns. -/
theorem pay3_4_apply (s : Vec Ideal S1024x512 .f32) (b : Vec Ideal S1x512 .f32) (p : Fin 1024) (q : Fin 256) :
    k3_pay4 (F := Ideal) s b (ix2 p q)
      = s (ix2 p (⟨q.val, by have := q.isLt; omega⟩ : Fin 512)) + b (ix2 (0 : Fin 1) (⟨q.val, by have := q.isLt; omega⟩ : Fin 512)) := by
  unfold k3_pay4
  refine (slice2_axis1_apply 0 (k3_pay3 (F := Ideal) s b) slices_S1024x512_o0_0_S1024x256 p q (⟨q.val, by have := q.isLt; omega⟩ : Fin 512) (by simp)).trans ?_
  exact pay3_3_apply s b p _

set_option maxHeartbeats 400000 in
/-- The right half of the columns. -/
theorem pay3_5_apply (s : Vec Ideal S1024x512 .f32) (b : Vec Ideal S1x512 .f32) (p : Fin 1024) (q : Fin 256) :
    k3_pay5 (F := Ideal) s b (ix2 p q)
      = s (ix2 p (⟨256 + q.val, by have := q.isLt; omega⟩ : Fin 512)) + b (ix2 (0 : Fin 1) (⟨256 + q.val, by have := q.isLt; omega⟩ : Fin 512)) := by
  unfold k3_pay5
  refine (slice2_axis1_apply 256 (k3_pay3 (F := Ideal) s b) slices_S1024x512_o0_256_S1024x256 p q (⟨256 + q.val, by have := q.isLt; omega⟩ : Fin 512) rfl).trans ?_
  exact pay3_3_apply s b p _

set_option maxHeartbeats 400000 in
/-- The reparameterised latent: the left half plus the noise times the exponential of half the right half. -/
theorem pay3_6_apply (s : Vec Ideal S1024x512 .f32) (b : Vec Ideal S1x512 .f32) (e : Vec Ideal S1024x256 .f32) (p : Fin 1024) (q : Fin 256) :
    k3_pay6 (F := Ideal) s b e (ix2 p q)
      = k3_pay4 (F := Ideal) s b (ix2 p q) + e (ix2 p q) * Ideal.exp (Spec.half * k3_pay5 (F := Ideal) s b (ix2 p q)) := by
  unfold k3_pay6
  rfl

/-! ## Region 3 at the extended reals -/

section Val

variable (V : (c : Dev nD) → (b : Ref sig .tc) → Buf (Elt Ideal) ((c : Thread nD τ).loc b))

/-- The adjacency, the features, the bias row and the noise as the region finds them, as matrices. -/
abbrev Aarr3 (c : Dev nD) : Spec.Mat 8192 8192 := V c main_v45
abbrev Harr3 (c : Dev nD) : Spec.Mat 8192 512 := V c main_v55
abbrev barr3 (c : Dev nD) : Spec.Mat 1 512 := V c main_v56
abbrev earr3 (c : Dev nD) : Spec.Mat 8192 256 := V c main_arg16

theorem hz3 : (![0, 0] : Fin 2 → Nat) = fun _ => 0 := funext fun a => by fin_cases a <;> rfl

set_option maxHeartbeats 400000 in
/-- The reset accumulator is zero everywhere. -/
theorem zero3_apply (p : Fin 1024) (q : Fin 512) : zero3 (F := Ideal) (ix2 p q) = 0 := by
  unfold zero3
  rw [View.canon_unit_zero hz3]
  exact pay3_1_apply p q

set_option maxHeartbeats 400000 in
/-- One accumulation adds the row of the left block against the column of the right block. -/
theorem step3_apply (s : Vec Ideal S1024x512 .f32) (a : Vec Ideal S1024x2048 .bf16) (h : Vec Ideal S2048x512 .bf16)
    (p : Fin 1024) (q : Fin 512) :
    step3 (F := Ideal) s a h (ix2 p q) = s (ix2 p q) + ∑ j : Fin 2048, a (ix2 p j) * h (ix2 j q) := by
  unfold step3
  rw [View.canon_unit_zero hz3, View.ld_unit_zero (S := S1024x512) hz3, View.ld_unit_zero (S := S1024x2048) hz3,
    View.ld_unit_zero (S := S2048x512) hz3]
  exact pay3_2_apply s a h p q

/-- The printed index maps over the grid: the row block is the point's quotient by 4, the contracted block its
    remainder. -/
theorem idx_facts3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0
    ∧ win3_4.index t (0 : Fin 2) = t.val / 4 ∧ win3_4.index t (1 : Fin 2) = 0
    ∧ win3_5.index t (0 : Fin 2) = t.val / 4 ∧ win3_5.index t (1 : Fin 2) = 0
    ∧ win3_6.index t (0 : Fin 2) = t.val / 4 ∧ win3_6.index t (1 : Fin 2) = 0 :=
  (by decide +kernel : ∀ t : Fin grid3.N, _)

theorem N3 : cfg3.N = 32 := by decide +kernel

set_option maxHeartbeats 400000 in
/-- The left block at a point reads the adjacency at the point's row block and contracted block. -/
theorem Ablk3_apply (c : Dev nD) (t : Fin cfg3.N) (p : Fin 1024) (j : Fin 2048) (r : Fin 8192) (k : Fin 8192)
    (hr : r.val = 1024 * (t.val / 4) + p.val) (hk : k.val = 2048 * (t.val % 4) + j.val) :
    (iblk3 V c 0 t : Vec Ideal S1024x2048 .bf16) (ix2 p j) = Aarr3 V c (ix2 r k) := by
  obtain ⟨e0, e1, -⟩ := idx_facts3 t
  unfold iblk3
  rw [View.read_apply]
  show Aarr3 V c _ = _
  congr 1
  funext a
  apply Fin.ext
  match a with
  | ⟨0, _⟩ => show win3_0.index t (0 : Fin 2) * 1024 + 1 * p.val = r.val; omega
  | ⟨1, _⟩ => show win3_0.index t (1 : Fin 2) * 2048 + 1 * j.val = k.val; omega

set_option maxHeartbeats 400000 in
/-- The right block at a point reads the features at the point's contracted block. -/
theorem Hblk3_apply (c : Dev nD) (t : Fin cfg3.N) (j : Fin 2048) (q : Fin 512) (k : Fin 8192)
    (hk : k.val = 2048 * (t.val % 4) + j.val) :
    (iblk3 V c 1 t : Vec Ideal S2048x512 .bf16) (ix2 j q) = Harr3 V c (ix2 k q) := by
  obtain ⟨-, -, e0, e1, -⟩ := idx_facts3 t
  unfold iblk3
  rw [View.read_apply]
  show Harr3 V c _ = _
  congr 1
  funext a
  apply Fin.ext
  match a with
  | ⟨0, _⟩ => show win3_1.index t (0 : Fin 2) * 2048 + 1 * j.val = k.val; omega
  | ⟨1, _⟩ => show win3_1.index t (1 : Fin 2) * 512 + 1 * q.val = q.val; omega

set_option maxHeartbeats 400000 in
/-- The bias block is the bias row. -/
theorem bblk3_apply (c : Dev nD) (t : Fin cfg3.N) (q : Fin 512) :
    (iblk3 V c 2 t : Vec Ideal S1x512 .f32) (ix2 (0 : Fin 1) q) = barr3 V c (ix2 (0 : Fin 1) q) := by
  obtain ⟨-, -, -, -, e0, e1, -⟩ := idx_facts3 t
  unfold iblk3
  rw [View.read_apply]
  show barr3 V c _ = _
  congr 1
  funext a
  apply Fin.ext
  match a with
  | ⟨0, _⟩ => show win3_2.index t (0 : Fin 2) * 1 + 1 * 0 = 0; omega
  | ⟨1, _⟩ => show win3_2.index t (1 : Fin 2) * 512 + 1 * q.val = q.val; omega

set_option maxHeartbeats 400000 in
/-- The noise block at a point reads the noise at the point's row block. -/
theorem eblk3_apply (c : Dev nD) (t : Fin cfg3.N) (p : Fin 1024) (q : Fin 256) (r : Fin 8192)
    (hr : r.val = 1024 * (t.val / 4) + p.val) :
    (iblk3 V c 3 t : Vec Ideal S1024x256 .f32) (ix2 p q) = earr3 V c (ix2 r q) := by
  obtain ⟨-, -, -, -, -, -, e0, e1, -⟩ := idx_facts3 t
  unfold iblk3
  rw [View.read_apply]
  show earr3 V c _ = _
  congr 1
  funext a
  apply Fin.ext
  match a with
  | ⟨0, _⟩ => show win3_3.index t (0 : Fin 2) * 1024 + 1 * p.val = r.val; omega
  | ⟨1, _⟩ => show win3_3.index t (1 : Fin 2) * 256 + 1 * q.val = q.val; omega

/-- The products the aggregation sums at row r and column q, as a function of the contracted index. -/
abbrev terms3 (c : Dev nD) (r : Fin 8192) (q : Fin 512) : Fin 8192 → EReal :=
  fun j => Aarr3 V c (ix2 r j) * Harr3 V c (ix2 j q)

set_option maxHeartbeats 800000 in
/-- THE ACCUMULATION, READ: after the point at position n the accumulator's entry (p, q) is the sum of the products
    over the contracted indices below the end of the point's contracted block, at the point's row block. -/
theorem acc3_apply (c : Dev nD) : ∀ (n : ℕ) (hn : n < cfg3.N) (p : Fin 1024) (q : Fin 512) (r : Fin 8192)
    (hr : r.val = 1024 * (n / 4) + p.val),
    acc3 V c n hn (ix2 p q) = ∑ j ∈ Finset.range (2048 * (n % 4) + 2048), ext0 (terms3 V c r q) j := by
  intro n
  induction n with
  | zero =>
    intro hn p q r hr
    refine (congrFun (acc3_reset V c ⟨0, hn⟩ rfl) (ix2 p q)).trans ?_
    rw [step3_apply, zero3_apply, zero_add, show 2048 * (0 % 4) + 2048 = 0 + 2048 from rfl,
      sum_range_ext0_add (terms3 V c r q) 0 2048 (by omega), Finset.range_zero, Finset.sum_empty, zero_add]
    refine Finset.sum_congr rfl fun j _ => ?_
    rw [Ablk3_apply V c ⟨0, hn⟩ p j r ⟨0 + j.val, by have := j.isLt; omega⟩ (by simpa using hr) (by simp),
      Hblk3_apply V c ⟨0, hn⟩ j q ⟨0 + j.val, by have := j.isLt; omega⟩ (by simp)]
  | succ n ih =>
    intro hn p q r hr
    have hN : cfg3.N = 32 := N3
    by_cases h0 : (n + 1) % 4 = 0
    · refine (congrFun (acc3_reset V c ⟨n + 1, hn⟩ h0) (ix2 p q)).trans ?_
      rw [step3_apply, zero3_apply, zero_add, show 2048 * ((n + 1) % 4) + 2048 = 0 + 2048 by omega,
        sum_range_ext0_add (terms3 V c r q) 0 2048 (by omega), Finset.range_zero, Finset.sum_empty, zero_add]
      refine Finset.sum_congr rfl fun j _ => ?_
      rw [Ablk3_apply V c ⟨n + 1, hn⟩ p j r ⟨0 + j.val, by have := j.isLt; omega⟩ hr (by show 0 + j.val = 2048 * ((n + 1) % 4) + j.val; omega),
        Hblk3_apply V c ⟨n + 1, hn⟩ j q ⟨0 + j.val, by have := j.isLt; omega⟩ (by show 0 + j.val = 2048 * ((n + 1) % 4) + j.val; omega)]
    · refine (congrFun (acc3_step V c ⟨n + 1, hn⟩ h0) (ix2 p q)).trans ?_
      rw [step3_apply]
      have hprev := ih (Nat.lt_of_succ_lt hn) p q r (by omega)
      rw [show acc3 V c ((⟨n + 1, hn⟩ : Fin cfg3.N).val - 1) _ (ix2 p q) = acc3 V c n (Nat.lt_of_succ_lt hn) (ix2 p q) from rfl, hprev]
      rw [show 2048 * ((n + 1) % 4) + 2048 = (2048 * (n % 4) + 2048) + 2048 by omega,
        sum_range_ext0_add (terms3 V c r q) (2048 * (n % 4) + 2048) 2048 (by omega)]
      refine congrArg (_ + ·) (Finset.sum_congr rfl fun j _ => ?_)
      rw [Ablk3_apply V c ⟨n + 1, hn⟩ p j r ⟨2048 * (n % 4) + 2048 + j.val, by have := j.isLt; omega⟩ hr (by show 2048 * (n % 4) + 2048 + j.val = 2048 * ((n + 1) % 4) + j.val; omega),
        Hblk3_apply V c ⟨n + 1, hn⟩ j q ⟨2048 * (n % 4) + 2048 + j.val, by have := j.isLt; omega⟩ (by show 2048 * (n % 4) + 2048 + j.val = 2048 * ((n + 1) % 4) + j.val; omega)]

/-- The aggregated features plus the bias row: both halves of the columns at once. -/
abbrev val3 (c : Dev nD) : Spec.Mat 8192 512 := Spec.addRow (Spec.mm (Aarr3 V c) (Harr3 V c)) (barr3 V c)

theorem val3_apply (c : Dev nD) (r : Fin 8192) (q : Fin 512) :
    val3 V c (ix2 r q) = (∑ j : Fin 8192, terms3 V c r q j) + barr3 V c (ix2 (0 : Fin 1) q) := rfl

set_option maxHeartbeats 400000 in
/-- At the last point of a row of the grid the accumulator holds the whole sum over the contracted axis. -/
theorem acc3_last (c : Dev nD) (t : Fin cfg3.N) (h3 : t.val % 4 = 3) (p : Fin 1024) (q : Fin 512) (r : Fin 8192)
    (hr : r.val = 1024 * (t.val / 4) + p.val) :
    acc3 V c t.val t.isLt (ix2 p q) = ∑ j : Fin 8192, terms3 V c r q j := by
  rw [acc3_apply V c t.val t.isLt p q r hr, h3]
  exact sum_range_ext0_full (terms3 V c r q)

set_option maxHeartbeats 400000 in
/-- There the accumulator plus the bias block is the specification's entry. -/
theorem last_entry3 (c : Dev nD) (t : Fin cfg3.N) (h3 : t.val % 4 = 3) (p : Fin 1024) (q : Fin 512) (r : Fin 8192)
    (hr : r.val = 1024 * (t.val / 4) + p.val) :
    acc3 V c t.val t.isLt (ix2 p q) + (iblk3 V c 2 t : Vec Ideal S1x512 .f32) (ix2 (0 : Fin 1) q) = val3 V c (ix2 r q) := by
  rw [acc3_last V c t h3 p q r hr, bblk3_apply V c t q, val3_apply]

/-! ## The three outputs at an entry -/

set_option maxHeartbeats 400000 in
theorem out3_4_apply (s : Vec Ideal S1024x512 .f32) (b : Vec Ideal S1x512 .f32) (p : Fin 1024) (q : Fin 256) :
    out3_4 (F := Ideal) s b (ix2 p q)
      = s (ix2 p (⟨q.val, by have := q.isLt; omega⟩ : Fin 512)) + b (ix2 (0 : Fin 1) (⟨q.val, by have := q.isLt; omega⟩ : Fin 512)) := by
  unfold out3_4
  rw [View.canon_unit_zero hz3, View.ld_unit_zero (S := S1024x512) hz3, View.ld_unit_zero (S := S1x512) hz3]
  exact pay3_4_apply s b p q

set_option maxHeartbeats 400000 in
theorem out3_5_apply (s : Vec Ideal S1024x512 .f32) (b : Vec Ideal S1x512 .f32) (p : Fin 1024) (q : Fin 256) :
    out3_5 (F := Ideal) s b (ix2 p q)
      = s (ix2 p (⟨256 + q.val, by have := q.isLt; omega⟩ : Fin 512)) + b (ix2 (0 : Fin 1) (⟨256 + q.val, by have := q.isLt; omega⟩ : Fin 512)) := by
  unfold out3_5
  rw [View.canon_unit_zero hz3, View.ld_unit_zero (S := S1024x512) hz3, View.ld_unit_zero (S := S1x512) hz3]
  exact pay3_5_apply s b p q

set_option maxHeartbeats 400000 in
theorem out3_6_apply (s : Vec Ideal S1024x512 .f32) (b : Vec Ideal S1x512 .f32) (e : Vec Ideal S1024x256 .f32) (p : Fin 1024) (q : Fin 256) :
    out3_6 (F := Ideal) s b e (ix2 p q)
      = (s (ix2 p (⟨q.val, by have := q.isLt; omega⟩ : Fin 512)) + b (ix2 (0 : Fin 1) (⟨q.val, by have := q.isLt; omega⟩ : Fin 512)))
        + e (ix2 p q) * Ideal.exp (Spec.half * (s (ix2 p (⟨256 + q.val, by have := q.isLt; omega⟩ : Fin 512)) + b (ix2 (0 : Fin 1) (⟨256 + q.val, by have := q.isLt; omega⟩ : Fin 512)))) := by
  unfold out3_6
  rw [View.canon_unit_zero hz3, View.ld_unit_zero (S := S1024x512) hz3, View.ld_unit_zero (S := S1x512) hz3,
    View.ld_unit_zero (S := S1024x256) hz3]
  rw [pay3_6_apply, pay3_4_apply, pay3_5_apply]

/-! ## The three arrays the region leaves -/

/-- The mean: the left half of the columns. -/
abbrev mu3 (c : Dev nD) : Spec.Mat 8192 256 :=
  fun i => val3 V c (ix2 (i 0) (⟨(i 1).val, by have := idx2_lt1 i; omega⟩ : Fin 512))
/-- The log-variance: the right half of the columns. -/
abbrev lv3 (c : Dev nD) : Spec.Mat 8192 256 :=
  fun i => val3 V c (ix2 (i 0) (⟨256 + (i 1).val, by have := idx2_lt1 i; omega⟩ : Fin 512))
/-- The sample: the mean plus the noise times the exponential of half the log-variance. -/
abbrev zz3 (c : Dev nD) : Spec.Mat 8192 256 :=
  fun i => mu3 V c i + earr3 V c i * Ideal.exp (Spec.half * lv3 V c i)

set_option maxHeartbeats 400000 in
/-- Where a point's output block sits in its array: the point's row block, every column. -/
theorem emb3_4 (t : Fin cfg3.N) (p : Fin 1024) (q : Fin 256) (r : Fin 8192) (hr : r.val = 1024 * (t.val / 4) + p.val) :
    (((cfg3.win 4).blk t).view.emb (ix2 p q) : S8192x256.Idx) = ix2 r q := by
  obtain ⟨-, -, -, -, -, -, -, -, e0, e1, -⟩ := idx_facts3 t
  funext a
  apply Fin.ext
  match a with
  | ⟨0, _⟩ => show win3_4.index t (0 : Fin 2) * 1024 + 1 * p.val = r.val; omega
  | ⟨1, _⟩ => show win3_4.index t (1 : Fin 2) * 256 + 1 * q.val = q.val; omega

set_option maxHeartbeats 400000 in
theorem emb3_5 (t : Fin cfg3.N) (p : Fin 1024) (q : Fin 256) (r : Fin 8192) (hr : r.val = 1024 * (t.val / 4) + p.val) :
    (((cfg3.win 5).blk t).view.emb (ix2 p q) : S8192x256.Idx) = ix2 r q := by
  obtain ⟨-, -, -, -, -, -, -, -, -, -, e0, e1, -⟩ := idx_facts3 t
  funext a
  apply Fin.ext
  match a with
  | ⟨0, _⟩ => show win3_5.index t (0 : Fin 2) * 1024 + 1 * p.val = r.val; omega
  | ⟨1, _⟩ => show win3_5.index t (1 : Fin 2) * 256 + 1 * q.val = q.val; omega

set_option maxHeartbeats 400000 in
theorem emb3_6 (t : Fin cfg3.N) (p : Fin 1024) (q : Fin 256) (r : Fin 8192) (hr : r.val = 1024 * (t.val / 4) + p.val) :
    (((cfg3.win 6).blk t).view.emb (ix2 p q) : S8192x256.Idx) = ix2 r q := by
  obtain ⟨-, -, -, -, -, -, -, -, -, -, -, -, e0, e1⟩ := idx_facts3 t
  funext a
  apply Fin.ext
  match a with
  | ⟨0, _⟩ => show win3_6.index t (0 : Fin 2) * 1024 + 1 * p.val = r.val; omega
  | ⟨1, _⟩ => show win3_6.index t (1 : Fin 2) * 256 + 1 * q.val = q.val; omega

/-- The row of the array under row p of the block of the point t. -/
abbrev row3 (t : Fin cfg3.N) (p : Fin 1024) : Fin 8192 :=
  ⟨1024 * (t.val / 4) + p.val, by have := t.isLt; have hN : cfg3.N = 32 := N3; have := p.isLt; omega⟩

set_option maxHeartbeats 800000 in
/-- What the write-back at the last point of a row writes into the mean's array is that block of the mean. -/
theorem flushed3_4_eq (c : Dev nD) (t : Fin cfg3.N) (hf : (cfg3.win 4).flush t = true) :
    (dat3 (F := Ideal) V c).flushed 4 t = ((cfg3.win 4).blk t).view.read (Elt Ideal) (mu3 V c) := by
  have h3 : t.val % 4 = 3 := (flush3_4 t).mp hf
  show (cfg3.win 4).cut (grid3.coords t) ((dat3 (F := Ideal) V c).after 4 t) = _
  rw [after3_4]
  funext y
  obtain ⟨p, q, rfl⟩ : ∃ (p : Fin 1024) (q : Fin 256), y = ix2 p q := ⟨y 0, y 1, eq_ix2 y⟩
  rw [View.read_apply]
  show out3_4 (F := Ideal) (acc3 V c t.val t.isLt) (iblk3 V c 2 t) (ix2 p q) = mu3 V c (((cfg3.win 4).blk t).view.emb (ix2 p q))
  rw [emb3_4 t p q (row3 t p) rfl, out3_4_apply]
  exact last_entry3 V c t h3 p _ (row3 t p) rfl

set_option maxHeartbeats 800000 in
theorem flushed3_5_eq (c : Dev nD) (t : Fin cfg3.N) (hf : (cfg3.win 5).flush t = true) :
    (dat3 (F := Ideal) V c).flushed 5 t = ((cfg3.win 5).blk t).view.read (Elt Ideal) (lv3 V c) := by
  have h3 : t.val % 4 = 3 := (flush3_5 t).mp hf
  show (cfg3.win 5).cut (grid3.coords t) ((dat3 (F := Ideal) V c).after 5 t) = _
  rw [after3_5]
  funext y
  obtain ⟨p, q, rfl⟩ : ∃ (p : Fin 1024) (q : Fin 256), y = ix2 p q := ⟨y 0, y 1, eq_ix2 y⟩
  rw [View.read_apply]
  show out3_5 (F := Ideal) (acc3 V c t.val t.isLt) (iblk3 V c 2 t) (ix2 p q) = lv3 V c (((cfg3.win 5).blk t).view.emb (ix2 p q))
  rw [emb3_5 t p q (row3 t p) rfl, out3_5_apply]
  exact last_entry3 V c t h3 p _ (row3 t p) rfl

set_option maxHeartbeats 800000 in
theorem flushed3_6_eq (c : Dev nD) (t : Fin cfg3.N) (hf : (cfg3.win 6).flush t = true) :
    (dat3 (F := Ideal) V c).flushed 6 t = ((cfg3.win 6).blk t).view.read (Elt Ideal) (zz3 V c) := by
  have h3 : t.val % 4 = 3 := (flush3_6 t).mp hf
  show (cfg3.win 6).cut (grid3.coords t) ((dat3 (F := Ideal) V c).after 6 t) = _
  rw [after3_6]
  funext y
  obtain ⟨p, q, rfl⟩ : ∃ (p : Fin 1024) (q : Fin 256), y = ix2 p q := ⟨y 0, y 1, eq_ix2 y⟩
  rw [View.read_apply]
  show out3_6 (F := Ideal) (acc3 V c t.val t.isLt) (iblk3 V c 2 t) (iblk3 V c 3 t) (ix2 p q) = zz3 V c (((cfg3.win 6).blk t).view.emb (ix2 p q))
  rw [emb3_6 t p q (row3 t p) rfl, out3_6_apply, last_entry3 V c t h3 p _ (row3 t p) rfl, last_entry3 V c t h3 p _ (row3 t p) rfl,
    eblk3_apply V c t p q (row3 t p) rfl]

/-- The point that writes back the block holding row r: the last point of r's row of the grid. -/
abbrev pt3 (r : Fin 8192) : Fin cfg3.N :=
  ⟨4 * (r.val / 1024) + 3, by have hN : cfg3.N = 32 := N3; have := r.isLt; omega⟩

set_option maxHeartbeats 800000 in
/-- Every entry of the mean's array is in the block some write-back writes. -/
theorem cover3_4 (i : S8192x256.Idx) : ∃ t : Fin cfg3.N, (cfg3.win 4).flush t = true ∧ i ∈ ((cfg3.win 4).blk t).view.set := by
  have h0 : (i 0).val < 8192 := idx2_lt0 i
  have h1 : (i 1).val < 256 := idx2_lt1 i
  obtain ⟨-, -, -, -, -, -, -, -, e0, e1, -⟩ := idx_facts3 (pt3 (i 0))
  refine ⟨pt3 (i 0), (flush3_4 _).mpr (by show (4 * ((i 0).val / 1024) + 3) % 4 = 3; omega), ?_⟩
  show i ∈ ((View.whole main_v57_0).slice (win3_4.rect (pt3 (i 0)))).set
  rw [View.set_slice_whole, Rect.mem_set_unit]
  intro a
  have ht : (pt3 (i 0)).val = 4 * ((i 0).val / 1024) + 3 := rfl
  match a with
  | ⟨0, _⟩ => show win3_4.index (pt3 (i 0)) (0 : Fin 2) * 1024 ≤ (i 0).val ∧ (i 0).val < win3_4.index (pt3 (i 0)) (0 : Fin 2) * 1024 + 1024; omega
  | ⟨1, _⟩ => show win3_4.index (pt3 (i 0)) (1 : Fin 2) * 256 ≤ (i 1).val ∧ (i 1).val < win3_4.index (pt3 (i 0)) (1 : Fin 2) * 256 + 256; omega

set_option maxHeartbeats 800000 in
theorem cover3_5 (i : S8192x256.Idx) : ∃ t : Fin cfg3.N, (cfg3.win 5).flush t = true ∧ i ∈ ((cfg3.win 5).blk t).view.set := by
  have h0 : (i 0).val < 8192 := idx2_lt0 i
  have h1 : (i 1).val < 256 := idx2_lt1 i
  obtain ⟨-, -, -, -, -, -, -, -, -, -, e0, e1, -⟩ := idx_facts3 (pt3 (i 0))
  refine ⟨pt3 (i 0), (flush3_5 _).mpr (by show (4 * ((i 0).val / 1024) + 3) % 4 = 3; omega), ?_⟩
  show i ∈ ((View.whole main_v57_1).slice (win3_5.rect (pt3 (i 0)))).set
  rw [View.set_slice_whole, Rect.mem_set_unit]
  intro a
  have ht : (pt3 (i 0)).val = 4 * ((i 0).val / 1024) + 3 := rfl
  match a with
  | ⟨0, _⟩ => show win3_5.index (pt3 (i 0)) (0 : Fin 2) * 1024 ≤ (i 0).val ∧ (i 0).val < win3_5.index (pt3 (i 0)) (0 : Fin 2) * 1024 + 1024; omega
  | ⟨1, _⟩ => show win3_5.index (pt3 (i 0)) (1 : Fin 2) * 256 ≤ (i 1).val ∧ (i 1).val < win3_5.index (pt3 (i 0)) (1 : Fin 2) * 256 + 256; omega

set_option maxHeartbeats 800000 in
theorem cover3_6 (i : S8192x256.Idx) : ∃ t : Fin cfg3.N, (cfg3.win 6).flush t = true ∧ i ∈ ((cfg3.win 6).blk t).view.set := by
  have h0 : (i 0).val < 8192 := idx2_lt0 i
  have h1 : (i 1).val < 256 := idx2_lt1 i
  obtain ⟨-, -, -, -, -, -, -, -, -, -, -, -, e0, e1⟩ := idx_facts3 (pt3 (i 0))
  refine ⟨pt3 (i 0), (flush3_6 _).mpr (by show (4 * ((i 0).val / 1024) + 3) % 4 = 3; omega), ?_⟩
  show i ∈ ((View.whole main_v57_2).slice (win3_6.rect (pt3 (i 0)))).set
  rw [View.set_slice_whole, Rect.mem_set_unit]
  intro a
  have ht : (pt3 (i 0)).val = 4 * ((i 0).val / 1024) + 3 := rfl
  match a with
  | ⟨0, _⟩ => show win3_6.index (pt3 (i 0)) (0 : Fin 2) * 1024 ≤ (i 0).val ∧ (i 0).val < win3_6.index (pt3 (i 0)) (0 : Fin 2) * 1024 + 1024; omega
  | ⟨1, _⟩ => show win3_6.index (pt3 (i 0)) (1 : Fin 2) * 256 ≤ (i 1).val ∧ (i 1).val < win3_6.index (pt3 (i 0)) (1 : Fin 2) * 256 + 256; omega

/-- THE MEAN'S ARRAY after the region: the aggregated features plus the bias row, columns 0 to 255. -/
theorem val3_4 (c : Dev nD) : (dat3 (F := Ideal) V c).arrAt 4 cfg3.N
    = fun i => Spec.addRow (Spec.mm (V c main_v45) (V c main_v55)) (V c main_v56)
        (ix2 (i 0) (⟨(i 1).val, by have := idx2_lt1 i; omega⟩ : Fin 512)) :=
  (dat3 (F := Ideal) V c).arrAt_eq_of_cover 4 (mu3 V c) (flushed3_4_eq V c) cover3_4

/-- THE LOG-VARIANCE'S ARRAY after the region: the same, columns 256 to 511. -/
theorem val3_5 (c : Dev nD) : (dat3 (F := Ideal) V c).arrAt 5 cfg3.N
    = fun i => Spec.addRow (Spec.mm (V c main_v45) (V c main_v55)) (V c main_v56)
        (ix2 (i 0) (⟨256 + (i 1).val, by have := idx2_lt1 i; omega⟩ : Fin 512)) :=
  (dat3 (F := Ideal) V c).arrAt_eq_of_cover 5 (lv3 V c) (flushed3_5_eq V c) cover3_5

/-- THE SAMPLE'S ARRAY after the region: the mean plus the noise times the exponential of half the log-variance. -/
theorem val3_6 (c : Dev nD) : (dat3 (F := Ideal) V c).arrAt 6 cfg3.N
    = fun i => Spec.addRow (Spec.mm (V c main_v45) (V c main_v55)) (V c main_v56)
          (ix2 (i 0) (⟨(i 1).val, by have := idx2_lt1 i; omega⟩ : Fin 512))
        + earr3 V c i * Ideal.exp (Spec.half
          * Spec.addRow (Spec.mm (V c main_v45) (V c main_v55)) (V c main_v56)
              (ix2 (i 0) (⟨256 + (i 1).val, by have := idx2_lt1 i; omega⟩ : Fin 512))) :=
  (dat3 (F := Ideal) V c).arrAt_eq_of_cover 6 (zz3 V c) (flushed3_6_eq V c) cover3_6

end Val

end Cert.KernelIdeal.Hand

end
-- ==== Proof.KI.Val4.lean ====
/-
  Region 4 of the program, value side over the extended reals: the array the region leaves, as a function of the
  arrays it was given. Entry (r, q) of the conditioned latent is the latent's entry plus the rectifier of the
  feature row r times column q of the conditioning weight plus the bias entry q — the latent FIRST, as the body adds.
  The body's payload is read at an index; a grid point's write-back is then the matching block of that function
  (the feature and latent blocks move with the output block down the rows, the weight and the bias are whole);
  the eight row blocks cover the array.
-/
import proofs.«416422_j54030688584368_1_alg».proof.Proof.KI.Reg4
import proofs.«416422_j54030688584368_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The contraction of the region's one matrix product, axis by axis -/

theorem lhs4_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs4_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs4_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs4_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product into the zero accumulator, at entry (p, q): the sum over the shared axis. -/
theorem mm4_apply (y0 : FVec Ideal S1024x512 .bf16) (y1 : FVec Ideal S512x256 .bf16) (p : Fin 1024) (q : Fin 256) :
    FloatOps.matmul dot_S1024x512_S512x256_S1024x256_1_0_0_1_n_n none y0 y1 (constant (F := Ideal) S1024x256 .f32 0x00000000#32) (ix2 p q)
      = ∑ k : Fin 512, y0 (ix2 p k) * y1 (ix2 k q) := by
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 p q) ((ValueIdx.contrEquiv1 dot_S1024x512_S512x256_S1024x256_1_0_0_1_n_n 512 rfl rfl).symm k) = ix2 p k := funext fun a => Fin.ext (by
    match a with
    | ⟨0, _⟩ => exact lhs4_0 _ _
    | ⟨1, _⟩ => exact (lhs4_1 _ _).trans hk)
  have er : dot_S1024x512_S512x256_S1024x256_1_0_0_1_n_n.rhsIdx (ix2 p q) ((ValueIdx.contrEquiv1 dot_S1024x512_S512x256_S1024x256_1_0_0_1_n_n 512 rfl rfl).symm k) = ix2 k q := funext fun a => Fin.ext (by
    match a with
    | ⟨0, _⟩ => exact (rhs4_0 _ _).trans hk
    | ⟨1, _⟩ => exact rhs4_1 _ _)
  rw [el, er]

/-- The body's payload at entry (p, q): the latent's entry plus the rectified affine image of the feature row,
    the latent FIRST, the format changes the identity over the extended reals. -/
theorem pay4_apply (x0 : Vec Ideal S1024x512 .f32) (x1 : Vec Ideal S512x256 .f32) (x2 : Vec Ideal S1x256 .f32) (x3 : Vec Ideal S1024x256 .f32)
    (p : Fin 1024) (q : Fin 256) :
    k4_pay1 (F := Ideal) x0 x1 x2 x3 (ix2 p q)
      = x3 (ix2 p q) + max ((∑ k : Fin 512, x0 (ix2 p k) * x1 (ix2 k q)) + x2 (ix2 (0 : Fin 1) q)) 0 := by
  unfold k4_pay1
  rw [truncf_apply, addf_apply, maximumf_apply, addf_apply, broadcast_apply]
  rw [shapeCast_self, shapeCast_self]
  rw [broadcastTo_apply x2 broadcasts_S1x256_S1024x256 (ix2 p q) (ix2 (0 : Fin 1) q) (fun a => by
    match a with
    | ⟨0, _⟩ => rfl
    | ⟨1, _⟩ => rfl)]
  simp only [matmul]
  rw [mm4_apply]
  simp only [truncf_apply]
  have hz : (FloatOps.ofBits FTy.f32 0x00000000#32 : Ideal .f32) = 0 := Ideal.ofBits_zero_f32
  rw [hz]

/-- The payload at an index `j` of the block, when the four blocks are read off four arrays at the array index `i`
    that `j` names: the specification's entry `i`. -/
theorem point4 (A0 : S8192x512.Idx → EReal) (A1 : S512x256.Idx → EReal) (A2 : S1x256.Idx → EReal) (A3 : S8192x256.Idx → EReal)
    (x0 : Vec Ideal S1024x512 .f32) (x1 : Vec Ideal S512x256 .f32) (x2 : Vec Ideal S1x256 .f32) (x3 : Vec Ideal S1024x256 .f32)
    (j : S1024x256.Idx) (i : S8192x256.Idx)
    (h0 : ∀ k : Fin 512, x0 (ix2 (j 0 : Fin 1024) k) = A0 (ix2 (i 0 : Fin 8192) k))
    (h1 : ∀ k : Fin 512, x1 (ix2 k (j 1 : Fin 256)) = A1 (ix2 k (i 1 : Fin 256)))
    (h2 : x2 (ix2 (0 : Fin 1) (j 1 : Fin 256)) = A2 (ix2 (0 : Fin 1) (i 1 : Fin 256)))
    (h3 : x3 j = A3 i) :
    k4_pay1 (F := Ideal) x0 x1 x2 x3 j = A3 i + max (Spec.addRow (Spec.mm A0 A1) A2 i) 0 := by
  obtain ⟨p, q, rfl⟩ : ∃ (p : Fin 1024) (q : Fin 256), j = ix2 p q := ⟨j 0, j 1, eq_ix2 j⟩
  have h0' : ∀ k : Fin 512, x0 (ix2 p k) = A0 (ix2 (i 0 : Fin 8192) k) := h0
  have h1' : ∀ k : Fin 512, x1 (ix2 k q) = A1 (ix2 k (i 1 : Fin 256)) := h1
  have h2' : x2 (ix2 (0 : Fin 1) q) = A2 (ix2 (0 : Fin 1) (i 1 : Fin 256)) := h2
  rw [pay4_apply, h3, h2']
  simp only [h0', h1']
  rfl

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the feature block, the latent block and the output block are row block `t`;
    the weight and the bias row are the one whole block. -/
theorem idx_facts4 : ∀ t : Fin cfg4.N,
    win4_0.index t (0 : Fin 2) = win4_4.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = win4_4.index t (0 : Fin 2) ∧ win4_3.index t (1 : Fin 2) = win4_4.index t (1 : Fin 2)
    ∧ win4_4.index t (0 : Fin 2) = t.val ∧ win4_4.index t (1 : Fin 2) = 0 :=
  (by decide +kernel : ∀ t : Fin grid4.N, _)

/-- What grid point `t` writes back is block `t` of the specification function of the arrays as the region finds them. -/
theorem flushed4_eq (c : Dev nD) (t : Fin cfg4.N) :
    (dat4 (F := Ideal) V c).flushed 4 t = ((cfg4.win 4).blk t).view.read (Elt Ideal)
      (fun i => @HAdd.hAdd EReal EReal EReal _ (V c main_v57_2 i) (max (Spec.addRow (Spec.mm (V c main_arg0) (V c main_arg8)) (V c main_v58) i) 0)) := by
  show (cfg4.win 4).cut (grid4.coords t) ((dat4 (F := Ideal) V c).after 4 t) = _
  rw [after4_4]
  unfold out4_4
  rw [View.canon_unit_zero hz4]
  simp only [View.ld_unit_zero (S := S1024x512) hz4, View.ld_unit_zero (S := S512x256) hz4, View.ld_unit_zero (S := S1x256) hz4, View.ld_unit_zero (S := S1024x256) hz4]
  obtain ⟨e00, e01, e10, e11, e20, e21, e30, e31, e40, e41⟩ := idx_facts4 t
  funext j
  refine point4 (V c main_arg0) (V c main_arg8) (V c main_v58) (V c main_v57_2) _ _ _ _ j (((cfg4.win 4).blk t).view.emb j) ?_ ?_ ?_ ?_
  · intro k
    show V c main_arg0 (((cfg4.win 0).blk t).view.emb (ix2 (j 0 : Fin 1024) k)) = _
    refine congrArg (V c main_arg0) (funext fun a => Fin.ext ?_)
    match a with
    | ⟨0, _⟩ => show win4_0.index t (0 : Fin 2) * 1024 + 1 * (j 0).val = win4_4.index t (0 : Fin 2) * 1024 + 1 * (j 0).val; omega
    | ⟨1, _⟩ => show win4_0.index t (1 : Fin 2) * 512 + 1 * k.val = k.val; omega
  · intro k
    show V c main_arg8 (((cfg4.win 1).blk t).view.emb (ix2 k (j 1 : Fin 256))) = _
    refine congrArg (V c main_arg8) (funext fun a => Fin.ext ?_)
    match a with
    | ⟨0, _⟩ => show win4_1.index t (0 : Fin 2) * 512 + 1 * k.val = k.val; omega
    | ⟨1, _⟩ => show win4_1.index t (1 : Fin 2) * 256 + 1 * (j 1).val = win4_4.index t (1 : Fin 2) * 256 + 1 * (j 1).val; omega
  · show V c main_v58 (((cfg4.win 2).blk t).view.emb (ix2 (0 : Fin 1) (j 1 : Fin 256))) = _
    refine congrArg (V c main_v58) (funext fun a => Fin.ext ?_)
    match a with
    | ⟨0, _⟩ => show win4_2.index t (0 : Fin 2) * 1 + 1 * 0 = 0; omega
    | ⟨1, _⟩ => show win4_2.index t (1 : Fin 2) * 256 + 1 * (j 1).val = win4_4.index t (1 : Fin 2) * 256 + 1 * (j 1).val; omega
  · show V c main_v57_2 (((cfg4.win 3).blk t).view.emb j) = V c main_v57_2 (((cfg4.win 4).blk t).view.emb j)
    refine congrArg (V c main_v57_2) (funext fun a => Fin.ext ?_)
    match a with
    | ⟨0, _⟩ => show win4_3.index t (0 : Fin 2) * 1024 + 1 * (j 0).val = win4_4.index t (0 : Fin 2) * 1024 + 1 * (j 0).val; omega
    | ⟨1, _⟩ => show win4_3.index t (1 : Fin 2) * 256 + 1 * (j 1).val = win4_4.index t (1 : Fin 2) * 256 + 1 * (j 1).val; omega

/-- An index of the array is in point `t`'s block iff each coordinate is in the block's range on its axis. -/
theorem mem_blk4 (t : Fin cfg4.N) (i : S8192x256.Idx) :
    i ∈ ((cfg4.win 4).blk t).view.set ↔ ∀ a : Fin 2, win4_4.index t a * S1024x256.size a ≤ (i a).val ∧ (i a).val < win4_4.index t a * S1024x256.size a + S1024x256.size a := by
  show i ∈ ((View.whole main_v59).slice (win4_4.rect t)).set ↔ _
  rw [View.set_slice_whole, Rect.mem_set_unit]
  exact Iff.rfl

/-- Row `r` lies in row block `r / 1024`: the eight blocks cover the array. -/
theorem cover4 (i : S8192x256.Idx) : ∃ t : Fin cfg4.N, (cfg4.win 4).flush t = true ∧ i ∈ ((cfg4.win 4).blk t).view.set := by
  have hi0 : (i 0).val < 8192 := (i 0).isLt
  have hi1 : (i 1).val < 256 := (i 1).isLt
  have hN : cfg4.N = 8 := N_4
  refine ⟨⟨(i 0).val / 1024, by rw [hN]; omega⟩, flush4_4 _, ?_⟩
  rw [mem_blk4]
  obtain ⟨-, -, -, -, -, -, -, -, e40, e41⟩ := idx_facts4 ⟨(i 0).val / 1024, by rw [hN]; omega⟩
  intro a
  match a with
  | ⟨0, _⟩ => show win4_4.index _ (0 : Fin 2) * 1024 ≤ (i 0).val ∧ (i 0).val < win4_4.index _ (0 : Fin 2) * 1024 + 1024; rw [e40]; show (i 0).val / 1024 * 1024 ≤ _ ∧ _ < (i 0).val / 1024 * 1024 + 1024; omega
  | ⟨1, _⟩ => show win4_4.index _ (1 : Fin 2) * 256 ≤ (i 1).val ∧ (i 1).val < win4_4.index _ (1 : Fin 2) * 256 + 256; rw [e41]; omega

/-- THE ARRAY the region leaves: the latent plus the rectified affine image of the features, entry by entry. -/
theorem val4_4 (c : Dev nD) : (dat4 (F := Ideal) V c).arrAt 4 cfg4.N
    = fun i => @HAdd.hAdd EReal EReal EReal _ (V c main_v57_2 i) (max (Spec.addRow (Spec.mm (V c main_arg0) (V c main_arg8)) (V c main_v58) i) 0) :=
  (dat4 (F := Ideal) V c).arrAt_eq_of_cover 4 _ (fun t _ => flushed4_eq V c t) cover4

end Cert.KernelIdeal.Hand

end
-- ==== Proof.KI.Val5.lean ====
/-
  Region 5 of the program, value side over the extended reals: the array the region leaves is, entry by entry, the
  logistic function of the input matrix times its own transpose. The body's payload is read at an index (the matrix
  unit's product into a zero accumulator is a plain sum over the contracted axis), then the 32 blocks the grid
  writes back are shown to tile the output and to be the blocks of that one function.
-/
import proofs.«416422_j54030688584368_1_alg».proof.Proof.KI.Reg5
import proofs.«416422_j54030688584368_1_alg».proof.Proof.Model
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! ## The matrix unit's product at an index

The product contracts axis 1 of both operands: at result index (p, q) and contraction position k the left operand
is read at (p, k) and the right at (q, k). -/

theorem lhs_d5_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_d5_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_d5_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_d5_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

set_option maxHeartbeats 400000 in
/-- The body's payload at (p, q): the logistic function of the sum over k of block i's (p, k) times block j's (q, k). -/
theorem pay5_apply (x0 : Vec Ideal S1024x256 .bf16) (x1 : Vec Ideal S2048x256 .bf16) (p : Fin 1024) (q : Fin 2048) :
    k5_pay1 x0 x1 (ix2 p q) = Ideal.logistic (∑ k : Fin 256, x0 (ix2 p k) * x1 (ix2 q k)) := by
  unfold k5_pay1
  show Ideal.logistic (FloatOps.matmul (F := Ideal) dot_S1024x256_S2048x256_S1024x2048_1_1_0_0_n_n none (shapeCast S1024x256 x0 shapeCasts_S1024x256_S1024x256)
      (shapeCast S2048x256 x1 shapeCasts_S2048x256_S2048x256) (constant (F := Ideal) S1024x2048 .f32 0x00000000#32) (ix2 p q)) = _
  rw [shapeCast_self, shapeCast_self, Ideal.matmul_constant_zero_apply,
    ← Equiv.sum_comp (contrEquiv1 dot_S1024x256_S2048x256_S1024x2048_1_1_0_0_n_n 256 rfl rfl).symm]
  refine congrArg Ideal.logistic (Finset.sum_congr rfl fun k _ => ?_)
  have hk := contrEquiv1_symm_val dot_S1024x256_S2048x256_S1024x2048_1_1_0_0_n_n 256 rfl rfl k
  have hl : dot_S1024x256_S2048x256_S1024x2048_1_1_0_0_n_n.lhsIdx (ix2 p q) ((contrEquiv1 dot_S1024x256_S2048x256_S1024x2048_1_1_0_0_n_n 256 rfl rfl).symm k) = ix2 p k := by
    funext a; apply Fin.ext
    match a with
    | ⟨0, _⟩ => exact lhs_d5_0 _ _
    | ⟨1, _⟩ => exact (lhs_d5_1 _ _).trans hk
  have hr : dot_S1024x256_S2048x256_S1024x2048_1_1_0_0_n_n.rhsIdx (ix2 p q) ((contrEquiv1 dot_S1024x256_S2048x256_S1024x2048_1_1_0_0_n_n 256 rfl rfl).symm k) = ix2 q k := by
    funext a; apply Fin.ext
    match a with
    | ⟨0, _⟩ => exact rhs_d5_0 _ _
    | ⟨1, _⟩ => exact (rhs_d5_1 _ _).trans hk
  rw [hl, hr]

/-! ## From blocks to the array

Point t of the 8 × 4 grid writes back block (i, j) of the output, rows i·1024 … and columns j·2048 …, computed from
row block i (1024 rows) and row block j (2048 rows) of the one input matrix; the 32 blocks tile the output. -/

theorem hz5 : (![0, 0] : Fin 2 → Nat) = fun _ => 0 := funext fun a => by fin_cases a <;> rfl

/-- The printed index maps, decided over the grid: window 0's row block is the output's row block, window 1's row
    block is the output's column block, neither input is blocked along its columns, and the output's block indices
    stay in their ranges. -/
theorem idx_facts5 : ∀ t : Fin cfg5.N, win5_0.index t (0 : Fin 2) = win5_2.index t (0 : Fin 2)
    ∧ win5_0.index t (1 : Fin 2) = 0
    ∧ win5_1.index t (0 : Fin 2) = win5_2.index t (1 : Fin 2)
    ∧ win5_1.index t (1 : Fin 2) = 0
    ∧ win5_2.index t (0 : Fin 2) ≤ 7 ∧ win5_2.index t (1 : Fin 2) ≤ 3 :=
  (by decide +kernel : ∀ t : Fin grid5.N, _)

/-- Every block of the output is some point's. -/
theorem idx_onto5 : ∀ (q0 : Fin 8) (q1 : Fin 4), ∃ t : Fin cfg5.N, win5_2.index t = ![q0.val, q1.val] :=
  (by decide +kernel : ∀ (q0 : Fin 8) (q1 : Fin 4), ∃ t : Fin grid5.N, win5_2.index t = ![q0.val, q1.val])

set_option maxHeartbeats 400000 in
/-- What point `t` writes back is block `t` of the logistic function of the matrix times its own transpose. -/
theorem flushed5_eq (c : Dev nD) (t : Fin cfg5.N) :
    (dat5 V c).flushed 2 t = ((cfg5.win 2).blk t).view.read (Elt Ideal)
      (fun i => Ideal.logistic (Cert.Spec.mmT (V c main_v59) (V c main_v59) i)) := by
  show (cfg5.win 2).cut (grid5.coords t) ((dat5 V c).after 2 t) = _
  rw [after5_2]
  unfold out5_2
  rw [View.canon_unit_zero hz5]
  simp only [View.ld_unit_zero (S := S1024x256) hz5, View.ld_unit_zero (S := S2048x256) hz5]
  obtain ⟨e0, e1, e2, e3, e4, e5⟩ := idx_facts5 t
  funext j
  obtain ⟨p, q, rfl⟩ : ∃ (p : Fin 1024) (q : Fin 2048), j = ix2 p q := ⟨j 0, j 1, eq_ix2 j⟩
  show k5_pay1 (iblk5 V c 0 t) (iblk5 V c 1 t) (ix2 p q)
    = Ideal.logistic (Cert.Spec.mmT (V c main_v59) (V c main_v59) (((cfg5.win 2).blk t).view.emb (ix2 p q)))
  rw [pay5_apply]
  unfold Cert.Spec.mmT
  refine congrArg Ideal.logistic (Finset.sum_congr rfl fun k _ => ?_)
  have h0 : ((cfg5.win 0).blk t).view.emb (ix2 p k) = ix2 ((((cfg5.win 2).blk t).view.emb (ix2 p q)) 0) k := by
    funext a; apply Fin.ext
    match a with
    | ⟨0, _⟩ => show win5_0.index t (0 : Fin 2) * 1024 + 1 * p.val = win5_2.index t (0 : Fin 2) * 1024 + 1 * p.val; omega
    | ⟨1, _⟩ => show win5_0.index t (1 : Fin 2) * 256 + 1 * k.val = k.val; omega
  have h1 : ((cfg5.win 1).blk t).view.emb (ix2 q k) = ix2 ((((cfg5.win 2).blk t).view.emb (ix2 p q)) 1) k := by
    funext a; apply Fin.ext
    match a with
    | ⟨0, _⟩ => show win5_1.index t (0 : Fin 2) * 2048 + 1 * q.val = win5_2.index t (1 : Fin 2) * 2048 + 1 * q.val; omega
    | ⟨1, _⟩ => show win5_1.index t (1 : Fin 2) * 256 + 1 * k.val = k.val; omega
  refine congrArg₂ (· * ·) ?_ ?_
  · show V c main_v59 (((cfg5.win 0).blk t).view.emb (ix2 p k)) = V c main_v59 (ix2 ((((cfg5.win 2).blk t).view.emb (ix2 p q)) 0) k)
    exact congrArg (V c main_v59) h0
  · show V c main_v59 (((cfg5.win 1).blk t).view.emb (ix2 q k)) = V c main_v59 (ix2 ((((cfg5.win 2).blk t).view.emb (ix2 p q)) 1) k)
    exact congrArg (V c main_v59) h1

/-- An index of the output is in point `t`'s block iff each coordinate is in the block's range on its axis. -/
theorem mem_blk5 (t : Fin cfg5.N) (i : S8192x8192.Idx) :
    i ∈ ((cfg5.win 2).blk t).view.set ↔ ∀ a : Fin 2, win5_2.index t a * S1024x2048.size a ≤ (i a).val ∧ (i a).val < win5_2.index t a * S1024x2048.size a + S1024x2048.size a := by
  show i ∈ ((View.whole main_v60).slice (win5_2.rect t)).set ↔ _
  rw [View.set_slice_whole, Rect.mem_set_unit]
  exact Iff.rfl

/-- The blocks tile the output: index (r, s) is in the block of the point with row block r / 1024 and column block s / 2048. -/
theorem cover5 (i : S8192x8192.Idx) : ∃ t : Fin cfg5.N, (cfg5.win 2).flush t = true ∧ i ∈ ((cfg5.win 2).blk t).view.set := by
  have hi0 : (i 0).val < 8192 := (i 0).isLt
  have hi1 : (i 1).val < 8192 := (i 1).isLt
  obtain ⟨t, ht⟩ := idx_onto5 ⟨(i 0).val / 1024, by omega⟩ ⟨(i 1).val / 2048, by omega⟩
  have q0 : win5_2.index t (0 : Fin 2) = (i 0).val / 1024 := congrFun ht 0
  have q1 : win5_2.index t (1 : Fin 2) = (i 1).val / 2048 := congrFun ht 1
  refine ⟨t, flush5_2 t, ?_⟩
  rw [mem_blk5]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 2048 ≤ (i 1).val ∧ (i 1).val < win5_2.index t (1 : Fin 2) * 2048 + 2048; omega

/-- THE ARRAY the region leaves: the logistic function of the input matrix times its own transpose, entry by entry. -/
theorem val5_2 (c : Dev nD) : (dat5 (F := Ideal) V c).arrAt 2 cfg5.N
    = fun i => Ideal.logistic (Cert.Spec.mmT (V c main_v59) (V c main_v59) i) :=
  (dat5 V c).arrAt_eq_of_cover 2 _ (fun t _ => flushed5_eq V c t) cover5

/-! ## The same in the specification's spelling of the logistic function -/

/-- The ideal logistic function is the specification's: one over one plus the exponential of the negation. -/
theorem logistic_eq_spec (x : EReal) : Ideal.logistic x = Cert.Spec.logistic x := rfl

theorem val5_2_spec (c : Dev nD) : (dat5 (F := Ideal) V c).arrAt 2 cfg5.N
    = fun i => Cert.Spec.logistic (Cert.Spec.mmT (V c main_v59) (V c main_v59) i) :=
  val5_2 V c

end Cert.KernelIdeal.Hand

end
-- ==== Proof.KI.Val7.lean ====
/-
  Region 7 of the program, value side over the extended reals: the array the region leaves, as a function of the
  arrays it was given. Entry (r, q) of the label decoder's hidden layer is the rectifier of row r of the latent
  times column q of the layer's weight plus the bias entry q: the rectifier is part of the region's body.
  The body's payload is read at an index; a grid point's write-back is then the matching block of that function
  (the latent block moves with the output block down the rows, the weight and the bias row are whole);
  the eight row blocks cover the array.
-/
import proofs.«416422_j54030688584368_1_alg».proof.Proof.KI.Reg7
import proofs.«416422_j54030688584368_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The contraction of the region's matrix product, axis by axis -/

theorem lhs7_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs7_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs7_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs7_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into the zero accumulator, at entry (p, q): the sum over the shared axis of length 256. -/
theorem mm7_apply (y0 : FVec Ideal S1024x256 .bf16) (y1 : FVec Ideal S256x512 .bf16) (p : Fin 1024) (q : Fin 512) :
    FloatOps.matmul dot_S1024x256_S256x512_S1024x512_1_0_0_1_n_n none y0 y1 (constant (F := Ideal) S1024x512 .f32 0x00000000#32) (ix2 p q)
      = ∑ k : Fin 256, y0 (ix2 p k) * y1 (ix2 k q) := by
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p q) ((ValueIdx.contrEquiv1 dot_S1024x256_S256x512_S1024x512_1_0_0_1_n_n 256 rfl rfl).symm k) = ix2 p k := funext fun a => Fin.ext (by
    match a with
    | ⟨0, _⟩ => exact lhs7_0 _ _
    | ⟨1, _⟩ => exact (lhs7_1 _ _).trans hk)
  have er : dot_S1024x256_S256x512_S1024x512_1_0_0_1_n_n.rhsIdx (ix2 p q) ((ValueIdx.contrEquiv1 dot_S1024x256_S256x512_S1024x512_1_0_0_1_n_n 256 rfl rfl).symm k) = ix2 k q := funext fun a => Fin.ext (by
    match a with
    | ⟨0, _⟩ => exact (rhs7_0 _ _).trans hk
    | ⟨1, _⟩ => exact rhs7_1 _ _)
  rw [el, er]

/-- The body's payload at entry (p, q): the rectifier of the product's entry plus the bias entry; the format
    changes, the last one to the output's format included, are the identity over the extended reals. -/
theorem pay7_apply (x0 : Vec Ideal S1024x256 .f32) (x1 : Vec Ideal S256x512 .f32) (x2 : Vec Ideal S1x512 .f32)
    (p : Fin 1024) (q : Fin 512) :
    k7_pay1 (F := Ideal) x0 x1 x2 (ix2 p q) = max ((∑ k : Fin 256, x0 (ix2 p k) * x1 (ix2 k q)) + x2 (ix2 (0 : Fin 1) q)) 0 := by
  unfold k7_pay1
  rw [truncf_apply, maximumf_apply, addf_apply, broadcast_apply]
  rw [shapeCast_self, shapeCast_self]
  rw [broadcastTo_apply x2 broadcasts_S1x512_S1024x512 (ix2 p q) (ix2 (0 : Fin 1) q) (fun a => by
    match a with
    | ⟨0, _⟩ => rfl
    | ⟨1, _⟩ => rfl)]
  simp only [matmul]
  rw [mm7_apply]
  simp only [truncf_apply]
  have hz : (FloatOps.ofBits FTy.f32 0x00000000#32 : Ideal .f32) = 0 := Ideal.ofBits_zero_f32
  rw [hz]

/-- The payload at an index `j` of the block, when the three blocks are read off three arrays at the array index `i`
    that `j` names: the specification's entry `i`. -/
theorem point7 (A0 : S8192x256.Idx → EReal) (A1 : S256x512.Idx → EReal) (A2 : S1x512.Idx → EReal)
    (x0 : Vec Ideal S1024x256 .f32) (x1 : Vec Ideal S256x512 .f32) (x2 : Vec Ideal S1x512 .f32)
    (j : S1024x512.Idx) (i : S8192x512.Idx)
    (h0 : ∀ k : Fin 256, x0 (ix2 (j 0 : Fin 1024) k) = A0 (ix2 (i 0 : Fin 8192) k))
    (h1 : ∀ k : Fin 256, x1 (ix2 k (j 1 : Fin 512)) = A1 (ix2 k (i 1 : Fin 512)))
    (h2 : x2 (ix2 (0 : Fin 1) (j 1 : Fin 512)) = A2 (ix2 (0 : Fin 1) (i 1 : Fin 512))) :
    k7_pay1 (F := Ideal) x0 x1 x2 j = Spec.relu (Spec.addRow (Spec.mm A0 A1) A2) i := by
  obtain ⟨p, q, rfl⟩ : ∃ (p : Fin 1024) (q : Fin 512), j = ix2 p q := ⟨j 0, j 1, eq_ix2 j⟩
  have h0' : ∀ k : Fin 256, x0 (ix2 p k) = A0 (ix2 (i 0 : Fin 8192) k) := h0
  have h1' : ∀ k : Fin 256, x1 (ix2 k q) = A1 (ix2 k (i 1 : Fin 512)) := h1
  have h2' : x2 (ix2 (0 : Fin 1) q) = A2 (ix2 (0 : Fin 1) (i 1 : Fin 512)) := h2
  rw [pay7_apply, h2']
  simp only [h0', h1']
  rfl

variable (V : (c : Dev nD) → (b : Ref sig .tc) → Buf (Elt Ideal) ((c : Thread nD τ).loc b))

theorem hz7 : (![0, 0] : Fin 2 → Nat) = fun _ => 0 := funext fun a => by fin_cases a <;> rfl

/-- The index maps over the grid: the latent block and the output block are row block `t`; the weight and the bias
    row are the one whole block. -/
theorem idx_facts7 : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- An index of the array is in point `t`'s block iff each coordinate is in the block's range on its axis. -/
theorem mem_blk7 (t : Fin cfg7.N) (i : S8192x512.Idx) :
    i ∈ ((cfg7.win 3).blk t).view.set ↔ ∀ a : Fin 2, win7_3.index t a * S1024x512.size a ≤ (i a).val ∧ (i a).val < win7_3.index t a * S1024x512.size a + S1024x512.size a := by
  show i ∈ ((View.whole main_v64).slice (win7_3.rect t)).set ↔ _
  rw [View.set_slice_whole, Rect.mem_set_unit]
  exact Iff.rfl

/-- Row `r` lies in row block `r / 1024`: the eight blocks cover the array. -/
theorem cover7 (i : S8192x512.Idx) : ∃ t : Fin cfg7.N, (cfg7.win 3).flush t = true ∧ i ∈ ((cfg7.win 3).blk t).view.set := by
  have hi0 : (i 0).val < 8192 := (i 0).isLt
  have hi1 : (i 1).val < 512 := (i 1).isLt
  have hN : cfg7.N = 8 := N_7
  refine ⟨⟨(i 0).val / 1024, by rw [hN]; omega⟩, flush7_3 _, ?_⟩
  rw [mem_blk7]
  obtain ⟨-, -, -, -, -, -, e30, e31⟩ := idx_facts7 ⟨(i 0).val / 1024, by rw [hN]; omega⟩
  intro a
  match a with
  | ⟨0, _⟩ => show win7_3.index _ (0 : Fin 2) * 1024 ≤ (i 0).val ∧ (i 0).val < win7_3.index _ (0 : Fin 2) * 1024 + 1024; rw [e30]; show (i 0).val / 1024 * 1024 ≤ _ ∧ _ < (i 0).val / 1024 * 1024 + 1024; omega
  | ⟨1, _⟩ => show win7_3.index _ (1 : Fin 2) * 512 ≤ (i 1).val ∧ (i 1).val < win7_3.index _ (1 : Fin 2) * 512 + 512; rw [e31]; omega

/-- What grid point `t` writes back is block `t` of the specification function of the arrays as the region finds them. -/
theorem flushed7_eq (c : Dev nD) (t : Fin cfg7.N) :
    (dat7 (F := Ideal) V c).flushed 3 t = ((cfg7.win 3).blk t).view.read (Elt Ideal)
      (Spec.relu (Spec.addRow (Spec.mm (V c main_v57_2) (V c main_arg12)) (V c main_v63))) := by
  show (cfg7.win 3).cut (grid7.coords t) ((dat7 (F := Ideal) V c).after 3 t) = _
  rw [after7_3]
  unfold out7_3
  rw [View.canon_unit_zero hz7]
  simp only [View.ld_unit_zero (S := S1024x256) hz7, View.ld_unit_zero (S := S256x512) hz7, View.ld_unit_zero (S := S1x512) hz7]
  obtain ⟨e00, e01, e10, e11, e20, e21, e30, e31⟩ := idx_facts7 t
  funext j
  refine point7 (V c main_v57_2) (V c main_arg12) (V c main_v63) _ _ _ j (((cfg7.win 3).blk t).view.emb j) ?_ ?_ ?_
  · intro k
    show V c main_v57_2 (((cfg7.win 0).blk t).view.emb (ix2 (j 0 : Fin 1024) k)) = _
    refine congrArg (V c main_v57_2) (funext fun a => Fin.ext ?_)
    match a with
    | ⟨0, _⟩ => show win7_0.index t (0 : Fin 2) * 1024 + 1 * (j 0).val = win7_3.index t (0 : Fin 2) * 1024 + 1 * (j 0).val; omega
    | ⟨1, _⟩ => show win7_0.index t (1 : Fin 2) * 256 + 1 * k.val = k.val; omega
  · intro k
    show V c main_arg12 (((cfg7.win 1).blk t).view.emb (ix2 k (j 1 : Fin 512))) = _
    refine congrArg (V c main_arg12) (funext fun a => Fin.ext ?_)
    match a with
    | ⟨0, _⟩ => show win7_1.index t (0 : Fin 2) * 256 + 1 * k.val = k.val; omega
    | ⟨1, _⟩ => show win7_1.index t (1 : Fin 2) * 512 + 1 * (j 1).val = win7_3.index t (1 : Fin 2) * 512 + 1 * (j 1).val; omega
  · show V c main_v63 (((cfg7.win 2).blk t).view.emb (ix2 (0 : Fin 1) (j 1 : Fin 512))) = _
    refine congrArg (V c main_v63) (funext fun a => Fin.ext ?_)
    match a with
    | ⟨0, _⟩ => show win7_2.index t (0 : Fin 2) * 1 + 1 * 0 = 0; omega
    | ⟨1, _⟩ => show win7_2.index t (1 : Fin 2) * 512 + 1 * (j 1).val = win7_3.index t (1 : Fin 2) * 512 + 1 * (j 1).val; omega

/-- THE ARRAY the region leaves: the rectifier of the latent times the layer's weight with the bias row added. -/
theorem val7_3 (c : Dev nD) : (dat7 (F := Ideal) V c).arrAt 3 cfg7.N
    = Spec.relu (Spec.addRow (Spec.mm (V c main_v57_2) (V c main_arg12)) (V c main_v63)) :=
  (dat7 (F := Ideal) V c).arrAt_eq_of_cover 3 _ (fun t _ => flushed7_eq V c t) cover7

end Cert.KernelIdeal.Hand

end
-- ==== Proof.GraphHost.lean ====
/-
  The graph stages both programs compute the same way, read at an index over the specification's graph functions.
  Each lemma is stated over the library's operations and plain functions, and names neither program.

  * The edge ends: the given row of the edge array, flattened, followed by the node numbers `0 … 8191` (one self loop
    per node), read at edge `e`, is `Spec.endW ei r e`.
  * Under the range condition an end's word is a node number: its signed value is the node `Spec.endOf` names, so the
    wrap of a negative word (`w < 0 ? w + 8192 : w`) leaves it alone, the clamp of a gather leaves it alone, and a
    scatter lands the update of edge `e` on node `i` exactly when `endOf ei r e = i`.
  * The degree: scattering ones at the targets into zeros gives, at node `i`, the number of edges that end at `i`.
  * The inverse square root guarded by `0 < d`.
  * An entry gather at the column of end words reads the operand at the node the end names.
-/
import proofs.«416422_j54030688584368_1_alg».proof.Proof.Graph
import Idealize.ShloMosaic.Lib.Pipeline.Value
import Idealize.ShloMosaic.Lib.IdealHost
import Idealize.ShloMosaic.PureOps.Ideal.Laws

noncomputable section

open scoped BigOperators

namespace Cert.GraphHost

open Idealize.ShloMosaic Idealize.ShloMosaic.ValueIdx Cert.Proof

/-! ## The edge ends -/

/-- THE EDGE ENDS AT `e`: row `r` of the edge array (a slice at offsets `(r, 0)`, flattened) followed by the node
    numbers, read at `e`, is end `r` of edge `e` of the self-looped edge list. Below `262144` the index falls in the
    first piece, at the same position of row `r`; from there on in the second, `262144` less, where the iota reads
    the position as a word. -/
theorem ends_apply (ei : Spec.EI) (r : Fin 2) (off : Fin 2 → Nat) (hoff0 : off 0 = r.val) (hoff1 : off 1 = 0)
    (hsl : (⟨2, ![2, 262144]⟩ : Shape).Slices off ⟨2, ![1, 262144]⟩)
    (hsc : (⟨2, ![1, 262144]⟩ : Shape).ShapeCasts ⟨1, ![262144]⟩)
    (hcc : Shape.Concatenates [⟨1, ![262144]⟩, ⟨1, ![8192]⟩] ⟨1, ![270336]⟩ 0) (e : Fin 270336) :
    concatenate (⟨1, ![270336]⟩ : Shape) 0
      [⟨⟨1, ![262144]⟩, shapeCast ⟨1, ![262144]⟩ (extractStridedSlice ⟨2, ![1, 262144]⟩ off ei hsl) hsc⟩,
       ⟨⟨1, ![8192]⟩, iotaInDim ⟨1, ![8192]⟩ 32 0⟩] hcc (ix1 e) = Spec.endW ei r e := by
  unfold Spec.endW
  by_cases h : e.val < 262144
  · rw [dif_pos h]
    refine (concatenate_pair_apply_left (t := ⟨1, ![270336]⟩) (s₁ := ⟨1, ![262144]⟩) (s₂ := ⟨1, ![8192]⟩)
      (0 : Fin 1) _ _ hcc (ix1 e) rfl (ix1 (⟨e.val, h⟩ : Fin 262144)) ?_).trans ?_
    · intro b
      match b with
      | ⟨0, _⟩ => rfl
    · refine (shapeCast_apply _ hsc (ix1 (⟨e.val, h⟩ : Fin 262144))
        (ix2 (0 : Fin 1) (⟨e.val, h⟩ : Fin 262144)) ?_).trans ?_
      · rw [Shape.rowMajor_val_two, Shape.rowMajor_val_one]
        show 0 * 262144 + e.val = e.val
        omega
      · refine extractStridedSlice_apply off ei hsl _ (ix2 r (⟨e.val, h⟩ : Fin 262144)) ?_
        intro a
        match a with
        | ⟨0, _⟩ => show r.val = off 0 + 0; rw [hoff0]; rfl
        | ⟨1, _⟩ => show e.val = off 1 + e.val; rw [hoff1]; omega
  · rw [dif_neg h]
    have he := e.isLt
    refine (concatenate_pair_apply_right (t := ⟨1, ![270336]⟩) (s₁ := ⟨1, ![262144]⟩) (s₂ := ⟨1, ![8192]⟩)
      (0 : Fin 1) _ _ hcc (ix1 e) rfl rfl (ix1 (⟨e.val - 262144, by omega⟩ : Fin 8192)) ?_ ?_).trans ?_
    · intro b hb
      exact absurd (Subsingleton.elim _ _) hb
    · show (e.val - 262144) + 262144 = e.val
      omega
    · rfl

/-! ## An end's word under the range condition -/

/-- A small number as a 32-bit word reads back signed as itself. -/
theorem toInt_ofNat_small (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- Under the range condition every end's word, a given one or a self loop's, is a node number. -/
theorem endW_range (ei : Spec.EI) (hR : Spec.InRange ei) (r : Fin 2) (e : Fin 270336) :
    0 ≤ (Spec.endW ei r e).toInt ∧ (Spec.endW ei r e).toInt < 8192 := by
  unfold Spec.endW
  by_cases h : e.val < 262144
  · rw [dif_pos h]; exact hR _
  · rw [dif_neg h]
    have he := e.isLt
    rw [toInt_ofNat_small _ (by omega)]
    omega

/-- The node an end names has the word's signed value as its number: the clamp leaves a word in range alone. -/
theorem endW_toInt (ei : Spec.EI) (hR : Spec.InRange ei) (r : Fin 2) (e : Fin 270336) :
    (Spec.endW ei r e).toInt = ((Spec.endOf ei r e).val : Int) := by
  obtain ⟨h0, h1⟩ := endW_range ei hR r e
  show _ = ((min (Spec.endW ei r e).toInt.toNat (8192 - 1) : Nat) : Int)
  omega

/-- An end's word is node `i`'s number exactly when the end names node `i`. -/
theorem endW_toInt_iff (ei : Spec.EI) (hR : Spec.InRange ei) (r : Fin 2) (e : Fin 270336) (i : Fin 8192) :
    (Spec.endW ei r e).toInt = (i.val : Int) ↔ (Spec.endOf ei r e).val = i.val := by
  rw [endW_toInt ei hR r e]
  exact Int.ofNat_inj

/-- The wrap of a negative word leaves a nonnegative one alone. -/
theorem wrap_of_nonneg (w k : BitVec 32) (h : 0 ≤ w.toInt) :
    Scalar.select (IntOp.cmpi .slt w 0#32) (IntOp.addi w k) w = w := by
  have hs : w.slt 0#32 = false := by
    rw [BitVec.slt_eq_decide]
    simp only [BitVec.toInt_zero, decide_eq_false_iff_not, not_lt]
    exact h
  unfold Scalar.select IntOp.cmpi
  simp only [hs]
  rfl

/-- THE WRAP AT AN END'S WORD is the identity under the range condition. -/
theorem wrap_word (ei : Spec.EI) (hR : Spec.InRange ei) (r : Fin 2) (e : Fin 270336) :
    Scalar.select (IntOp.cmpi .slt (Spec.endW ei r e) 0#32) (IntOp.addi (Spec.endW ei r e) 8192#32) (Spec.endW ei r e)
      = Spec.endW ei r e :=
  wrap_of_nonneg _ _ (endW_range ei hR r e).1

/-! ## Columns of end words -/

/-- A COLUMN: a vector over the edges broadcast to one column reads, at `(e, 0)`, the vector at `e`. -/
theorem col_apply {α : Type} (hb : (⟨1, ![270336]⟩ : Shape).BroadcastsInDim ⟨2, ![270336, 1]⟩ ![0])
    (w : (⟨1, ![270336]⟩ : Shape).Idx → α) (e : Fin 270336) :
    broadcastInDim ⟨2, ![270336, 1]⟩ ![0] hb w (ix2 e (0 : Fin 1)) = w (ix1 e) := by
  refine broadcastInDim_apply _ hb w _ (ix1 e) ?_
  intro a
  match a with
  | ⟨0, _⟩ => show e.val = if (270336 : Nat) = 1 then 0 else e.val; rw [if_neg (by decide)]

/-- THE COLUMN OF WRAPPED END WORDS: where `w` holds the words of end `r`, the column of
    `w < 0 ? w + 8192 : w` reads, at `(e, 0)`, the word of end `r` of edge `e` (the wrap is the identity in range). -/
theorem wrapCol_apply (ei : Spec.EI) (hR : Spec.InRange ei) (r : Fin 2)
    (hb : (⟨1, ![270336]⟩ : Shape).BroadcastsInDim ⟨2, ![270336, 1]⟩ ![0]) (w z k : IVec ⟨1, ![270336]⟩ 32)
    (hw : ∀ e : Fin 270336, w (ix1 e) = Spec.endW ei r e) (hz : ∀ j, z j = 0#32) (hk : ∀ j, k j = 8192#32)
    (e : Fin 270336) :
    broadcastInDim ⟨2, ![270336, 1]⟩ ![0] hb (select (cmpi .slt w z) (addi w k) w) (ix2 e (0 : Fin 1))
      = Spec.endW ei r e := by
  rw [col_apply]
  show Scalar.select (IntOp.cmpi .slt (w (ix1 e)) (z (ix1 e))) (IntOp.addi (w (ix1 e)) (k (ix1 e))) (w (ix1 e)) = _
  rw [hw, hz, hk]
  exact wrap_word ei hR r e

/-! ## The degree -/

/-- THE DEGREE AT NODE `i`: ones scattered at the targets into zeros sum, at `i`, to the number of edges that end
    at `i`. -/
theorem deg_apply (ei : Spec.EI) (hR : Spec.InRange ei)
    (wf : ScatterDims.WF ⟨1, ![8192]⟩ ⟨2, ![270336, 1]⟩ ⟨1, ![270336]⟩ [] [0] [0] 1)
    (x : FVec Ideal ⟨1, ![8192]⟩ .f32) (idx : IVec ⟨2, ![270336, 1]⟩ 32) (upd : FVec Ideal ⟨1, ![270336]⟩ .f32)
    (hx : ∀ i, x i = 0) (hidx : ∀ e : Fin 270336, idx (ix2 e (0 : Fin 1)) = Spec.endW ei 1 e)
    (hupd : ∀ j, upd j = 1) (i : Fin 8192) :
    Host.scatterAdd (GS.scat1 8192 270336 wf) x idx upd (ix1 i) = Spec.deg ei i := by
  rw [GS.scatterAdd_scat1_apply, hx, zero_add]
  unfold Spec.deg
  refine Finset.sum_congr (Finset.filter_congr fun e _ => ?_) fun e _ => hupd _
  rw [hidx]
  exact endW_toInt_iff ei hR 1 e i

/-! ## The guarded inverse square root -/

/-- THE GUARDED INVERSE SQUARE ROOT: selecting `rsqrt d` where `d > 0` and zero elsewhere. -/
theorem dinv_word (d : EReal) :
    Scalar.select (Ideal.cmp .ogt d 0) (Ideal.rsqrt d) (0 : EReal) = if 0 < d then Ideal.rsqrt d else 0 := by
  unfold Scalar.select Ideal.cmp
  by_cases h : 0 < d
  · simp [h]
  · simp [h]

/-! ## The entry gather at an end -/

/-- THE ENTRY GATHER AT EDGE `e`, at a column of end words: the operand at the node the end names. -/
theorem gath1_apply {α : Type} (ei : Spec.EI) (r : Fin 2)
    (wf : GatherDims.WF ⟨1, ![8192]⟩ ⟨2, ![270336, 1]⟩ ⟨1, ![270336]⟩ [] [0] [] [0] [] 1 ![1])
    (v : (⟨1, ![8192]⟩ : Shape).Idx → α) (idx : IVec ⟨2, ![270336, 1]⟩ 32)
    (hidx : ∀ e : Fin 270336, idx (ix2 e (0 : Fin 1)) = Spec.endW ei r e) (e : Fin 270336) :
    Host.gather (GS.gath1 8192 270336 wf) v idx (ix1 e) = v (ix1 (Spec.endOf ei r e)) := by
  rw [GS.gather_gath1_apply (by decide), hidx]
  rfl

/-- THE ROW GATHER AT `(e, q)`, at a column of end words: the operand's row at the node the end names. -/
theorem gathD_apply {α : Type} {D : Nat} (ei : Spec.EI) (r : Fin 2)
    (wf : GatherDims.WF ⟨2, ![8192, D]⟩ ⟨2, ![270336, 1]⟩ ⟨2, ![270336, D]⟩ [1] [0] [] [0] [] 1 ![1, D])
    (x : (⟨2, ![8192, D]⟩ : Shape).Idx → α) (idx : IVec ⟨2, ![270336, 1]⟩ 32)
    (hidx : ∀ e : Fin 270336, idx (ix2 e (0 : Fin 1)) = Spec.endW ei r e) (e : Fin 270336) (q : Fin D) :
    Host.gather (GS.gathD 8192 270336 D wf) x idx (ix2 e q) = x (ix2 (Spec.endOf ei r e) q) := by
  rw [GS.gather_gathD_apply (by decide), hidx]
  rfl

/-- THE ROW SCATTER-ADD AT `(i, q)`, at a column of end words, into zeros: the sum, over the edges whose end names
    node `i`, of the update entries `(e, q)`. -/
theorem scatD_apply {D : Nat} (ei : Spec.EI) (hR : Spec.InRange ei) (r : Fin 2)
    (wf : ScatterDims.WF ⟨2, ![8192, D]⟩ ⟨2, ![270336, 1]⟩ ⟨2, ![270336, D]⟩ [1] [0] [0] 1)
    (x : FVec Ideal ⟨2, ![8192, D]⟩ .f32) (idx : IVec ⟨2, ![270336, 1]⟩ 32) (upd : FVec Ideal ⟨2, ![270336, D]⟩ .f32)
    (hx : ∀ i, x i = 0) (hidx : ∀ e : Fin 270336, idx (ix2 e (0 : Fin 1)) = Spec.endW ei r e)
    (i : Fin 8192) (q : Fin D) :
    Host.scatterAdd (GS.scatD 8192 270336 D wf) x idx upd (ix2 i q)
      = ∑ e : Fin 270336 with (Spec.endOf ei r e).val = i.val, upd (ix2 e q) := by
  rw [GS.scatterAdd_scatD_apply, hx, zero_add]
  refine Finset.sum_congr (Finset.filter_congr fun e _ => ?_) fun e _ => rfl
  rw [hidx]
  exact endW_toInt_iff ei hR r e i

/-! ## One aggregation -/

/-- ONE AGGREGATION: the rows of `H` gathered at the sources, each multiplied by its edge's weight, scatter-added at
    the targets into zeros, is the aggregate of `H`: at `(i, q)` the sum, over the edges that end at `i`, of
    `H (source e, q)` times the weight of `e`. -/
theorem agg_apply {D : Nat} (ei : Spec.EI) (hR : Spec.InRange ei)
    (wfg : GatherDims.WF ⟨2, ![8192, D]⟩ ⟨2, ![270336, 1]⟩ ⟨2, ![270336, D]⟩ [1] [0] [] [0] [] 1 ![1, D])
    (wfs : ScatterDims.WF ⟨2, ![8192, D]⟩ ⟨2, ![270336, 1]⟩ ⟨2, ![270336, D]⟩ [1] [0] [0] 1)
    (H : Spec.Mat 8192 D) (z : FVec Ideal ⟨2, ![8192, D]⟩ .f32) (idxg idxs : IVec ⟨2, ![270336, 1]⟩ 32)
    (nr : FVec Ideal ⟨2, ![270336, D]⟩ .f32)
    (hz : ∀ i, z i = 0)
    (hg : ∀ e : Fin 270336, idxg (ix2 e (0 : Fin 1)) = Spec.endW ei 0 e)
    (hs : ∀ e : Fin 270336, idxs (ix2 e (0 : Fin 1)) = Spec.endW ei 1 e)
    (hnr : ∀ (e : Fin 270336) (q : Fin D), nr (ix2 e q) = Spec.nrm ei e) :
    Host.scatterAdd (GS.scatD 8192 270336 D wfs) z idxs
        (mulf (Host.gather (GS.gathD 8192 270336 D wfg) H idxg) nr) = Spec.agg ei H := by
  funext i
  obtain ⟨p, q, rfl⟩ : ∃ (p : Fin 8192) (q : Fin D), i = ix2 p q := ⟨i 0, i 1, eq_ix2 i⟩
  rw [scatD_apply ei hR 1 wfs z idxs _ hz hs p q]
  show _ = ∑ e : Fin 270336 with (Spec.endOf ei 1 e).val = p.val, H (ix2 (Spec.endOf ei 0 e) q) * Spec.nrm ei e
  refine Finset.sum_congr rfl fun e _ => ?_
  show FloatOps.mulf (Host.gather (GS.gathD 8192 270336 D wfg) H idxg (ix2 e q)) (nr (ix2 e q)) = _
  rw [gathD_apply ei 0 wfg H idxg hg e q, hnr e q]
  rfl

end Cert.GraphHost

end
-- ==== Proof.LibScatter2.lean ====
/-
  The accumulating scatter at TWO scatter indices per update, READ AT AN INDEX, over generic extents: an operand
  `[N, M]`, `E` updates (scalars, no window), scatter indices `[E, 2]` whose row `e` holds the two index words of
  update `e` (column 0 for operand axis 0, column 1 for operand axis 1; both operand axes inserted and
  scatter-indexed, the index vector on axis 1 of the indices).

  Update `e` lands on `(i, j)` exactly when its two index words, read signed and NOT clamped, are `i` and `j`; an
  update with a word outside the operand is dropped. Hence at the ideal instance the scatter's value at `(i, j)` is
  the operand's plus the sum, over the updates `e` whose words are `(i, j)`, of `upd e`.

  The dimension-number record is written out here with its well-formedness as an argument, so that a program's own
  record of the same fields is this one by unfolding. The general fact of where an update lands
  (`resultIdx?_eq_some_iff`) is the one of the one-index file.
-/
import Idealize.ShloMosaic.PureOps.Ideal
import Idealize.ShloMosaic.Lib.ValueIdx
import proofs.«416422_j54030688584368_1_alg».proof.Proof.LibGatherScatter

open scoped BigOperators

namespace Cert.Proof.GS

open Idealize.ShloMosaic Idealize.ShloMosaic.ValueIdx

/-! ## The record -/

/-- Two-index entry scatter: operand `[N, M]`, scatter indices `[E, 2]`, updates `[E]`; both operand axes inserted
    and scatter-indexed (component 0 of the index vector for axis 0, component 1 for axis 1), no window. -/
abbrev scat2 (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-! ## Where an update lands -/

section Scat2
variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

/-- Operand axis 0: the start is the update's first index word read signed … -/
theorem scat2_start0 : (scat2 N M E wf).start (ix1 e) idx 0 = (idx (ix2 e (0 : Fin 2))).toInt := by
  unfold ScatterDims.start
  rw [dif_pos (show (0 : Fin 2) ∈ (scat2 N M E wf).scatterDimsToOperandDims from
    show (0 : Fin 2) ∈ ([0, 1] : List (Fin 2)) by decide)]
  congr 2
  funext b
  refine Fin.ext ?_
  match b with
  | ⟨0, _⟩ => rfl
  | ⟨1, _⟩ => rfl

/-- … operand axis 1: the start is the update's second index word read signed … -/
theorem scat2_start1 : (scat2 N M E wf).start (ix1 e) idx 1 = (idx (ix2 e (1 : Fin 2))).toInt := by
  unfold ScatterDims.start
  rw [dif_pos (show (1 : Fin 2) ∈ (scat2 N M E wf).scatterDimsToOperandDims from
    show (1 : Fin 2) ∈ ([0, 1] : List (Fin 2)) by decide)]
  congr 2
  funext b
  refine Fin.ext ?_
  match b with
  | ⟨0, _⟩ => rfl
  | ⟨1, _⟩ => rfl

/-- … and there is no window coordinate on either axis (both are inserted). -/
theorem scat2_window (a : Fin 2) : (scat2 N M E wf).window (ix1 e) a = 0 := by
  unfold ScatterDims.window
  rw [dif_neg]
  intro h
  have hm : a ∉ ([0, 1] : List (Fin 2)) := by
    simpa [ScatterDims.sKept, Shape.kept, List.mem_filter] using h
  exact hm (by fin_cases a <;> simp)

/-- WHERE AN UPDATE LANDS: update `e` lands on `(i, j)` iff its two index words, read signed, are `i` and `j`. -/
theorem scat2_resultIdx?_iff (i : Fin N) (j : Fin M) :
    (scat2 N M E wf).resultIdx? (ix1 e) idx = some (ix2 i j)
      ↔ (idx (ix2 e (0 : Fin 2))).toInt = (i.val : Int) ∧ (idx (ix2 e (1 : Fin 2))).toInt = (j.val : Int) := by
  rw [resultIdx?_eq_some_iff]
  constructor
  · intro h
    have h0 : (scat2 N M E wf).start (ix1 e) idx 0 + ((scat2 N M E wf).window (ix1 e) 0 : Int) = (i.val : Int) := h 0
    have h1 : (scat2 N M E wf).start (ix1 e) idx 1 + ((scat2 N M E wf).window (ix1 e) 1 : Int) = (j.val : Int) := h 1
    rw [scat2_start0, scat2_window] at h0
    rw [scat2_start1, scat2_window] at h1
    exact ⟨by simpa using h0, by simpa using h1⟩
  · rintro ⟨h0, h1⟩ a
    match a with
    | ⟨0, _⟩ =>
      show (scat2 N M E wf).start (ix1 e) idx 0 + ((scat2 N M E wf).window (ix1 e) 0 : Int) = (i.val : Int)
      rw [scat2_start0, scat2_window, h0]; simp
    | ⟨1, _⟩ =>
      show (scat2 N M E wf).start (ix1 e) idx 1 + ((scat2 N M E wf).window (ix1 e) 1 : Int) = (j.val : Int)
      rw [scat2_start1, scat2_window, h1]; simp

end Scat2

/-! ## The accumulating scatter at an index, at the ideal instance -/

section ScatterAddAt
open Finset

/-- THE TWO-INDEX SCATTER-ADD AT `(i, j)`: the operand's entry plus the sum, over the updates whose two index words
    read signed are `i` and `j`, of those updates. -/
theorem scatterAdd_scat2_apply {N M E w : Nat} {φ : FTy}
    (wf : ScatterDims.WF ⟨2, ![N, M]⟩ ⟨2, ![E, 2]⟩ ⟨1, ![E]⟩ [] [0, 1] [0, 1] 1)
    (x : FVec Ideal ⟨2, ![N, M]⟩ φ) (idx : IVec ⟨2, ![E, 2]⟩ w) (upd : FVec Ideal ⟨1, ![E]⟩ φ) (i : Fin N) (j : Fin M) :
    Host.scatterAdd (scat2 N M E wf) x idx upd (ix2 i j)
      = x (ix2 i j) + ∑ e ∈ univ.filter (fun e : Fin E =>
          (idx (ix2 e (0 : Fin 2))).toInt = (i.val : Int) ∧ (idx (ix2 e (1 : Fin 2))).toInt = (j.val : Int)),
          upd (ix1 e) := by
  classical
  show x (ix2 i j) + ∑ u ∈ univ.filter (fun u => (scat2 N M E wf).resultIdx? u idx = some (ix2 i j)), upd u = _
  congr 1
  refine Finset.sum_bij' (fun u _ => (u 0 : Fin E)) (fun e _ => ix1 e) ?_ ?_ ?_ ?_ ?_
  · intro u hu
    have h2 := (Finset.mem_filter.mp hu).2
    rw [eq_ix1 u] at h2
    exact Finset.mem_filter.mpr ⟨Finset.mem_univ _, (scat2_resultIdx?_iff wf idx _ i j).mp h2⟩
  · intro e he
    exact Finset.mem_filter.mpr ⟨Finset.mem_univ _, (scat2_resultIdx?_iff wf idx e i j).mpr (Finset.mem_filter.mp he).2⟩
  · intro u _; exact (eq_ix1 u).symm
  · intro e _; rfl
  · intro u _; exact congrArg upd (eq_ix1 u)

end ScatterAddAt

end Cert.Proof.GS
-- ==== Proof.KI.Adjacency.lean ====
/-
  The host chain that builds the dense normalised adjacency, read at an index at the ideal instance.

  The program's first three stretches of host operations (the main function's opening, the small selection function it
  calls, and the main function up to the first kernel) compute, from the edge array alone: the two columns of end
  words (a row of the edge array followed by the node numbers), the degree (ones scattered at the targets), the guarded
  inverse square root of the degree, the wrap of a negative word, the two entry gathers of the inverse square root at
  the wrapped ends, their product (an edge's weight), and the two-index accumulating scatter of the weights at
  (target, source) into a zero matrix, finally narrowed to the 16-bit format (the identity at the ideal instance).

  Each stage is a NAMED function of its inputs. The three stretches are read off the program once each, over an
  arbitrary valuation, as those functions of the arrays the stretch reads; the composition is then a function of the
  edge array only, and under the range condition it is `Spec.adj`: at `(i, j)` the scatter's value is zero plus the sum,
  over the edges whose wrapped words are `(i, j)`, of the product of the gathered inverse square roots, and in range
  the wrap, the gather's clamp and the scatter's signed read all name the node `Spec.endOf` names.
-/
import proofs.«416422_j54030688584368_1_alg».proof.Proof.Gen.KernelIdeal.Launch
import proofs.«416422_j54030688584368_1_alg».proof.Proof.GraphHost
import proofs.«416422_j54030688584368_1_alg».proof.Proof.LibScatter2
import Idealize.ShloMosaic.Lib.StableHlo.Run
import Idealize.ShloMosaic.Lib.Pipeline.Value
import Idealize.ShloMosaic.Lib.IdealHost
import Idealize.ShloMosaic.PureOps.Ideal
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.Proof

/-! ## The stages, as functions of their inputs -/

/-- A column of end words: the row of the edge array the slice at offsets `off` cuts out, flattened, followed by the
    node numbers. -/
def endsV (ei : IVec S2x262144 32) (off : Fin 2 → Nat) (hsl : S2x262144.Slices off S1x262144) : IVec S270336 32 :=
  concatenate S270336 0
    [⟨S262144, shapeCast S262144 (extractStridedSlice S1x262144 off ei hsl) shapeCasts_S1x262144_S262144⟩,
     ⟨S8192, iotaInDim S8192 32 0⟩] concatenates_S262144_S8192_S270336_d0

/-- The sources' words. -/
def srcV (ei : IVec S2x262144 32) : IVec S270336 32 := endsV ei ![0, 0] slices_S2x262144_S1x262144_0_0
/-- The targets' words. -/
def dstV (ei : IVec S2x262144 32) : IVec S270336 32 := endsV ei ![1, 0] slices_S2x262144_S1x262144_1_0

/-- A vector of words as a one-column matrix. -/
def colV (v : IVec S270336 32) : IVec S270336x1 32 := broadcastInDim S270336x1 ![0] bcast_S270336_S270336x1_0 v

/-- The zero vector over the nodes. -/
def zeroN : FVec Ideal S8192 .f32 := broadcastInDim S8192 ![] bcast_S_S8192 (constant (F := Ideal) S_ .f32 0x00000000#32)

/-- The degree: ones scattered at the column of words `d` into zeros. -/
def degV (d : IVec S270336 32) : FVec Ideal S8192 .f32 :=
  Host.scatterAdd scatter_S8192_S270336x1_S270336_n_0_0_1 zeroN (colV d)
    (broadcastInDim S270336 ![] bcast_S_S270336 (constant (F := Ideal) S_ .f32 0x3F800000#32))

/-- The guarded inverse square root: `rsqrt g` where `g > 0`, zero elsewhere. -/
def dinvV (g : FVec Ideal S8192 .f32) : FVec Ideal S8192 .f32 :=
  select (cmpf .ogt g zeroN) (Host.rsqrt g)
    (broadcastInDim S8192 ![] bcast_S_S8192 (id (constant (F := Ideal) S_ .f32 0x00000000#32)))

/-- The wrap of a negative index word: `v < 0 ? v + 8192 : v`. -/
def wrapV (v : IVec S270336 32) : IVec S270336 32 :=
  select (cmpi .slt v (broadcastInDim S270336 ![] bcast_S_S270336 (constantI S_ 32 0#32)))
    (addi v (broadcastInDim S270336 ![] bcast_S_S270336 (constantI S_ 32 8192#32))) v

/-- An edge's weight: the product of `dv` gathered at the wrapped source and at the wrapped target. -/
def nrmV (s d : IVec S270336 32) (dv : FVec Ideal S8192 .f32) : FVec Ideal S270336 .f32 :=
  mulf (Host.gather gather_S8192_S270336x1_S270336_n_0_n_n_0_1_1 dv (colV (wrapV s)))
    (Host.gather gather_S8192_S270336x1_S270336_n_0_n_n_0_1_1 dv (colV (wrapV d)))

/-- The two scatter indices of every edge: the wrapped target in column 0, the wrapped source in column 1. -/
def idx2V (s d : IVec S270336 32) : IVec S270336x2 32 :=
  concatenate S270336x2 1 [⟨S270336x1, colV (wrapV d)⟩, ⟨S270336x1, colV (wrapV s)⟩]
    concatenates_S270336x1_S270336x1_S270336x2_d1

/-- The dense adjacency: the weights scattered at (target, source) into a zero matrix, narrowed. -/
def adjV (s d : IVec S270336 32) (dv : FVec Ideal S8192 .f32) : FVec Ideal S8192x8192 .bf16 :=
  truncf .bf16 (Host.scatterAdd scatter_S8192x8192_S270336x2_S270336_n_01_01_1
    (broadcastInDim S8192x8192 ![] bcast_S_S8192x8192 (constant (F := Ideal) S_ .f32 0x00000000#32))
    (idx2V s d) (nrmV s d dv)) bitsLt_bf16_f32

/-! ## The stages at an index -/

/-- A one-column matrix of words read at row `e` is the vector at `e`. -/
theorem colV_apply (v : IVec S270336 32) (e : Fin 270336) : colV v (ix2 e (0 : Fin 1)) = v (ix1 e) :=
  broadcastInDim_apply (s := S270336) (t := S270336x1) ![0] bcast_S270336_S270336x1_0 v (ix2 e (0 : Fin 1)) (ix1 e)
    (fun a => by match a with | ⟨0, _⟩ => rfl)

/-- The wrap at a position, on that position's word. -/
theorem wrapV_apply (v : IVec S270336 32) (e : Fin 270336) :
    wrapV v (ix1 e)
      = Scalar.select (IntOp.cmpi .slt (v (ix1 e)) 0#32) (IntOp.addi (v (ix1 e)) 8192#32) (v (ix1 e)) := rfl

/-- The zero vector reads zero. -/
theorem zeroN_apply (i : S8192.Idx) : zeroN i = 0 := Ideal.ofBits_zero_f32

/-- The guarded inverse square root at a position, on that position's entry. -/
theorem dinvV_at (g : FVec Ideal S8192 .f32) (i : S8192.Idx) :
    dinvV g i = Scalar.select (Ideal.cmp .ogt (g i) 0) (Ideal.rsqrt (g i)) (0 : EReal) := by
  have h3 : broadcastInDim S8192 ![] bcast_S_S8192 (id (constant (F := Ideal) S_ .f32 0x00000000#32)) i
      = (0 : EReal) := Ideal.ofBits_zero_f32
  unfold dinvV
  rw [select_apply, cmpf_apply, zeroN_apply, h3]
  rfl

/-- Column 0 of the scatter indices is the wrapped target … -/
theorem idx2V_col0 (s d : IVec S270336 32) (e : Fin 270336) :
    idx2V s d (ix2 e (0 : Fin 2)) = colV (wrapV d) (ix2 e (0 : Fin 1)) :=
  concatenate_pair_apply_left (t := S270336x2) (s₁ := S270336x1) (s₂ := S270336x1) (1 : Fin 2) _ _
    concatenates_S270336x1_S270336x1_S270336x2_d1 (ix2 e (0 : Fin 2)) rfl (ix2 e (0 : Fin 1))
    (fun b => by match b with | ⟨0, _⟩ => rfl | ⟨1, _⟩ => rfl)

/-- … and column 1 the wrapped source. -/
theorem idx2V_col1 (s d : IVec S270336 32) (e : Fin 270336) :
    idx2V s d (ix2 e (1 : Fin 2)) = colV (wrapV s) (ix2 e (0 : Fin 1)) :=
  concatenate_pair_apply_right (t := S270336x2) (s₁ := S270336x1) (s₂ := S270336x1) (1 : Fin 2) _ _
    concatenates_S270336x1_S270336x1_S270336x2_d1 (ix2 e (1 : Fin 2)) rfl rfl (ix2 e (0 : Fin 1))
    (fun b hb => by
      match b, hb with
      | ⟨0, _⟩, _ => rfl
      | ⟨1, _⟩, hb => exact absurd rfl hb)
    rfl

/-! ## The composition under the range condition -/

section Value

variable (ei : Spec.EI) (hR : Spec.InRange ei)

/-- The sources' column at edge `e` is the source's word. -/
theorem srcV_apply (e : Fin 270336) : srcV ei (ix1 e) = Spec.endW ei 0 e :=
  GraphHost.ends_apply ei 0 ![0, 0] rfl rfl slices_S2x262144_S1x262144_0_0 shapeCasts_S1x262144_S262144
    concatenates_S262144_S8192_S270336_d0 e

/-- The targets' column at edge `e` is the target's word. -/
theorem dstV_apply (e : Fin 270336) : dstV ei (ix1 e) = Spec.endW ei 1 e :=
  GraphHost.ends_apply ei 1 ![1, 0] rfl rfl slices_S2x262144_S1x262144_1_0 shapeCasts_S1x262144_S262144
    concatenates_S262144_S8192_S270336_d0 e

include hR

/-- In range the wrapped source column still holds the source's word … -/
theorem wrap_src (e : Fin 270336) : colV (wrapV (srcV ei)) (ix2 e (0 : Fin 1)) = Spec.endW ei 0 e := by
  rw [colV_apply, wrapV_apply, srcV_apply]; exact GraphHost.wrap_word ei hR 0 e

/-- … and the wrapped target column the target's word. -/
theorem wrap_dst (e : Fin 270336) : colV (wrapV (dstV ei)) (ix2 e (0 : Fin 1)) = Spec.endW ei 1 e := by
  rw [colV_apply, wrapV_apply, dstV_apply]; exact GraphHost.wrap_word ei hR 1 e

/-- The degree stage at node `i` is the node's degree. -/
theorem degV_apply (i : Fin 8192) : degV (dstV ei) (ix1 i) = Spec.deg ei i :=
  GraphHost.deg_apply ei hR scatter_S8192_S270336x1_S270336_n_0_0_1_wf zeroN (colV (dstV ei))
    (broadcastInDim S270336 ![] bcast_S_S270336 (constant (F := Ideal) S_ .f32 0x3F800000#32))
    zeroN_apply (fun e => (colV_apply _ e).trans (dstV_apply ei e)) (fun _ => Ideal.ofBits_one_f32) i

/-- The guarded inverse square root of the degree stage at node `i` is `Spec.dinv`. -/
theorem dinvV_apply (i : Fin 8192) : dinvV (degV (dstV ei)) (ix1 i) = Spec.dinv ei i := by
  rw [dinvV_at, degV_apply ei hR, GraphHost.dinv_word]
  rfl

/-- The weight stage at edge `e` is the edge's weight. -/
theorem nrmV_apply (e : Fin 270336) :
    nrmV (srcV ei) (dstV ei) (dinvV (degV (dstV ei))) (ix1 e) = Spec.nrm ei e := by
  have h0 : Host.gather gather_S8192_S270336x1_S270336_n_0_n_n_0_1_1 (dinvV (degV (dstV ei)))
      (colV (wrapV (srcV ei))) (ix1 e) = dinvV (degV (dstV ei)) (ix1 (Spec.endOf ei 0 e)) :=
    GraphHost.gath1_apply ei 0 gather_S8192_S270336x1_S270336_n_0_n_n_0_1_1_wf _ _ (wrap_src ei hR) e
  have h1 : Host.gather gather_S8192_S270336x1_S270336_n_0_n_n_0_1_1 (dinvV (degV (dstV ei)))
      (colV (wrapV (dstV ei))) (ix1 e) = dinvV (degV (dstV ei)) (ix1 (Spec.endOf ei 1 e)) :=
    GraphHost.gath1_apply ei 1 gather_S8192_S270336x1_S270336_n_0_n_n_0_1_1_wf _ _ (wrap_dst ei hR) e
  show Host.gather gather_S8192_S270336x1_S270336_n_0_n_n_0_1_1 (dinvV (degV (dstV ei)))
        (colV (wrapV (srcV ei))) (ix1 e)
      * Host.gather gather_S8192_S270336x1_S270336_n_0_n_n_0_1_1 (dinvV (degV (dstV ei)))
        (colV (wrapV (dstV ei))) (ix1 e) = _
  rw [h0, h1, dinvV_apply ei hR, dinvV_apply ei hR]
  rfl

/-- THE ADJACENCY STAGE IS THE SPECIFICATION'S ADJACENCY: at `(p, q)` the two-index scatter into zeros sums the weights
    of the edges whose (wrapped) words are `(p, q)`, which in range are the edges from `q` to `p`. -/
theorem adjV_eq : adjV (srcV ei) (dstV ei) (dinvV (degV (dstV ei))) = Spec.adj ei := by
  funext j
  obtain ⟨p, q, rfl⟩ : ∃ (p q : Fin 8192), j = ix2 p q := ⟨j 0, j 1, eq_ix2 j⟩
  show Host.scatterAdd scatter_S8192x8192_S270336x2_S270336_n_01_01_1
      (broadcastInDim S8192x8192 ![] bcast_S_S8192x8192 (constant (F := Ideal) S_ .f32 0x00000000#32))
      (idx2V (srcV ei) (dstV ei)) (nrmV (srcV ei) (dstV ei) (dinvV (degV (dstV ei)))) (ix2 p q) = _
  refine (GS.scatterAdd_scat2_apply (N := 8192) (M := 8192) (E := 270336)
    scatter_S8192x8192_S270336x2_S270336_n_01_01_1_wf _ _ _ p q).trans ?_
  rw [show broadcastInDim S8192x8192 ![] bcast_S_S8192x8192 (constant (F := Ideal) S_ .f32 0x00000000#32) (ix2 p q)
      = (0 : EReal) from Ideal.ofBits_zero_f32, zero_add]
  unfold Spec.adj
  refine Finset.sum_congr (Finset.filter_congr fun e _ => ?_) fun e _ => nrmV_apply ei hR e
  rw [idx2V_col0, idx2V_col1, wrap_dst ei hR, wrap_src ei hR]
  exact and_congr (GraphHost.endW_toInt_iff ei hR 1 e p) (GraphHost.endW_toInt_iff ei hR 0 e q)

end Value

/-! ## The three stretches read off the program, over an arbitrary valuation -/

section Stretches

variable (W : Valuation τ sig (Elt Ideal))

set_option maxHeartbeats 1000000 in
/-- After the opening stretch the sources' column holds `srcV` of the edge array. -/
theorem h0_v3 : (StableHlo.after (hostOps0 (F := Ideal)) W (Proc.devRef .tc main_v3) : IVec S270336 32)
    = srcV (W (Proc.devRef .tc main_arg1)) := by
  simp only [hostOps0]; after_results; rfl

set_option maxHeartbeats 1000000 in
/-- After the opening stretch the targets' column holds `dstV` of the edge array. -/
theorem h0_v6 : (StableHlo.after (hostOps0 (F := Ideal)) W (Proc.devRef .tc main_v6) : IVec S270336 32)
    = dstV (W (Proc.devRef .tc main_arg1)) := by
  simp only [hostOps0]; after_results; rfl

set_option maxHeartbeats 1000000 in
/-- After the opening stretch: the mask `degree > 0`. -/
theorem h0_v12 : (StableHlo.after (hostOps0 (F := Ideal)) W (Proc.devRef .tc main_v12) : IVec S8192 1)
    = cmpf .ogt (degV (dstV (W (Proc.devRef .tc main_arg1)))) zeroN := by
  simp only [hostOps0]; after_results; rfl

set_option maxHeartbeats 1000000 in
/-- After the opening stretch: the inverse square root of the degree. -/
theorem h0_v13 : (StableHlo.after (hostOps0 (F := Ideal)) W (Proc.devRef .tc main_v13) : FVec Ideal S8192 .f32)
    = Host.rsqrt (degV (dstV (W (Proc.devRef .tc main_arg1)))) := by
  simp only [hostOps0]; after_results; rfl

set_option maxHeartbeats 1000000 in
/-- After the opening stretch: the scalar zero the selection function is given. -/
theorem h0_cst2 : (StableHlo.after (hostOps0 (F := Ideal)) W (Proc.devRef .tc main_cst_2) : FVec Ideal S_ .f32)
    = constant (F := Ideal) S_ .f32 0x00000000#32 := by
  simp only [hostOps0]; after_results

set_option maxHeartbeats 1000000 in
/-- The selection function's stretch leaves the sources' column alone … -/
theorem h1_v3 : StableHlo.after (hostOps0_1 (F := Ideal)) W (Proc.devRef .tc main_v3) = W (Proc.devRef .tc main_v3) := by
  simp only [hostOps0_1]; after_results

set_option maxHeartbeats 1000000 in
/-- … and the targets' column … -/
theorem h1_v6 : StableHlo.after (hostOps0_1 (F := Ideal)) W (Proc.devRef .tc main_v6) = W (Proc.devRef .tc main_v6) := by
  simp only [hostOps0_1]; after_results

set_option maxHeartbeats 1000000 in
/-- … and writes the selection of its three arguments. -/
theorem h1_v14 : (StableHlo.after (hostOps0_1 (F := Ideal)) W (Proc.devRef .tc main_v14) : FVec Ideal S8192 .f32)
    = select (W (Proc.devRef .tc main_v12) : IVec S8192 1) (W (Proc.devRef .tc main_v13) : FVec Ideal S8192 .f32)
        (broadcastInDim S8192 ![] bcast_S_S8192 (id (W (Proc.devRef .tc main_cst_2) : FVec Ideal S_ .f32))) := by
  simp only [hostOps0_1]; after_results; rfl

set_option maxHeartbeats 4000000 in
/-- The third stretch writes the adjacency as `adjV` of the two columns and the guarded inverse square root it finds. -/
theorem h2_v45 : (StableHlo.after (hostOps0_2 (F := Ideal)) W (Proc.devRef .tc main_v45) : FVec Ideal S8192x8192 .bf16)
    = adjV (W (Proc.devRef .tc main_v3)) (W (Proc.devRef .tc main_v6)) (W (Proc.devRef .tc main_v14)) := by
  simp only [hostOps0_2]; after_results; rfl

end Stretches

/-- THE HOST CHAIN: after the three stretches the adjacency's array is `adjV` of the two columns of end words and the
    guarded inverse square root of the degree, all functions of the edge array. -/
theorem chain_v45 (W : Valuation τ sig (Elt Ideal)) :
    (StableHlo.after (hostOps0_2 (F := Ideal)) (StableHlo.after (hostOps0_1 (F := Ideal))
        (StableHlo.after (hostOps0 (F := Ideal)) W)) (Proc.devRef .tc main_v45) : FVec Ideal S8192x8192 .bf16)
      = adjV (srcV (W (Proc.devRef .tc main_arg1))) (dstV (W (Proc.devRef .tc main_arg1)))
          (dinvV (degV (dstV (W (Proc.devRef .tc main_arg1))))) := by
  rw [h2_v45, h1_v3, h1_v6, h1_v14, h0_v3, h0_v6, h0_v12, h0_v13, h0_cst2]
  rfl

/-! ## The kernel's adjacency -/

/-- THE KERNEL'S ADJACENCY: for any valuation whose edge array satisfies the range condition, after the three host
    stretches the adjacency's array holds the specification's dense normalised adjacency of that edge array. -/
theorem adjacency (W : Valuation τ sig (Elt Ideal)) (hR : Spec.InRange (W (Proc.devRef .tc main_arg1))) :
    StableHlo.after (hostOps0_2 (F := Ideal)) (StableHlo.after (hostOps0_1 (F := Ideal))
        (StableHlo.after (hostOps0 (F := Ideal)) W)) (Proc.devRef .tc main_v45)
      = Spec.adj (W (Proc.devRef .tc main_arg1)) :=
  (chain_v45 W).trans (adjV_eq _ hR)

end Cert.KernelIdeal.Hand

end
-- ==== Proof.SpecLemmas.lean ====
/-
  Small laws of the specification's operations, over the extended reals and over no program. A one-row matrix that
  agrees with a vector entry by entry adds the same to every row; a zero row adds nothing. A matrix whose columns are
  those of a left block followed by those of a right block behaves block by block under every operation that acts
  column by column: the matrix product with it on the right, the graph aggregate, the addition of a bias row. So the
  left half of `agg (h [Wl | Wr]) + [bl | br]` is `agg (h Wl) + bl` and the right half is `agg (h Wr) + br`.
-/
import proofs.«416422_j54030688584368_1_alg».proof.Proof.Model

noncomputable section

open scoped BigOperators

namespace Cert.Spec

open Idealize.ShloMosaic Idealize.ShloMosaic.ValueIdx

/-! ## A bias row against a bias vector -/

/-- A one-row matrix that agrees with a vector entry by entry adds the same to every row. -/
theorem addRow_eq_addV {r c : Nat} (a : Mat r c) (b : Mat 1 c) (v : Vc c)
    (h : ∀ q : Fin c, b (ix2 (0 : Fin 1) q) = v (ix1 q)) : addRow a b = addV a v := by
  funext i
  exact congrArg (fun t => a i + t) (h (i 1 : Fin c))

/-- A zero row adds nothing. -/
theorem addRow_zero {r c : Nat} (a : Mat r c) (z : Mat 1 c) (h : ∀ i, z i = 0) : addRow a z = a := by
  funext i
  show a i + z (ix2 (0 : Fin 1) (i 1 : Fin c)) = a i
  rw [h, add_zero]

/-! ## Columns in two blocks: the matrix product -/

/-- A product's column in the left block is the product with the left block. -/
theorem mm_col_left {r k : Nat} (h : Mat r k) (Wc : Mat k 512) (Wl : Mat k 256)
    (hl : ∀ (p : Fin k) (q : Fin 512) (hq : q.val < 256), Wc (ix2 p q) = Wl (ix2 p (⟨q.val, hq⟩ : Fin 256)))
    (p : Fin r) (q : Fin 256) :
    mm h Wc (ix2 p (⟨q.val, by omega⟩ : Fin 512)) = mm h Wl (ix2 p q) := by
  refine Finset.sum_congr rfl fun j _ => ?_
  show h (ix2 p j) * Wc (ix2 j (⟨q.val, _⟩ : Fin 512)) = h (ix2 p j) * Wl (ix2 j q)
  rw [hl j ⟨q.val, by omega⟩ q.isLt]

/-- A product's column in the right block is the product with the right block. -/
theorem mm_col_right {r k : Nat} (h : Mat r k) (Wc : Mat k 512) (Wr : Mat k 256)
    (hr : ∀ (p : Fin k) (q : Fin 512) (hq : 256 ≤ q.val), Wc (ix2 p q) = Wr (ix2 p (⟨q.val - 256, by omega⟩ : Fin 256)))
    (p : Fin r) (q : Fin 256) :
    mm h Wc (ix2 p (⟨256 + q.val, by omega⟩ : Fin 512)) = mm h Wr (ix2 p q) := by
  refine Finset.sum_congr rfl fun j _ => ?_
  show h (ix2 p j) * Wc (ix2 j (⟨256 + q.val, _⟩ : Fin 512)) = h (ix2 p j) * Wr (ix2 j q)
  rw [(hr j ⟨256 + q.val, by omega⟩ (Nat.le_add_right 256 q.val)).trans
    (congrArg (fun t : Fin 256 => Wr (ix2 j t)) (Fin.ext (Nat.add_sub_cancel_left 256 q.val)))]

/-! ## Columns in two blocks: the aggregate -/

/-- The aggregate's column in the left block is the aggregate of the left block: the sums agree term by term. -/
theorem agg_col_left (ei : EI) (H : Mat 8192 512) (Hl : Mat 8192 256)
    (hl : ∀ (p : Fin 8192) (q : Fin 256), H (ix2 p (⟨q.val, by omega⟩ : Fin 512)) = Hl (ix2 p q))
    (p : Fin 8192) (q : Fin 256) :
    agg ei H (ix2 p (⟨q.val, by omega⟩ : Fin 512)) = agg ei Hl (ix2 p q) := by
  refine Finset.sum_congr rfl fun e _ => ?_
  show H (ix2 (endOf ei 0 e) (⟨q.val, _⟩ : Fin 512)) * nrm ei e = Hl (ix2 (endOf ei 0 e) q) * nrm ei e
  rw [hl]

/-- The aggregate's column in the right block is the aggregate of the right block. -/
theorem agg_col_right (ei : EI) (H : Mat 8192 512) (Hr : Mat 8192 256)
    (hr : ∀ (p : Fin 8192) (q : Fin 256), H (ix2 p (⟨256 + q.val, by omega⟩ : Fin 512)) = Hr (ix2 p q))
    (p : Fin 8192) (q : Fin 256) :
    agg ei H (ix2 p (⟨256 + q.val, by omega⟩ : Fin 512)) = agg ei Hr (ix2 p q) := by
  refine Finset.sum_congr rfl fun e _ => ?_
  show H (ix2 (endOf ei 0 e) (⟨256 + q.val, _⟩ : Fin 512)) * nrm ei e = Hr (ix2 (endOf ei 0 e) q) * nrm ei e
  rw [hr]

/-! ## Columns in two blocks: the bias row -/

/-- A bias row whose left block is the vector `bl`, added to a matrix whose left block is `Ml`: the left block of the
    sum is `Ml` with `bl` added to every row. -/
theorem addRow_col_left {r : Nat} (M : Mat r 512) (Ml : Mat r 256) (bcat : Mat 1 512) (bl : Vc 256)
    (hM : ∀ (p : Fin r) (q : Fin 256), M (ix2 p (⟨q.val, by omega⟩ : Fin 512)) = Ml (ix2 p q))
    (hb : ∀ (q : Fin 512) (hq : q.val < 256), bcat (ix2 (0 : Fin 1) q) = bl (ix1 (⟨q.val, hq⟩ : Fin 256)))
    (p : Fin r) (q : Fin 256) :
    addRow M bcat (ix2 p (⟨q.val, by omega⟩ : Fin 512)) = addV Ml bl (ix2 p q) := by
  show M (ix2 p (⟨q.val, _⟩ : Fin 512)) + bcat (ix2 (0 : Fin 1) (⟨q.val, _⟩ : Fin 512)) = Ml (ix2 p q) + bl (ix1 q)
  rw [hM, hb ⟨q.val, by omega⟩ q.isLt]

/-- The same for the right block. -/
theorem addRow_col_right {r : Nat} (M : Mat r 512) (Mr : Mat r 256) (bcat : Mat 1 512) (br : Vc 256)
    (hM : ∀ (p : Fin r) (q : Fin 256), M (ix2 p (⟨256 + q.val, by omega⟩ : Fin 512)) = Mr (ix2 p q))
    (hb : ∀ (q : Fin 512) (hq : 256 ≤ q.val), bcat (ix2 (0 : Fin 1) q) = br (ix1 (⟨q.val - 256, by omega⟩ : Fin 256)))
    (p : Fin r) (q : Fin 256) :
    addRow M bcat (ix2 p (⟨256 + q.val, by omega⟩ : Fin 512)) = addV Mr br (ix2 p q) := by
  show M (ix2 p (⟨256 + q.val, _⟩ : Fin 512)) + bcat (ix2 (0 : Fin 1) (⟨256 + q.val, _⟩ : Fin 512)) = Mr (ix2 p q) + br (ix1 q)
  rw [hM, (hb ⟨256 + q.val, by omega⟩ (Nat.le_add_right 256 q.val)).trans
    (congrArg (fun t : Fin 256 => br (ix1 t)) (Fin.ext (Nat.add_sub_cancel_left 256 q.val)))]

/-! ## The two halves of a graph-convolution layer with concatenated weights and biases -/

/-- The left half of `agg (h [Wl | Wr]) + [bl | br]` is `agg (h Wl) + bl`. -/
theorem gcn_col_left (ei : EI) (h : Mat 8192 512) (Wc : Mat 512 512) (Wl : Mat 512 256) (bcat : Mat 1 512) (bl : Vc 256)
    (hW : ∀ (p : Fin 512) (q : Fin 512) (hq : q.val < 256), Wc (ix2 p q) = Wl (ix2 p (⟨q.val, hq⟩ : Fin 256)))
    (hb : ∀ (q : Fin 512) (hq : q.val < 256), bcat (ix2 (0 : Fin 1) q) = bl (ix1 (⟨q.val, hq⟩ : Fin 256)))
    (p : Fin 8192) (q : Fin 256) :
    addRow (agg ei (mm h Wc)) bcat (ix2 p (⟨q.val, by omega⟩ : Fin 512)) = addV (agg ei (mm h Wl)) bl (ix2 p q) :=
  addRow_col_left _ _ bcat bl (agg_col_left ei _ _ (mm_col_left h Wc Wl hW)) hb p q

/-- The right half of `agg (h [Wl | Wr]) + [bl | br]` is `agg (h Wr) + br`. -/
theorem gcn_col_right (ei : EI) (h : Mat 8192 512) (Wc : Mat 512 512) (Wr : Mat 512 256) (bcat : Mat 1 512) (br : Vc 256)
    (hW : ∀ (p : Fin 512) (q : Fin 512) (hq : 256 ≤ q.val), Wc (ix2 p q) = Wr (ix2 p (⟨q.val - 256, by omega⟩ : Fin 256)))
    (hb : ∀ (q : Fin 512) (hq : 256 ≤ q.val), bcat (ix2 (0 : Fin 1) q) = br (ix1 (⟨q.val - 256, by omega⟩ : Fin 256)))
    (p : Fin 8192) (q : Fin 256) :
    addRow (agg ei (mm h Wc)) bcat (ix2 p (⟨256 + q.val, by omega⟩ : Fin 512)) = addV (agg ei (mm h Wr)) br (ix2 p q) :=
  addRow_col_right _ _ bcat br (agg_col_right ei _ _ (mm_col_right h Wc Wr hW)) hb p q

end Cert.Spec

end
-- ==== Proof.Algebra.lean ====
/-
  The adjacency law. The dense normalised adjacency collects, at `(i, j)`, the weights of the edges from `j` to `i`;
  a matrix product with it is therefore the aggregate: at `(i, q)`,
  `∑ j, (∑ e from j to i, nrm e) * H (j, q) = ∑ e to i, H (source e, q) * nrm e`.
  Over the extended reals a finite sum times a factor distributes when every summand is nonnegative (no finiteness of
  the factor is needed); the weights are nonnegative because a degree is a natural number and the inverse square root
  of a nonnegative real is nonnegative. The double sum is then regrouped by the source.
-/
import proofs.«416422_j54030688584368_1_alg».proof.Proof.Graph
import Mathlib.Data.EReal.Operations
import Mathlib.Data.EReal.Inv
import Mathlib.Algebra.BigOperators.Group.Finset.Basic
import Mathlib.Algebra.Order.BigOperators.Group.Finset

noncomputable section

open scoped BigOperators

namespace Cert.Algebra

open Idealize.ShloMosaic Idealize.ShloMosaic.ValueIdx Finset

/-- A finite sum of nonnegative extended reals times a factor is the sum of the products: the extended reals
    distribute over a sum of nonnegative terms, whatever the factor. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- A finite sum of ones is the number of its terms, as a real. -/
theorem sum_one_eq_card {ι : Type*} (s : Finset ι) : (∑ _i ∈ s, (1 : EReal)) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- A degree is a natural number: the number of edges that end at the node. -/
theorem deg_eq_card (ei : Spec.EI) (i : Fin 8192) :
    Spec.deg ei i = (((univ.filter fun e : Fin 270336 => (Spec.endOf ei 1 e).val = i.val).card : ℝ) : EReal) :=
  sum_one_eq_card _

/-- The inverse square root of a nonnegative real is nonnegative (it is `⊤` at zero). -/
theorem rsqrt_coe_nonneg {r : ℝ} (hr : 0 ≤ r) : 0 ≤ Ideal.rsqrt (r : EReal) := by
  rw [Ideal.rsqrt_coe, if_neg (not_lt.mpr hr)]
  split
  · exact le_top
  · exact EReal.coe_nonneg.mpr (inv_nonneg.mpr (Real.sqrt_nonneg r))

/-- The inverse square root of the degree, or zero, is nonnegative. -/
theorem dinv_nonneg (ei : Spec.EI) (i : Fin 8192) : 0 ≤ Spec.dinv ei i := by
  unfold Spec.dinv
  split
  · rw [deg_eq_card]; exact rsqrt_coe_nonneg (Nat.cast_nonneg _)
  · exact le_rfl

/-- An edge's weight is nonnegative. -/
theorem nrm_nonneg (ei : Spec.EI) (e : Fin 270336) : 0 ≤ Spec.nrm ei e :=
  mul_nonneg (dinv_nonneg ei _) (dinv_nonneg ei _)

/-- THE ADJACENCY LAW: the matrix product with the dense normalised adjacency is the aggregate. -/
theorem mm_adj (ei : Spec.EI) {D : Nat} (H : Spec.Mat 8192 D) : Spec.mm (Spec.adj ei) H = Spec.agg ei H := by
  classical
  funext i
  show ∑ j : Fin 8192, Spec.adj ei (ix2 (i 0 : Fin 8192) j) * H (ix2 j (i 1 : Fin D))
    = ∑ e ∈ univ.filter (fun e : Fin 270336 => (Spec.endOf ei 1 e).val = (i 0).val),
        H (ix2 (Spec.endOf ei 0 e) (i 1 : Fin D)) * Spec.nrm ei e
  rw [← Finset.sum_fiberwise (univ.filter fun e : Fin 270336 => (Spec.endOf ei 1 e).val = (i 0).val)
    (fun e => Spec.endOf ei 0 e)]
  refine Finset.sum_congr rfl fun j _ => ?_
  show (∑ e ∈ univ.filter (fun e : Fin 270336 => (Spec.endOf ei 1 e).val = (i 0).val ∧ (Spec.endOf ei 0 e).val = j.val),
      Spec.nrm ei e) * H (ix2 j (i 1 : Fin D)) = _
  rw [sum_mul_of_nonneg _ _ (fun e _ => nrm_nonneg ei e), Finset.filter_filter]
  refine Finset.sum_congr (Finset.filter_congr fun e _ => by rw [Fin.ext_iff]) fun e he => ?_
  rw [(Finset.mem_filter.mp he).2.2, EReal.mul_comm]

end Cert.Algebra

end
-- ==== Proof.ChainSpec.lean ====
/-
  The nine stages composed. Each region of the kernel leaves an array that is one operation of the specification
  applied to arrays earlier regions left: a product with a zero row added; the aggregate through the dense adjacency
  with a bias row added, rectified; a product with two heads' weights side by side; the two column halves of that
  layer and the reparameterised latent; the conditioned latent; and the three decoders. Taken as equations between
  plain matrices, these compose into the model's six functions, by three facts:

  * a zero row added to every row changes nothing, and a row that holds a vector's entries adds that vector;
  * the product with the dense normalised adjacency is the aggregate (the adjacency law);
  * the left 256 columns of a graph-convolution layer whose weights stand side by side and whose biases stand end
    to end are the first head's layer, and the right 256 columns the second head's.

  Everything after the two heads is the model's own expression with the earlier equations substituted.
-/
import proofs.«416422_j54030688584368_1_alg».proof.Proof.SpecLemmas
import proofs.«416422_j54030688584368_1_alg».proof.Proof.Algebra

noncomputable section

open scoped BigOperators

namespace Cert.Spec

open Idealize.ShloMosaic Idealize.ShloMosaic.ValueIdx

section Compose

variable (x : Mat 8192 512) (ei : EI) (W1 : Mat 512 512) (b1 : Vc 512) (Wmu : Mat 512 256) (bmu : Vc 256)
  (Wlv : Mat 512 256) (blv : Vc 256) (Wc : Mat 512 256) (bc : Vc 256) (Wf : Mat 256 512) (bf : Vc 512)
  (Wl1 : Mat 256 512) (bl1 : Vc 512) (Wl2 : Mat 512 16) (bl2 : Vc 16) (eps : Mat 8192 256)

/-- THE COMPOSITION. Given the array each of the nine regions leaves as one specification operation of the arrays
    it was given (the hypotheses, in the regions' order), the mean, the log-variance, the latent, the decoded
    adjacency, the decoded features and the decoded labels are the model's. -/
theorem chain_spec
    -- the dense normalised adjacency
    (A : Mat 8192 8192) (hA : A = adj ei)
    -- region 0: the product x W1, a zero row added
    (z47 : Mat 1 512) (hz47 : ∀ i, z47 i = 0)
    (v48 : Mat 8192 512) (h48 : v48 = addRow (mm x W1) z47)
    -- region 1: the first layer, rectified
    (r49 : Mat 1 512) (hr49 : ∀ q : Fin 512, r49 (ix2 (0 : Fin 1) q) = b1 (ix1 q))
    (v50 : Mat 8192 512) (h50 : v50 = relu (addRow (mm A v48) r49))
    -- region 2: the product with the two heads' weights side by side, a zero row added
    (Wcat : Mat 512 512)
    (hWcatL : ∀ (p : Fin 512) (q : Fin 512) (hq : q.val < 256), Wcat (ix2 p q) = Wmu (ix2 p (⟨q.val, hq⟩ : Fin 256)))
    (hWcatR : ∀ (p : Fin 512) (q : Fin 512) (hq : 256 ≤ q.val),
      Wcat (ix2 p q) = Wlv (ix2 p (⟨q.val - 256, by omega⟩ : Fin 256)))
    (z54 : Mat 1 512) (hz54 : ∀ i, z54 i = 0)
    (v55 : Mat 8192 512) (h55 : v55 = addRow (mm v50 Wcat) z54)
    -- region 3: the two-headed layer, its column halves, the latent
    (r56 : Mat 1 512)
    (hr56L : ∀ (q : Fin 512) (hq : q.val < 256), r56 (ix2 (0 : Fin 1) q) = bmu (ix1 (⟨q.val, hq⟩ : Fin 256)))
    (hr56R : ∀ (q : Fin 512) (hq : 256 ≤ q.val),
      r56 (ix2 (0 : Fin 1) q) = blv (ix1 (⟨q.val - 256, by omega⟩ : Fin 256)))
    (v57_0 v57_1 v57_2 : Mat 8192 256)
    (h57_0 : v57_0 = fun i => addRow (mm A v55) r56
      (ix2 (i 0 : Fin 8192) (⟨(i 1 : Fin 256).val, by have := idx2_lt1 i; omega⟩ : Fin 512)))
    (h57_1 : v57_1 = fun i => addRow (mm A v55) r56
      (ix2 (i 0 : Fin 8192) (⟨256 + (i 1 : Fin 256).val, by have := idx2_lt1 i; omega⟩ : Fin 512)))
    (h57_2 : v57_2 = fun i => v57_0 i + eps i * Ideal.exp (half * v57_1 i))
    -- region 4: the conditioned latent
    (r58 : Mat 1 256) (hr58 : ∀ q : Fin 256, r58 (ix2 (0 : Fin 1) q) = bc (ix1 q))
    (v59 : Mat 8192 256) (h59 : v59 = fun i => v57_2 i + max (addRow (mm x Wc) r58 i) 0)
    -- region 5: the decoded adjacency
    (v60 : Mat 8192 8192) (h60 : v60 = fun i => Ideal.logistic (mmT v59 v59 i))
    -- region 6: the decoded features
    (r61 : Mat 1 512) (hr61 : ∀ q : Fin 512, r61 (ix2 (0 : Fin 1) q) = bf (ix1 q))
    (v62 : Mat 8192 512) (h62 : v62 = addRow (mm v57_2 Wf) r61)
    -- regions 7 and 8: the decoded labels
    (r63 : Mat 1 512) (hr63 : ∀ q : Fin 512, r63 (ix2 (0 : Fin 1) q) = bl1 (ix1 q))
    (v64 : Mat 8192 512) (h64 : v64 = relu (addRow (mm v57_2 Wl1) r63))
    (r65 : Mat 1 16) (hr65 : ∀ q : Fin 16, r65 (ix2 (0 : Fin 1) q) = bl2 (ix1 q))
    (v66 : Mat 8192 16) (h66 : v66 = addRow (mm v64 Wl2) r65) :
    v57_0 = mu x ei W1 b1 Wmu bmu ∧ v57_1 = logvar x ei W1 b1 Wlv blv
      ∧ v57_2 = zz x ei W1 b1 Wmu bmu Wlv blv eps
      ∧ v60 = apred x ei W1 b1 Wmu bmu Wlv blv Wc bc eps
      ∧ v62 = xpred x ei W1 b1 Wmu bmu Wlv blv Wf bf eps
      ∧ v66 = ylog x ei W1 b1 Wmu bmu Wlv blv Wl1 bl1 Wl2 bl2 eps := by
  -- the first layer: the zero row drops, the adjacency law, the bias row is the bias
  have e50 : v50 = h1 x ei W1 b1 := by
    rw [h50, h48, hA, addRow_zero _ _ hz47, Cert.Algebra.mm_adj, addRow_eq_addV _ _ b1 hr49]
    rfl
  -- the two-headed layer before its bias row: the aggregate of the product with the side-by-side weights
  have e55 : mm A v55 = agg ei (mm (h1 x ei W1 b1) Wcat) := by
    rw [h55, hA, e50, addRow_zero _ _ hz54, Cert.Algebra.mm_adj]
  -- the mean: its left 256 columns
  have e570 : v57_0 = mu x ei W1 b1 Wmu bmu := by
    rw [h57_0, e55]
    funext i
    exact (gcn_col_left ei (h1 x ei W1 b1) Wcat Wmu r56 bmu hWcatL hr56L (i 0) (i 1)).trans
      (congrArg (addV (agg ei (mm (h1 x ei W1 b1) Wmu)) bmu) (eq_ix2 i).symm)
  -- the log-variance: its right 256 columns
  have e571 : v57_1 = logvar x ei W1 b1 Wlv blv := by
    rw [h57_1, e55]
    funext i
    exact (gcn_col_right ei (h1 x ei W1 b1) Wcat Wlv r56 blv hWcatR hr56R (i 0) (i 1)).trans
      (congrArg (addV (agg ei (mm (h1 x ei W1 b1) Wlv)) blv) (eq_ix2 i).symm)
  -- the latent and the conditioned latent: the model's expressions with these substituted
  have e572 : v57_2 = zz x ei W1 b1 Wmu bmu Wlv blv eps := by
    rw [h57_2, e570, e571]; rfl
  have e59 : v59 = hd x ei W1 b1 Wmu bmu Wlv blv Wc bc eps := by
    rw [h59, e572, addRow_eq_addV _ _ bc hr58]; rfl
  refine ⟨e570, e571, e572, ?_, ?_, ?_⟩
  -- the three decoders
  · rw [h60, e59]; rfl
  · rw [h62, e572, addRow_eq_addV _ _ bf hr61]; rfl
  · rw [h66, h64, e572, addRow_eq_addV _ _ bl1 hr63, addRow_eq_addV _ _ bl2 hr65]; rfl

end Compose

end Cert.Spec

end
-- ==== Proof.KI.Chain.lean ====
/-
  The nine regions chained. Each region's value lemma gives the array it leaves as one specification operation of the
  arrays it was given; the launch's wiring says which earlier array, argument or host-written row each of those is;
  the host rows are zero rows, bias vectors as one row, and the two heads' weights and biases side by side. Fed to the
  composition of the nine stages, these give the six result arrays as the model's functions of the argument arrays.
-/
import proofs.«416422_j54030688584368_1_alg».proof.Proof.KI.Run
import proofs.«416422_j54030688584368_1_alg».proof.Proof.KI.HostVals
import proofs.«416422_j54030688584368_1_alg».proof.Proof.KI.Val0
import proofs.«416422_j54030688584368_1_alg».proof.Proof.KI.Val1
import proofs.«416422_j54030688584368_1_alg».proof.Proof.KI.Val2
import proofs.«416422_j54030688584368_1_alg».proof.Proof.KI.Val3
import proofs.«416422_j54030688584368_1_alg».proof.Proof.KI.Val4
import proofs.«416422_j54030688584368_1_alg».proof.Proof.KI.Val5
import proofs.«416422_j54030688584368_1_alg».proof.Proof.KI.Val6
import proofs.«416422_j54030688584368_1_alg».proof.Proof.KI.Val7
import proofs.«416422_j54030688584368_1_alg».proof.Proof.KI.Val8
import proofs.«416422_j54030688584368_1_alg».proof.Proof.KI.Adjacency
import proofs.«416422_j54030688584368_1_alg».proof.Proof.ChainSpec

set_option maxRecDepth 16384

noncomputable section

namespace Cert.KernelIdeal.Hand

open Cert.KernelIdeal Cert.KernelIdeal.Gen
open Idealize.ShloMosaic Idealize.ShloMosaic.TcCoe Idealize.ShloMosaic.ValueIdx

namespace Chain

variable (m : (ℓ : Loc nD τ sig) → Buf (Elt Ideal) ℓ) (ρ : Dev nD → PrngReg) (c : Dev nD)

/-! ## The arrays by name: the arguments, the host-written rows, each region's results -/

/-- Argument 0: the features. -/
abbrev x : Spec.Mat 8192 512 := m ((c : Thread nD τ).loc main_arg0)
/-- Argument 1: the edge array. -/
abbrev ei : Spec.EI := m ((c : Thread nD τ).loc main_arg1)
/-- Argument 2: the first layer's weights. -/
abbrev w1 : Spec.Mat 512 512 := m ((c : Thread nD τ).loc main_arg2)
/-- Argument 3: the first layer's bias. -/
abbrev b1 : Spec.Vc 512 := m ((c : Thread nD τ).loc main_arg3)
/-- Argument 4: the mean head's weights. -/
abbrev wmu : Spec.Mat 512 256 := m ((c : Thread nD τ).loc main_arg4)
/-- Argument 5: the mean head's bias. -/
abbrev bmu : Spec.Vc 256 := m ((c : Thread nD τ).loc main_arg5)
/-- Argument 6: the log-variance head's weights. -/
abbrev wlv : Spec.Mat 512 256 := m ((c : Thread nD τ).loc main_arg6)
/-- Argument 7: the log-variance head's bias. -/
abbrev blv : Spec.Vc 256 := m ((c : Thread nD τ).loc main_arg7)
/-- Argument 8: the conditioning weights. -/
abbrev wc : Spec.Mat 512 256 := m ((c : Thread nD τ).loc main_arg8)
/-- Argument 9: the conditioning bias. -/
abbrev bc : Spec.Vc 256 := m ((c : Thread nD τ).loc main_arg9)
/-- Argument 10: the feature decoder's weights. -/
abbrev wf : Spec.Mat 256 512 := m ((c : Thread nD τ).loc main_arg10)
/-- Argument 11: the feature decoder's bias. -/
abbrev bf : Spec.Vc 512 := m ((c : Thread nD τ).loc main_arg11)
/-- Argument 12: the label decoder's first weights. -/
abbrev wl1 : Spec.Mat 256 512 := m ((c : Thread nD τ).loc main_arg12)
/-- Argument 13: the label decoder's first bias. -/
abbrev bl1 : Spec.Vc 512 := m ((c : Thread nD τ).loc main_arg13)
/-- Argument 14: the label decoder's second weights. -/
abbrev wl2 : Spec.Mat 512 16 := m ((c : Thread nD τ).loc main_arg14)
/-- Argument 15: the label decoder's second bias. -/
abbrev bl2 : Spec.Vc 16 := m ((c : Thread nD τ).loc main_arg15)
/-- Argument 16: the noise. -/
abbrev eps : Spec.Mat 8192 256 := m ((c : Thread nD τ).loc main_arg16)

/-- The adjacency's array, as the two regions that read it find it. -/
abbrev adjA : Spec.Mat 8192 8192 := StableHlo.after (hostOps0_2 (F := Ideal)) (W2 m ρ c) (Proc.devRef .tc main_v45)

/-- Region 0's bias row, as the region finds it. -/
abbrev z47 : Spec.Mat 1 512 := Vin0 m ρ c main_v47
/-- Region 1's bias row, as the region finds it. -/
abbrev r49 : Spec.Mat 1 512 := Vin1 m ρ c main_v49
/-- Region 2's weights, as the region finds it. -/
abbrev wcat : Spec.Mat 512 512 := Vin2 m ρ c main_v51
/-- Region 2's bias row, as the region finds it. -/
abbrev z54 : Spec.Mat 1 512 := Vin2 m ρ c main_v54
/-- Region 3's bias row, as the region finds it. -/
abbrev r56 : Spec.Mat 1 512 := Vin3 m ρ c main_v56
/-- Region 4's bias row, as the region finds it. -/
abbrev r58 : Spec.Mat 1 256 := Vin4 m ρ c main_v58
/-- Region 6's bias row, as the region finds it. -/
abbrev r61 : Spec.Mat 1 512 := Vin6 m ρ c main_v61
/-- Region 7's bias row, as the region finds it. -/
abbrev r63 : Spec.Mat 1 512 := Vin7 m ρ c main_v63
/-- Region 8's bias row, as the region finds it. -/
abbrev r65 : Spec.Mat 1 16 := Vin8 m ρ c main_v65

/-- Region 0's result. -/
abbrev o48 : Spec.Mat 8192 512 := (dat0 (F := Ideal) (Vin0 m ρ) c).arrAt 3 cfg0.N
/-- Region 1's result. -/
abbrev o50 : Spec.Mat 8192 512 := (dat1 (F := Ideal) (Vin1 m ρ) c).arrAt 3 cfg1.N
/-- Region 2's result. -/
abbrev o55 : Spec.Mat 8192 512 := (dat2 (F := Ideal) (Vin2 m ρ) c).arrAt 3 cfg2.N
/-- Region 3's first result. -/
abbrev o570 : Spec.Mat 8192 256 := (dat3 (F := Ideal) (Vin3 m ρ) c).arrAt 4 cfg3.N
/-- Region 3's second result. -/
abbrev o571 : Spec.Mat 8192 256 := (dat3 (F := Ideal) (Vin3 m ρ) c).arrAt 5 cfg3.N
/-- Region 3's third result. -/
abbrev o572 : Spec.Mat 8192 256 := (dat3 (F := Ideal) (Vin3 m ρ) c).arrAt 6 cfg3.N
/-- Region 4's result. -/
abbrev o59 : Spec.Mat 8192 256 := (dat4 (F := Ideal) (Vin4 m ρ) c).arrAt 4 cfg4.N
/-- Region 5's result. -/
abbrev o60 : Spec.Mat 8192 8192 := (dat5 (F := Ideal) (Vin5 m ρ) c).arrAt 2 cfg5.N
/-- Region 6's result. -/
abbrev o62 : Spec.Mat 8192 512 := (dat6 (F := Ideal) (Vin6 m ρ) c).arrAt 3 cfg6.N
/-- Region 7's result. -/
abbrev o64 : Spec.Mat 8192 512 := (dat7 (F := Ideal) (Vin7 m ρ) c).arrAt 3 cfg7.N
/-- Region 8's result. -/
abbrev o66 : Spec.Mat 8192 16 := (dat8 (F := Ideal) (Vin8 m ρ) c).arrAt 3 cfg8.N

/-! ## The host-written rows -/

/-- Region 0's bias row is zero. -/
theorem z47_zero (i : (⟨2, ![1, 512]⟩ : Shape).Idx) : (z47 m ρ c) i = (0 : EReal) :=
  (congrFun (Vin0_main_v47 m ρ c) i).trans (hostOps0_2_v47_apply (W2 m ρ c) i)

/-- Region 2's bias row is zero. -/
theorem z54_zero (i : (⟨2, ![1, 512]⟩ : Shape).Idx) : (z54 m ρ c) i = (0 : EReal) :=
  (congrFun (Vin2_main_v54 m ρ c) i).trans (hostOps2_v54_apply (W6 m ρ c) i)

/-- Region 1's bias row holds argument 3. -/
theorem r49_row (q : Fin 512) : (r49 m ρ c) (ix2 (0 : Fin 1) q) = (b1 m c) (ix1 q) :=
  (congrFun (Vin1_main_v49 m ρ c) _).trans <|
    (hostOps1_v49_apply (W4 m ρ c) q).trans <|
    congrFun (W4_arg m ρ c main_arg3 (by decide)) _

/-- Region 4's bias row holds argument 9. -/
theorem r58_row (q : Fin 256) : (r58 m ρ c) (ix2 (0 : Fin 1) q) = (bc m c) (ix1 q) :=
  (congrFun (Vin4_main_v58 m ρ c) _).trans <|
    (hostOps4_v58_apply (W10 m ρ c) q).trans <|
    congrFun (W10_arg m ρ c main_arg9 (by decide)) _

/-- Region 6's bias row holds argument 11. -/
theorem r61_row (q : Fin 512) : (r61 m ρ c) (ix2 (0 : Fin 1) q) = (bf m c) (ix1 q) :=
  (congrFun (Vin6_main_v61 m ρ c) _).trans <|
    (hostOps6_v61_apply (W13 m ρ c) q).trans <|
    congrFun (W13_arg m ρ c main_arg11 (by decide)) _

/-- Region 7's bias row holds argument 13. -/
theorem r63_row (q : Fin 512) : (r63 m ρ c) (ix2 (0 : Fin 1) q) = (bl1 m c) (ix1 q) :=
  (congrFun (Vin7_main_v63 m ρ c) _).trans <|
    (hostOps7_v63_apply (W15 m ρ c) q).trans <|
    congrFun (W15_arg m ρ c main_arg13 (by decide)) _

/-- Region 8's bias row holds argument 15. -/
theorem r65_row (q : Fin 16) : (r65 m ρ c) (ix2 (0 : Fin 1) q) = (bl2 m c) (ix1 q) :=
  (congrFun (Vin8_main_v65 m ρ c) _).trans <|
    (hostOps8_v65_apply (W17 m ρ c) q).trans <|
    congrFun (W17_arg m ρ c main_arg15 (by decide)) _

/-- Region 2's weights: a column below 256 is argument 4's. -/
theorem wcat_left (p : Fin 512) (q : Fin 512) (hq : q.val < 256) :
    (wcat m ρ c) (ix2 p q) = (wmu m c) (ix2 p (⟨q.val, hq⟩ : Fin 256)) :=
  (congrFun (Vin2_main_v51 m ρ c) _).trans <|
    (hostOps2_v51_apply_left (W6 m ρ c) p q hq).trans <|
    congrFun (W6_arg m ρ c main_arg4 (by decide)) _

/-- Region 2's weights: a column from 256 on is argument 6's, 256 columns back. -/
theorem wcat_right (p : Fin 512) (q : Fin 512) (hq : 256 ≤ q.val) :
    (wcat m ρ c) (ix2 p q) = (wlv m c) (ix2 p (⟨q.val - 256, by omega⟩ : Fin 256)) :=
  (congrFun (Vin2_main_v51 m ρ c) _).trans <|
    (hostOps2_v51_apply_right (W6 m ρ c) p q hq).trans <|
    congrFun (W6_arg m ρ c main_arg6 (by decide)) _

/-- Region 3's bias row: an entry below 256 is argument 5's. -/
theorem r56_left (q : Fin 512) (hq : q.val < 256) :
    (r56 m ρ c) (ix2 (0 : Fin 1) q) = (bmu m c) (ix1 (⟨q.val, hq⟩ : Fin 256)) :=
  (congrFun (Vin3_main_v56 m ρ c) _).trans <|
    (hostOps3_v56_apply (W8 m ρ c) q).trans <|
    (congrFun (W8_main_v52 m ρ c) _).trans <|
    (hostOps2_v52_apply_left (W6 m ρ c) q hq).trans <|
    congrFun (W6_arg m ρ c main_arg5 (by decide)) _

/-- Region 3's bias row: an entry from 256 on is argument 7's, 256 entries back. -/
theorem r56_right (q : Fin 512) (hq : 256 ≤ q.val) :
    (r56 m ρ c) (ix2 (0 : Fin 1) q) = (blv m c) (ix1 (⟨q.val - 256, by omega⟩ : Fin 256)) :=
  (congrFun (Vin3_main_v56 m ρ c) _).trans <|
    (hostOps3_v56_apply (W8 m ρ c) q).trans <|
    (congrFun (W8_main_v52 m ρ c) _).trans <|
    (hostOps2_v52_apply_right (W6 m ρ c) q hq).trans <|
    congrFun (W6_arg m ρ c main_arg7 (by decide)) _

/-! ## Each region's array, its inputs named -/

theorem o48_eq : (o48 m ρ c) = Spec.addRow (Spec.mm (x m c) (w1 m c)) (z47 m ρ c) :=
  (val0_3 (Vin0 m ρ) c).trans (by rw [Vin0_main_arg0, Vin0_main_arg2])

theorem o50_eq : (o50 m ρ c) = Spec.relu (Spec.addRow (Spec.mm (adjA m ρ c) (o48 m ρ c)) (r49 m ρ c)) :=
  (val1_3 (Vin1 m ρ) c).trans (by rw [Vin1_main_v45, Vin1_main_v48])

theorem o55_eq : (o55 m ρ c) = Spec.addRow (Spec.mm (o50 m ρ c) (wcat m ρ c)) (z54 m ρ c) :=
  (val2_3 (Vin2 m ρ) c).trans (by rw [Vin2_main_v50])

theorem o570_eq : (o570 m ρ c) = fun i => Spec.addRow (Spec.mm (adjA m ρ c) (o55 m ρ c)) (r56 m ρ c) (ix2 (i 0) (⟨(i 1).val, by have := idx2_lt1 i; omega⟩ : Fin 512)) :=
  (val3_4 (Vin3 m ρ) c).trans (by rw [Vin3_main_v45, Vin3_main_v55]; rfl)

theorem o571_eq : (o571 m ρ c) = fun i => Spec.addRow (Spec.mm (adjA m ρ c) (o55 m ρ c)) (r56 m ρ c) (ix2 (i 0) (⟨256 + (i 1).val, by have := idx2_lt1 i; omega⟩ : Fin 512)) :=
  (val3_5 (Vin3 m ρ) c).trans (by rw [Vin3_main_v45, Vin3_main_v55]; rfl)

theorem o572_eq : (o572 m ρ c) = fun i => (o570 m ρ c) i + (eps m c) i * Ideal.exp (Spec.half * (o571 m ρ c) i) := by
  have e4 : (o570 m ρ c) = _ := val3_4 (Vin3 m ρ) c
  have e5 : (o571 m ρ c) = _ := val3_5 (Vin3 m ρ) c
  rw [e4, e5]
  exact (val3_6 (Vin3 m ρ) c).trans (by rw [show earr3 (Vin3 m ρ) c = (eps m c) from Vin3_main_arg16 m ρ c])

theorem o59_eq : (o59 m ρ c) = fun i => (o572 m ρ c) i + max (Spec.addRow (Spec.mm (x m c) (wc m c)) (r58 m ρ c) i) 0 :=
  (val4_4 (Vin4 m ρ) c).trans (by rw [Vin4_main_v57_2, Vin4_main_arg0, Vin4_main_arg8]; rfl)

theorem o60_eq : (o60 m ρ c) = fun i => Ideal.logistic (Spec.mmT (o59 m ρ c) (o59 m ρ c) i) :=
  (val5_2 (Vin5 m ρ) c).trans (by rw [Vin5_main_v59])

theorem o62_eq : (o62 m ρ c) = Spec.addRow (Spec.mm (o572 m ρ c) (wf m c)) (r61 m ρ c) :=
  (val6_3 (Vin6 m ρ) c).trans (by rw [Vin6_main_v57_2, Vin6_main_arg10])

theorem o64_eq : (o64 m ρ c) = Spec.relu (Spec.addRow (Spec.mm (o572 m ρ c) (wl1 m c)) (r63 m ρ c)) :=
  (val7_3 (Vin7 m ρ) c).trans (by rw [Vin7_main_v57_2, Vin7_main_arg12])

theorem o66_eq : (o66 m ρ c) = Spec.addRow (Spec.mm (o64 m ρ c) (wl2 m c)) (r65 m ρ c) :=
  (val8_3 (Vin8 m ρ) c).trans (by rw [Vin8_main_v64, Vin8_main_arg14])

/-! ## All six at once -/

/-- The six result arrays are the model's functions of the arguments, given that the adjacency's array is the
    specification's dense normalised adjacency. -/
theorem all (hAdj : (adjA m ρ c) = Spec.adj (ei m c)) :
    (o570 m ρ c) = Spec.mu (x m c) (ei m c) (w1 m c) (b1 m c) (wmu m c) (bmu m c) ∧ (o571 m ρ c) = Spec.logvar (x m c) (ei m c) (w1 m c) (b1 m c) (wlv m c) (blv m c)
      ∧ (o572 m ρ c) = Spec.zz (x m c) (ei m c) (w1 m c) (b1 m c) (wmu m c) (bmu m c) (wlv m c) (blv m c) (eps m c)
      ∧ (o60 m ρ c) = Spec.apred (x m c) (ei m c) (w1 m c) (b1 m c) (wmu m c) (bmu m c) (wlv m c) (blv m c) (wc m c) (bc m c) (eps m c)
      ∧ (o62 m ρ c) = Spec.xpred (x m c) (ei m c) (w1 m c) (b1 m c) (wmu m c) (bmu m c) (wlv m c) (blv m c) (wf m c) (bf m c) (eps m c)
      ∧ (o66 m ρ c) = Spec.ylog (x m c) (ei m c) (w1 m c) (b1 m c) (wmu m c) (bmu m c) (wlv m c) (blv m c) (wl1 m c) (bl1 m c) (wl2 m c) (bl2 m c) (eps m c) :=
  Spec.chain_spec (x m c) (ei m c) (w1 m c) (b1 m c) (wmu m c) (bmu m c) (wlv m c) (blv m c) (wc m c) (bc m c) (wf m c) (bf m c) (wl1 m c) (bl1 m c) (wl2 m c) (bl2 m c) (eps m c)
    (adjA m ρ c) hAdj
    (z47 m ρ c) (z47_zero m ρ c) (o48 m ρ c) (o48_eq m ρ c)
    (r49 m ρ c) (r49_row m ρ c) (o50 m ρ c) (o50_eq m ρ c)
    (wcat m ρ c) (wcat_left m ρ c) (wcat_right m ρ c)
    (z54 m ρ c) (z54_zero m ρ c) (o55 m ρ c) (o55_eq m ρ c)
    (r56 m ρ c) (r56_left m ρ c) (r56_right m ρ c)
    (o570 m ρ c) (o571 m ρ c) (o572 m ρ c) (o570_eq m ρ c) (o571_eq m ρ c) (o572_eq m ρ c)
    (r58 m ρ c) (r58_row m ρ c) (o59 m ρ c) (o59_eq m ρ c)
    (o60 m ρ c) (o60_eq m ρ c)
    (r61 m ρ c) (r61_row m ρ c) (o62 m ρ c) (o62_eq m ρ c)
    (r63 m ρ c) (r63_row m ρ c) (o64 m ρ c) (o64_eq m ρ c)
    (r65 m ρ c) (r65_row m ρ c) (o66 m ρ c) (o66_eq m ρ c)

end Chain

/-! ## The six result arrays

Each equation is stated at the type of the buffer the result array is, so that it composes with the launch's statement
about that buffer without unfolding the pipeline's configuration. The one hypothesis is the range condition on the edge
array, under which the host-built adjacency is the specification's. -/

/-- The mean's array is the model's mean. -/
theorem out_mu (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v57_0)) ((dat3 (F := Ideal) (Vin3 m ρ) c).arrAt 4 cfg3.N)
      (Spec.mu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (Chain.all m ρ c (adjacency (W0 m ρ c) hR)).1

/-- The log-variance's array is the model's log-variance. -/
theorem out_logvar (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v57_1)) ((dat3 (F := Ideal) (Vin3 m ρ) c).arrAt 5 cfg3.N)
      (Spec.logvar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) :=
  (Chain.all m ρ c (adjacency (W0 m ρ c) hR)).2.1

/-- The latent's array is the model's reparameterised latent. -/
theorem out_zz (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v57_2)) ((dat3 (F := Ideal) (Vin3 m ρ) c).arrAt 6 cfg3.N)
      (Spec.zz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg16))) :=
  (Chain.all m ρ c (adjacency (W0 m ρ c) hR)).2.2.1

/-- The decoded adjacency's array is the model's. -/
theorem out_apred (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v60)) ((dat5 (F := Ideal) (Vin5 m ρ) c).arrAt 2 cfg5.N)
      (Spec.apred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg16))) :=
  (Chain.all m ρ c (adjacency (W0 m ρ c) hR)).2.2.2.1

/-- The decoded features' array is the model's. -/
theorem out_xpred (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v62)) ((dat6 (F := Ideal) (Vin6 m ρ) c).arrAt 3 cfg6.N)
      (Spec.xpred (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg16))) :=
  (Chain.all m ρ c (adjacency (W0 m ρ c) hR)).2.2.2.2.1

/-- The decoded labels' array is the model's. -/
theorem out_ylog (m : (ℓ : Loc nD τ sig) → Buf (Elt Ideal) ℓ) (ρ : Dev nD → PrngReg) (c : Dev nD)
    (hR : Spec.InRange (m ((c.tc : Thread nD τ).loc main_arg1))) :
    @Eq (Buf (Elt Ideal) ((c.tc : Thread nD τ).loc main_v66)) ((dat8 (F := Ideal) (Vin8 m ρ) c).arrAt 3 cfg8.N)
      (Spec.ylog (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) :=
  (Chain.all m ρ c (adjacency (W0 m ρ c) hR)).2.2.2.2.2

end Cert.KernelIdeal.Hand

end
-- ==== Proof.RefValue.lean ====
/-
  The reference program's results, each as a composition of the specification's matrix operations applied to the
  argument arrays. The program is read stage by stage, every stage a named function of the arguments:
  the edge ends, the degree, its guarded inverse square root, the edge weights; then for each graph-convolution layer
  a matrix product, the aggregate of its rows (gather at the sources, times the weight, scatter-add at the targets)
  and the bias; the reparameterised latent, the conditioned latent, and the three decoders. Under the range condition
  every index word names a node, so the wrap of negative words and the clamp of the gathers are the identity and a
  scatter lands an edge's update on the node its target names.
-/
import proofs.«416422_j54030688584368_1_alg».proof.Proof.RefRun
import proofs.«416422_j54030688584368_1_alg».proof.Proof.RefRead
import proofs.«416422_j54030688584368_1_alg».proof.Proof.Model
import proofs.«416422_j54030688584368_1_alg».proof.Proof.GraphHost
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Proof

/-! ## Indices from coordinates, and a matrix product from its entries -/

/-- A rank-1 index with coordinate `a` is `ix1 a`. -/
theorem idx1_eq {n : Nat} (f : (⟨1, ![n]⟩ : Shape).Idx) (a : Fin n) (h : (f 0).val = a.val) : f = ix1 a :=
  funext fun d => Fin.ext (by match d with | ⟨0, _⟩ => exact h)

/-- A rank-2 index with coordinates `a`, `b` is `ix2 a b`. -/
theorem idx2_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A function that is, entry by entry, the sum over `k` of `a (p, k) * b (k, q)` is the matrix product. -/
theorem mm_eq {r k c : Nat} (a : Spec.Mat r k) (b : Spec.Mat k c) (y : Spec.Mat r c)
    (l : (⟨2, ![r, c]⟩ : Shape).Idx → Fin k → (⟨2, ![r, k]⟩ : Shape).Idx)
    (rr : (⟨2, ![r, c]⟩ : Shape).Idx → Fin k → (⟨2, ![k, c]⟩ : Shape).Idx)
    (hy : ∀ i, y i = ∑ kk : Fin k, a (l i kk) * b (rr i kk))
    (hl : ∀ i kk, l i kk = ix2 (i 0 : Fin r) kk) (hr : ∀ i kk, rr i kk = ix2 kk (i 1 : Fin c)) :
    y = Spec.mm a b := by
  funext i
  rw [hy i]
  exact Finset.sum_congr rfl fun kk _ => by rw [hl, hr]; rfl

variable (x0 : (⟨S8192x512, .f32⟩ : BufTy).Contents (Elt Ideal)) (x1 : (⟨S2x262144, .i32⟩ : BufTy).Contents (Elt Ideal))
  (x2 : (⟨S512x512, .f32⟩ : BufTy).Contents (Elt Ideal)) (x3 : (⟨S512, .f32⟩ : BufTy).Contents (Elt Ideal))
  (x4 : (⟨S512x256, .f32⟩ : BufTy).Contents (Elt Ideal)) (x5 : (⟨S256, .f32⟩ : BufTy).Contents (Elt Ideal))
  (x6 : (⟨S512x256, .f32⟩ : BufTy).Contents (Elt Ideal)) (x7 : (⟨S256, .f32⟩ : BufTy).Contents (Elt Ideal))
  (x8 : (⟨S512x256, .f32⟩ : BufTy).Contents (Elt Ideal)) (x9 : (⟨S256, .f32⟩ : BufTy).Contents (Elt Ideal))
  (x10 : (⟨S256x512, .f32⟩ : BufTy).Contents (Elt Ideal)) (x11 : (⟨S512, .f32⟩ : BufTy).Contents (Elt Ideal))
  (x12 : (⟨S256x512, .f32⟩ : BufTy).Contents (Elt Ideal)) (x13 : (⟨S512, .f32⟩ : BufTy).Contents (Elt Ideal))
  (x14 : (⟨S512x16, .f32⟩ : BufTy).Contents (Elt Ideal)) (x15 : (⟨S16, .f32⟩ : BufTy).Contents (Elt Ideal))
  (x16 : (⟨S8192x256, .f32⟩ : BufTy).Contents (Elt Ideal))

/-! ## The edge ends (%3 the sources, %6 the targets) and their columns -/

/-- The sources at edge `e`. -/
theorem src_apply (e : Fin 270336) : val_main_v3 (F := Ideal) x1 (ix1 e) = Spec.endW x1 0 e := by
  unfold val_main_v3 val_main_v2 val_main_v1 val_main_v0
  exact GraphHost.ends_apply x1 0 ![0, 0] rfl rfl _ _ _ e

/-- The targets at edge `e`. -/
theorem dst_apply (e : Fin 270336) : val_main_v6 (F := Ideal) x1 (ix1 e) = Spec.endW x1 1 e := by
  unfold val_main_v6 val_main_v5 val_main_v4 val_main_v0
  exact GraphHost.ends_apply x1 1 ![1, 0] rfl rfl _ _ _ e

/-- The wrapped sources as a column (%20, for the first entry gather). -/
theorem col20 (hR : Spec.InRange x1) (e : Fin 270336) :
    val_main_v20 (F := Ideal) x1 (ix2 e (0 : Fin 1)) = Spec.endW x1 0 e := by
  unfold val_main_v20 val_main_v19 val_main_v16 val_main_v18
  exact GraphHost.wrapCol_apply x1 hR 0 _ (val_main_v3 (F := Ideal) x1) (val_main_v15 (F := Ideal))
    (val_main_v17 (F := Ideal)) (src_apply x1) (fun j => by rw [val_main_v15_apply, val_main_c_apply])
    (fun j => by rw [val_main_v17_apply, val_main_c_3_apply]) e

/-- The wrapped targets as a column (%27, for the second entry gather). -/
theorem col27 (hR : Spec.InRange x1) (e : Fin 270336) :
    val_main_v27 (F := Ideal) x1 (ix2 e (0 : Fin 1)) = Spec.endW x1 1 e := by
  unfold val_main_v27 val_main_v26 val_main_v23 val_main_v25
  exact GraphHost.wrapCol_apply x1 hR 1 _ (val_main_v6 (F := Ideal) x1) (val_main_v22 (F := Ideal))
    (val_main_v24 (F := Ideal)) (dst_apply x1) (fun j => by rw [val_main_v22_apply, val_main_c_4_apply])
    (fun j => by rw [val_main_v24_apply, val_main_c_5_apply]) e

/-- The wrapped sources as a column (%37, for the first layer's row gather). -/
theorem col37 (hR : Spec.InRange x1) (e : Fin 270336) :
    val_main_v37 (F := Ideal) x1 (ix2 e (0 : Fin 1)) = Spec.endW x1 0 e := by
  unfold val_main_v37 val_main_v36 val_main_v33 val_main_v35
  exact GraphHost.wrapCol_apply x1 hR 0 _ (val_main_v3 (F := Ideal) x1) (val_main_v32 (F := Ideal))
    (val_main_v34 (F := Ideal)) (src_apply x1) (fun j => by rw [val_main_v32_apply, val_main_c_6_apply])
    (fun j => by rw [val_main_v34_apply, val_main_c_7_apply]) e

/-- The wrapped sources as a column (%54, for the mean's row gather). -/
theorem col54 (hR : Spec.InRange x1) (e : Fin 270336) :
    val_main_v54 (F := Ideal) x1 (ix2 e (0 : Fin 1)) = Spec.endW x1 0 e := by
  unfold val_main_v54 val_main_v53 val_main_v50 val_main_v52
  exact GraphHost.wrapCol_apply x1 hR 0 _ (val_main_v3 (F := Ideal) x1) (val_main_v49 (F := Ideal))
    (val_main_v51 (F := Ideal)) (src_apply x1) (fun j => by rw [val_main_v49_apply, val_main_c_9_apply])
    (fun j => by rw [val_main_v51_apply, val_main_c_10_apply]) e

/-- The wrapped sources as a column (%70, for the log-variance's row gather). -/
theorem col70 (hR : Spec.InRange x1) (e : Fin 270336) :
    val_main_v70 (F := Ideal) x1 (ix2 e (0 : Fin 1)) = Spec.endW x1 0 e := by
  unfold val_main_v70 val_main_v69 val_main_v66 val_main_v68
  exact GraphHost.wrapCol_apply x1 hR 0 _ (val_main_v3 (F := Ideal) x1) (val_main_v65 (F := Ideal))
    (val_main_v67 (F := Ideal)) (src_apply x1) (fun j => by rw [val_main_v65_apply, val_main_c_12_apply])
    (fun j => by rw [val_main_v67_apply, val_main_c_13_apply]) e

/-- The targets as a column (%9, for the degree's scatter). -/
theorem col9 (e : Fin 270336) : val_main_v9 (F := Ideal) x1 (ix2 e (0 : Fin 1)) = Spec.endW x1 1 e := by
  unfold val_main_v9
  exact (GraphHost.col_apply _ _ e).trans (dst_apply x1 e)

/-- The targets as a column (%42, for the first layer's scatter). -/
theorem col42 (e : Fin 270336) : val_main_v42 (F := Ideal) x1 (ix2 e (0 : Fin 1)) = Spec.endW x1 1 e := by
  unfold val_main_v42
  exact (GraphHost.col_apply _ _ e).trans (dst_apply x1 e)

/-- The targets as a column (%59, for the mean's scatter). -/
theorem col59 (e : Fin 270336) : val_main_v59 (F := Ideal) x1 (ix2 e (0 : Fin 1)) = Spec.endW x1 1 e := by
  unfold val_main_v59
  exact (GraphHost.col_apply _ _ e).trans (dst_apply x1 e)

/-- The targets as a column (%75, for the log-variance's scatter). -/
theorem col75 (e : Fin 270336) : val_main_v75 (F := Ideal) x1 (ix2 e (0 : Fin 1)) = Spec.endW x1 1 e := by
  unfold val_main_v75
  exact (GraphHost.col_apply _ _ e).trans (dst_apply x1 e)

/-! ## The arrays of zeros -/

theorem zero_v8 (i : S8192.Idx) : val_main_v8 (F := Ideal) i = 0 := by
  rw [val_main_v8_apply, val_main_cst_0_apply]; exact Ideal.ofBits_zero_f32

theorem zero_v11 (i : S8192.Idx) : val_main_v11 (F := Ideal) i = 0 := by
  rw [val_main_v11_apply, val_main_cst_1_apply]; exact Ideal.ofBits_zero_f32

theorem zero_call0_v1 (i : S8192.Idx) : val_main_call0_v1 (F := Ideal) i = 0 := by
  rw [val_main_call0_v1_apply, val_main_call0_v0_apply, val_main_cst_2_apply]; exact Ideal.ofBits_zero_f32

theorem zero_v41 (i : S8192x512.Idx) : val_main_v41 (F := Ideal) i = 0 := by
  rw [val_main_v41_apply, val_main_cst_8_apply]; exact Ideal.ofBits_zero_f32

theorem zero_v58 (i : S8192x256.Idx) : val_main_v58 (F := Ideal) i = 0 := by
  rw [val_main_v58_apply, val_main_cst_11_apply]; exact Ideal.ofBits_zero_f32

theorem zero_v74 (i : S8192x256.Idx) : val_main_v74 (F := Ideal) i = 0 := by
  rw [val_main_v74_apply, val_main_cst_14_apply]; exact Ideal.ofBits_zero_f32

theorem zero_call1_v0 (i : S8192x512.Idx) : val_main_call1_v0 (F := Ideal) i = 0 := by
  rw [val_main_call1_v0_apply, val_main_call1_cst_apply]; exact Ideal.ofBits_zero_f32

theorem zero_call2_v0 (i : S8192x256.Idx) : val_main_call2_v0 (F := Ideal) i = 0 := by
  rw [val_main_call2_v0_apply, val_main_call2_cst_apply]; exact Ideal.ofBits_zero_f32

theorem zero_call3_v0 (i : S8192x512.Idx) : val_main_call3_v0 (F := Ideal) i = 0 := by
  rw [val_main_call3_v0_apply, val_main_call3_cst_apply]; exact Ideal.ofBits_zero_f32

/-! ## The degree (%10), its guarded inverse square root (%14) and the edge weights (%29) -/

/-- The degree at node `i`: ones scattered at the targets into zeros. -/
theorem deg10 (hR : Spec.InRange x1) (i : Fin 8192) : val_main_v10 (F := Ideal) x1 (ix1 i) = Spec.deg x1 i := by
  unfold val_main_v10
  refine GraphHost.deg_apply x1 hR _ (val_main_v8 (F := Ideal)) (val_main_v9 (F := Ideal) x1) (val_main_v7 (F := Ideal))
    zero_v8 (col9 x1) (fun j => ?_) i
  rw [val_main_v7_apply, val_main_cst_apply]
  exact Ideal.ofBits_one_f32

/-- The guarded inverse square root of the degree at node `i`. -/
theorem dinv14 (hR : Spec.InRange x1) (i : Fin 8192) : val_main_v14 (F := Ideal) x1 (ix1 i) = Spec.dinv x1 i := by
  rw [val_main_v14_apply, val_main_v12_apply, val_main_v13_apply, zero_call0_v1, zero_v11, deg10 x1 hR i,
    Ideal.cmpf_def, Ideal.hostUnary_rsqrt_def, GraphHost.dinv_word]
  rfl

/-- The inverse square root at the source of edge `e` (%21). -/
theorem dinv21 (hR : Spec.InRange x1) (e : Fin 270336) :
    val_main_v21 (F := Ideal) x1 (ix1 e) = Spec.dinv x1 (Spec.endOf x1 0 e) := by
  unfold val_main_v21
  exact (GraphHost.gath1_apply x1 0 _ (val_main_v14 (F := Ideal) x1) (val_main_v20 (F := Ideal) x1) (col20 x1 hR) e).trans
    (dinv14 x1 hR _)

/-- The inverse square root at the target of edge `e` (%28). -/
theorem dinv28 (hR : Spec.InRange x1) (e : Fin 270336) :
    val_main_v28 (F := Ideal) x1 (ix1 e) = Spec.dinv x1 (Spec.endOf x1 1 e) := by
  unfold val_main_v28
  exact (GraphHost.gath1_apply x1 1 _ (val_main_v14 (F := Ideal) x1) (val_main_v27 (F := Ideal) x1) (col27 x1 hR) e).trans
    (dinv14 x1 hR _)

/-- The weight of edge `e` (%29), as a column (%30). -/
theorem nrm30 (hR : Spec.InRange x1) (e : Fin 270336) :
    val_main_v30 (F := Ideal) x1 (ix2 e (0 : Fin 1)) = Spec.nrm x1 e := by
  unfold val_main_v30
  refine (GraphHost.col_apply _ _ e).trans ?_
  rw [val_main_v29_apply, dinv21 x1 hR e, dinv28 x1 hR e]
  rfl

/-- The weights along the rows of width 512 (%39). -/
theorem nrm39 (hR : Spec.InRange x1) (e : Fin 270336) (q : Fin 512) :
    val_main_v39 (F := Ideal) x1 (ix2 e q) = Spec.nrm x1 e := by
  rw [val_main_v39_apply, idx2_eq (idx_main_v39 (ix2 e q)) e (0 : Fin 1) rfl rfl, nrm30 x1 hR e]

/-- The weights along the rows of width 256 (%56). -/
theorem nrm56 (hR : Spec.InRange x1) (e : Fin 270336) (q : Fin 256) :
    val_main_v56 (F := Ideal) x1 (ix2 e q) = Spec.nrm x1 e := by
  rw [val_main_v56_apply, idx2_eq (idx_main_v56 (ix2 e q)) e (0 : Fin 1) rfl rfl, nrm30 x1 hR e]

/-- The weights along the rows of width 256 (%72). -/
theorem nrm72 (hR : Spec.InRange x1) (e : Fin 270336) (q : Fin 256) :
    val_main_v72 (F := Ideal) x1 (ix2 e q) = Spec.nrm x1 e := by
  rw [val_main_v72_apply, idx2_eq (idx_main_v72 (ix2 e q)) e (0 : Fin 1) rfl rfl, nrm30 x1 hR e]

/-! ## The biases, each broadcast down the rows -/

theorem bias45 (i : S8192x512.Idx) : val_main_v45 (F := Ideal) x3 i = x3 (ix1 (i 1 : Fin 512)) := by
  rw [val_main_v45_apply, val_main_v44_apply]; exact congrArg x3 (idx1_eq _ _ rfl)

theorem bias62 (i : S8192x256.Idx) : val_main_v62 (F := Ideal) x5 i = x5 (ix1 (i 1 : Fin 256)) := by
  rw [val_main_v62_apply, val_main_v61_apply]; exact congrArg x5 (idx1_eq _ _ rfl)

theorem bias78 (i : S8192x256.Idx) : val_main_v78 (F := Ideal) x7 i = x7 (ix1 (i 1 : Fin 256)) := by
  rw [val_main_v78_apply, val_main_v77_apply]; exact congrArg x7 (idx1_eq _ _ rfl)

theorem bias87 (i : S8192x256.Idx) : val_main_v87 (F := Ideal) x9 i = x9 (ix1 (i 1 : Fin 256)) := by
  rw [val_main_v87_apply, val_main_v86_apply]; exact congrArg x9 (idx1_eq _ _ rfl)

theorem bias101 (i : S8192x512.Idx) : val_main_v101 (F := Ideal) x11 i = x11 (ix1 (i 1 : Fin 512)) := by
  rw [val_main_v101_apply, val_main_v100_apply]; exact congrArg x11 (idx1_eq _ _ rfl)

theorem bias105 (i : S8192x512.Idx) : val_main_v105 (F := Ideal) x13 i = x13 (ix1 (i 1 : Fin 512)) := by
  rw [val_main_v105_apply, val_main_v104_apply]; exact congrArg x13 (idx1_eq _ _ rfl)

theorem bias110 (i : S8192x16.Idx) : val_main_v110 (F := Ideal) x15 i = x15 (ix1 (i 1 : Fin 16)) := by
  rw [val_main_v110_apply, val_main_v109_apply]; exact congrArg x15 (idx1_eq _ _ rfl)

/-! ## The first layer: `h1 = relu (agg (x W1) + b1)` (%47) -/

/-- The product `x W1` (%31). -/
theorem mm31 : val_main_v31 (F := Ideal) x0 x2 = Spec.mm x0 x2 :=
  mm_eq x0 x2 (val_main_v31 (F := Ideal) x0 x2) lidx_main_v31 ridx_main_v31 (val_main_v31_apply x0 x2)
    (fun _ _ => idx2_eq _ _ _ rfl rfl) (fun _ _ => idx2_eq _ _ _ rfl rfl)

/-- Its aggregate (%43): gather at the sources, times the weight, scatter-add at the targets. -/
theorem agg43 (hR : Spec.InRange x1) :
    val_main_v43 (F := Ideal) x0 x1 x2 = Spec.agg x1 (val_main_v31 (F := Ideal) x0 x2) := by
  unfold val_main_v43 val_main_v40 val_main_v38
  exact GraphHost.agg_apply x1 hR _ _ (val_main_v31 (F := Ideal) x0 x2) (val_main_v41 (F := Ideal))
    (val_main_v37 (F := Ideal) x1) (val_main_v42 (F := Ideal) x1) (val_main_v39 (F := Ideal) x1)
    zero_v41 (col37 x1 hR) (col42 x1) (nrm39 x1 hR)

/-- THE FIRST LAYER. -/
theorem h1_eq (hR : Spec.InRange x1) : val_main_v47 (F := Ideal) x0 x1 x2 x3 = Spec.h1 x0 x1 x2 x3 := by
  funext i
  rw [val_main_v47_apply, val_main_v46_apply, agg43 x0 x1 x2 hR, mm31 x0 x2, bias45, zero_call1_v0]
  rfl

/-! ## The latent mean (%63) and log-variance (%79) -/

/-- The product `h1 Wmu` (%48). -/
theorem mm48 : val_main_v48 (F := Ideal) x0 x1 x2 x3 x4 = Spec.mm (val_main_v47 (F := Ideal) x0 x1 x2 x3) x4 :=
  mm_eq (val_main_v47 (F := Ideal) x0 x1 x2 x3) x4 (val_main_v48 (F := Ideal) x0 x1 x2 x3 x4) lidx_main_v48 ridx_main_v48
    (val_main_v48_apply x0 x1 x2 x3 x4) (fun _ _ => idx2_eq _ _ _ rfl rfl) (fun _ _ => idx2_eq _ _ _ rfl rfl)

/-- Its aggregate (%60). -/
theorem agg60 (hR : Spec.InRange x1) :
    val_main_v60 (F := Ideal) x0 x1 x2 x3 x4 = Spec.agg x1 (val_main_v48 (F := Ideal) x0 x1 x2 x3 x4) := by
  unfold val_main_v60 val_main_v57 val_main_v55
  exact GraphHost.agg_apply x1 hR _ _ (val_main_v48 (F := Ideal) x0 x1 x2 x3 x4) (val_main_v58 (F := Ideal))
    (val_main_v54 (F := Ideal) x1) (val_main_v59 (F := Ideal) x1) (val_main_v56 (F := Ideal) x1)
    zero_v58 (col54 x1 hR) (col59 x1) (nrm56 x1 hR)

/-- THE LATENT MEAN. -/
theorem mu_eq (hR : Spec.InRange x1) : val_main_v63 (F := Ideal) x0 x1 x2 x3 x4 x5 = Spec.mu x0 x1 x2 x3 x4 x5 := by
  funext i
  rw [val_main_v63_apply, agg60 x0 x1 x2 x3 x4 hR, mm48 x0 x1 x2 x3 x4, h1_eq x0 x1 x2 x3 hR, bias62]
  rfl

/-- The product `h1 Wlv` (%64). -/
theorem mm64 : val_main_v64 (F := Ideal) x0 x1 x2 x3 x6 = Spec.mm (val_main_v47 (F := Ideal) x0 x1 x2 x3) x6 :=
  mm_eq (val_main_v47 (F := Ideal) x0 x1 x2 x3) x6 (val_main_v64 (F := Ideal) x0 x1 x2 x3 x6) lidx_main_v64 ridx_main_v64
    (val_main_v64_apply x0 x1 x2 x3 x6) (fun _ _ => idx2_eq _ _ _ rfl rfl) (fun _ _ => idx2_eq _ _ _ rfl rfl)

/-- Its aggregate (%76). -/
theorem agg76 (hR : Spec.InRange x1) :
    val_main_v76 (F := Ideal) x0 x1 x2 x3 x6 = Spec.agg x1 (val_main_v64 (F := Ideal) x0 x1 x2 x3 x6) := by
  unfold val_main_v76 val_main_v73 val_main_v71
  exact GraphHost.agg_apply x1 hR _ _ (val_main_v64 (F := Ideal) x0 x1 x2 x3 x6) (val_main_v74 (F := Ideal))
    (val_main_v70 (F := Ideal) x1) (val_main_v75 (F := Ideal) x1) (val_main_v72 (F := Ideal) x1)
    zero_v74 (col70 x1 hR) (col75 x1) (nrm72 x1 hR)

/-- THE LATENT LOG-VARIANCE. -/
theorem logvar_eq (hR : Spec.InRange x1) :
    val_main_v79 (F := Ideal) x0 x1 x2 x3 x6 x7 = Spec.logvar x0 x1 x2 x3 x6 x7 := by
  funext i
  rw [val_main_v79_apply, agg76 x0 x1 x2 x3 x6 hR, mm64 x0 x1 x2 x3 x6, h1_eq x0 x1 x2 x3 hR, bias78]
  rfl

/-! ## The reparameterised latent (%84) and the conditioned latent (%90) -/

/-- THE REPARAMETERISED LATENT: `mu + eps * exp (logvar / 2)`. -/
theorem z_eq (hR : Spec.InRange x1) :
    val_main_v84 (F := Ideal) x0 x1 x2 x3 x4 x5 x6 x7 x16 = Spec.zz x0 x1 x2 x3 x4 x5 x6 x7 x16 := by
  funext i
  rw [val_main_v84_apply, val_main_v83_apply, val_main_v82_apply, val_main_v81_apply, val_main_v80_apply,
    val_main_cst_15_apply, mu_eq x0 x1 x2 x3 x4 x5 hR, logvar_eq x0 x1 x2 x3 x6 x7 hR]
  unfold Spec.zz Spec.half
  simp only [Ideal.addf_def, Ideal.mulf_def, Ideal.hostUnary_exp_def, Ideal.ofBits_def]

/-- The product `x Wc` (%85). -/
theorem mm85 : val_main_v85 (F := Ideal) x0 x8 = Spec.mm x0 x8 :=
  mm_eq x0 x8 (val_main_v85 (F := Ideal) x0 x8) lidx_main_v85 ridx_main_v85 (val_main_v85_apply x0 x8)
    (fun _ _ => idx2_eq _ _ _ rfl rfl) (fun _ _ => idx2_eq _ _ _ rfl rfl)

/-- The conditioned latent: `z + relu (x Wc + bc)`. -/
theorem hd_eq (hR : Spec.InRange x1) :
    val_main_v90 (F := Ideal) x0 x1 x2 x3 x4 x5 x6 x7 x8 x9 x16 = Spec.hd x0 x1 x2 x3 x4 x5 x6 x7 x8 x9 x16 := by
  funext i
  rw [val_main_v90_apply, z_eq x0 x1 x2 x3 x4 x5 x6 x7 x16 hR, val_main_v89_apply, val_main_v88_apply, mm85 x0 x8,
    bias87, zero_call2_v0]
  rfl

/-! ## The decoders -/

/-- The product of the conditioned latent with its transpose (%92). -/
theorem gram92 (hR : Spec.InRange x1) :
    val_main_v92 (F := Ideal) x0 x1 x2 x3 x4 x5 x6 x7 x8 x9 x16
      = Spec.mmT (Spec.hd x0 x1 x2 x3 x4 x5 x6 x7 x8 x9 x16) (Spec.hd x0 x1 x2 x3 x4 x5 x6 x7 x8 x9 x16) := by
  funext i
  rw [val_main_v92_apply]
  refine Finset.sum_congr rfl fun k _ => ?_
  rw [val_main_v91_apply, hd_eq x0 x1 x2 x3 x4 x5 x6 x7 x8 x9 x16 hR,
    idx2_eq (lidx_main_v92 i k) (i 0 : Fin 8192) k rfl rfl,
    idx2_eq (idx_main_v91 (ridx_main_v92 i k)) (i 1 : Fin 8192) k rfl rfl]

/-- THE DECODED ADJACENCY: the logistic function of the product of the conditioned latent with its transpose. -/
theorem apred_eq (hR : Spec.InRange x1) :
    val_main_v98 (F := Ideal) x0 x1 x2 x3 x4 x5 x6 x7 x8 x9 x16 = Spec.apred x0 x1 x2 x3 x4 x5 x6 x7 x8 x9 x16 := by
  funext i
  rw [val_main_v98_apply, val_main_v97_apply, val_main_cst_17_apply, val_main_v96_apply, val_main_v95_apply,
    val_main_cst_16_apply, val_main_v94_apply, val_main_v93_apply, gram92 x0 x1 x2 x3 x4 x5 x6 x7 x8 x9 x16 hR]
  unfold Spec.apred Spec.logistic
  simp only [Ideal.hostDivf_def, Ideal.addf_def, Ideal.hostUnary_exp_def, Ideal.hostNegf_def, Ideal.negf_def,
    Ideal.ofBits_def, Ideal.ofBits_one_f32]

/-- The product `z Wf` (%99). -/
theorem mm99 : val_main_v99 (F := Ideal) x0 x1 x2 x3 x4 x5 x6 x7 x10 x16
    = Spec.mm (val_main_v84 (F := Ideal) x0 x1 x2 x3 x4 x5 x6 x7 x16) x10 :=
  mm_eq (val_main_v84 (F := Ideal) x0 x1 x2 x3 x4 x5 x6 x7 x16) x10
    (val_main_v99 (F := Ideal) x0 x1 x2 x3 x4 x5 x6 x7 x10 x16) lidx_main_v99 ridx_main_v99
    (val_main_v99_apply x0 x1 x2 x3 x4 x5 x6 x7 x10 x16) (fun _ _ => idx2_eq _ _ _ rfl rfl) (fun _ _ => idx2_eq _ _ _ rfl rfl)

/-- THE DECODED FEATURES: `z Wf + bf`. -/
theorem xpred_eq (hR : Spec.InRange x1) :
    val_main_v102 (F := Ideal) x0 x1 x2 x3 x4 x5 x6 x7 x10 x11 x16 = Spec.xpred x0 x1 x2 x3 x4 x5 x6 x7 x10 x11 x16 := by
  funext i
  rw [val_main_v102_apply, mm99 x0 x1 x2 x3 x4 x5 x6 x7 x10 x16, z_eq x0 x1 x2 x3 x4 x5 x6 x7 x16 hR, bias101]
  rfl

/-- The product `z Wl1` (%103). -/
theorem mm103 : val_main_v103 (F := Ideal) x0 x1 x2 x3 x4 x5 x6 x7 x12 x16
    = Spec.mm (val_main_v84 (F := Ideal) x0 x1 x2 x3 x4 x5 x6 x7 x16) x12 :=
  mm_eq (val_main_v84 (F := Ideal) x0 x1 x2 x3 x4 x5 x6 x7 x16) x12
    (val_main_v103 (F := Ideal) x0 x1 x2 x3 x4 x5 x6 x7 x12 x16) lidx_main_v103 ridx_main_v103
    (val_main_v103_apply x0 x1 x2 x3 x4 x5 x6 x7 x12 x16) (fun _ _ => idx2_eq _ _ _ rfl rfl) (fun _ _ => idx2_eq _ _ _ rfl rfl)

/-- The hidden layer of the label decoder: `relu (z Wl1 + bl1)` (%107). -/
theorem hidden107 (hR : Spec.InRange x1) :
    val_main_v107 (F := Ideal) x0 x1 x2 x3 x4 x5 x6 x7 x12 x13 x16
      = Spec.relu (Spec.addV (Spec.mm (Spec.zz x0 x1 x2 x3 x4 x5 x6 x7 x16) x12) x13) := by
  funext i
  rw [val_main_v107_apply, val_main_v106_apply, mm103 x0 x1 x2 x3 x4 x5 x6 x7 x12 x16,
    z_eq x0 x1 x2 x3 x4 x5 x6 x7 x16 hR, bias105, zero_call3_v0]
  rfl

/-- The product of the hidden layer with `Wl2` (%108). -/
theorem mm108 : val_main_v108 (F := Ideal) x0 x1 x2 x3 x4 x5 x6 x7 x12 x13 x14 x16
    = Spec.mm (val_main_v107 (F := Ideal) x0 x1 x2 x3 x4 x5 x6 x7 x12 x13 x16) x14 :=
  mm_eq (val_main_v107 (F := Ideal) x0 x1 x2 x3 x4 x5 x6 x7 x12 x13 x16) x14
    (val_main_v108 (F := Ideal) x0 x1 x2 x3 x4 x5 x6 x7 x12 x13 x14 x16) lidx_main_v108 ridx_main_v108
    (val_main_v108_apply x0 x1 x2 x3 x4 x5 x6 x7 x12 x13 x14 x16) (fun _ _ => idx2_eq _ _ _ rfl rfl)
    (fun _ _ => idx2_eq _ _ _ rfl rfl)

/-- THE DECODED LABELS: `relu (z Wl1 + bl1) Wl2 + bl2`. -/
theorem ylog_eq (hR : Spec.InRange x1) :
    val_main_v111 (F := Ideal) x0 x1 x2 x3 x4 x5 x6 x7 x12 x13 x14 x15 x16
      = Spec.ylog x0 x1 x2 x3 x4 x5 x6 x7 x12 x13 x14 x15 x16 := by
  funext i
  rw [val_main_v111_apply, mm108 x0 x1 x2 x3 x4 x5 x6 x7 x12 x13 x14 x16,
    hidden107 x0 x1 x2 x3 x4 x5 x6 x7 x12 x13 x16 hR, bias110]
  rfl

end Cert.ReferenceIdeal.RefValue

end
-- ==== Proof.PreFacts.lean ====
/-
  The precondition decoded. The printed predicate is a conjunction, taken over all seventeen arguments, of
  "every entry has finite magnitude" for each floating-point array and, last, "every index word w of the edge array
  satisfies 0 ≤ w < 8192, read signed". The predicate's value is one bit; the claim's hypothesis says that bit is 1.
  A conjunction of bits is 1 exactly when both are, an all-reduction by conjunction that came out 1 met a 1 at every
  index, and a signed comparison bit that is 1 is the signed inequality of the words it compares. Reading the last
  conjunct in this way gives the range fact the adjacency law rests on: every index word names a node.
-/
import proofs.«416422_j54030688584368_1_alg».proof.Pre_finite_inputs
import proofs.«416422_j54030688584368_1_alg».proof.Proof.Graph
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

/-- The predicate's value has one index. -/
instance : Subsingleton S_.Idx := ⟨fun a b => funext fun d => d.elim0⟩

variable [Cert.Pre_finite_inputs.Facts]

variable (a0 : FVec Ideal S8192x512 .f32) (a1 : IVec S2x262144 32) (a2 : FVec Ideal S512x512 .f32)
  (a3 : FVec Ideal S512 .f32) (a4 : FVec Ideal S512x256 .f32) (a5 : FVec Ideal S256 .f32)
  (a6 : FVec Ideal S512x256 .f32) (a7 : FVec Ideal S256 .f32) (a8 : FVec Ideal S512x256 .f32)
  (a9 : FVec Ideal S256 .f32) (a10 : FVec Ideal S256x512 .f32) (a11 : FVec Ideal S512 .f32)
  (a12 : FVec Ideal S256x512 .f32) (a13 : FVec Ideal S512 .f32) (a14 : FVec Ideal S512x16 .f32)
  (a15 : FVec Ideal S16 .f32) (a16 : FVec Ideal S8192x256 .f32)

/-- The last conjunct read back: where the predicate is all ones, every index word of the edge array lies in
    `[0, 8192)` as a signed value. The outer conjunction gives the all-reduction's bit; the all-reduction gives the
    bit at index `j`; that bit is the conjunction of `0 ≤ w` and `w < 8192` at the word `w = a1 j`. -/
theorem inRange_of_pre
    (h : fn (F := Ideal) a0 a1 a2 a3 a4 a5 a6 a7 a8 a9 a10 a11 a12 a13 a14 a15 a16 = fun _ => 1#1) :
    Cert.Spec.InRange a1 := by
  intro j
  have e := congrFun h ix0
  dsimp only [fn, fn_part1, fn_part2, fn_part3, fn_part4, fn_part5] at e
  have e2 := (IntOp.andi_eq_one.1 e).2
  have e3 := Host.reduce_andi_all _ _ _ _ _ e2 j
  obtain ⟨h0, h8⟩ := IntOp.andi_eq_one.1 e3
  exact ⟨IntOp.cmpi_sge.1 h0, IntOp.cmpi_slt.1 h8⟩

end Cert.PreFacts

end
-- ==== Proof.lean ====
/-
  The certificate of the graph variational auto-encoder: five conjuncts.
  Three say that each program — the kernel as printed, the kernel read over the extended reals, the reference read
  over the extended reals — runs to the end from any memory that meets the precondition and leaves its seventeen
  argument arrays as it found them. One says the reading over the extended reals rewrote nothing. The last says that,
  over the extended reals and from memories that agree on the arguments, the kernel and the reference end with the
  same six arrays: the latent mean, the latent log-variance, the reparameterised latent, the decoded adjacency, the
  decoded features and the decoded labels.
  Both sides are shown to compute ONE composition of sums, products, a rectifier, an exponential and a logistic
  function of the arguments (the model), and so each other. The kernel multiplies by the dense normalised adjacency,
  the reference gathers along the edges, weighs and sums by target node; the law that joins them is that the product
  of the dense normalised adjacency with a matrix is the edge-wise aggregate of that matrix. It holds when every index
  word of the edge array names a node, which is what the precondition's last conjunct says; below that fact is read
  off the precondition once and handed to both sides.
-/
import proofs.«416422_j54030688584368_1_alg».proof.Defs
import proofs.«416422_j54030688584368_1_alg».proof.Proof.Gen.Kernel
import proofs.«416422_j54030688584368_1_alg».proof.Proof.Gen.KernelIdeal
import proofs.«416422_j54030688584368_1_alg».proof.Proof.Gen.ReferenceIdeal
import proofs.«416422_j54030688584368_1_alg».proof.Proof.Gen.Pre_finite_inputs
import proofs.«416422_j54030688584368_1_alg».proof.Proof.KI.Run
import proofs.«416422_j54030688584368_1_alg».proof.Proof.KB.Run
import proofs.«416422_j54030688584368_1_alg».proof.Proof.KI.Chain
import proofs.«416422_j54030688584368_1_alg».proof.Proof.RefRun
import proofs.«416422_j54030688584368_1_alg».proof.Proof.RefRead
import proofs.«416422_j54030688584368_1_alg».proof.Proof.RefValue
import proofs.«416422_j54030688584368_1_alg».proof.Proof.Model
import proofs.«416422_j54030688584368_1_alg».proof.Proof.PreFacts

noncomputable section

/-! ## The reference's six results as the model's functions, from arguments equal to given ones -/

namespace Cert.ReferenceIdeal.RefValue

open Cert.ReferenceIdeal Cert.ReferenceIdeal.Read Idealize.ShloMosaic

variable {x0 y0 : (⟨S8192x512, .f32⟩ : BufTy).Contents (Elt Ideal)} {x1 y1 : (⟨S2x262144, .i32⟩ : BufTy).Contents (Elt Ideal)}
  {x2 y2 : (⟨S512x512, .f32⟩ : BufTy).Contents (Elt Ideal)} {x3 y3 : (⟨S512, .f32⟩ : BufTy).Contents (Elt Ideal)}
  {x4 y4 : (⟨S512x256, .f32⟩ : BufTy).Contents (Elt Ideal)} {x5 y5 : (⟨S256, .f32⟩ : BufTy).Contents (Elt Ideal)}
  {x6 y6 : (⟨S512x256, .f32⟩ : BufTy).Contents (Elt Ideal)} {x7 y7 : (⟨S256, .f32⟩ : BufTy).Contents (Elt Ideal)}
  {x8 y8 : (⟨S512x256, .f32⟩ : BufTy).Contents (Elt Ideal)} {x9 y9 : (⟨S256, .f32⟩ : BufTy).Contents (Elt Ideal)}
  {x10 y10 : (⟨S256x512, .f32⟩ : BufTy).Contents (Elt Ideal)} {x11 y11 : (⟨S512, .f32⟩ : BufTy).Contents (Elt Ideal)}
  {x12 y12 : (⟨S256x512, .f32⟩ : BufTy).Contents (Elt Ideal)} {x13 y13 : (⟨S512, .f32⟩ : BufTy).Contents (Elt Ideal)}
  {x14 y14 : (⟨S512x16, .f32⟩ : BufTy).Contents (Elt Ideal)} {x15 y15 : (⟨S16, .f32⟩ : BufTy).Contents (Elt Ideal)}
  {x16 y16 : (⟨S8192x256, .f32⟩ : BufTy).Contents (Elt Ideal)}

/-- The reference's latent mean of arguments y, each equal to the matching x, is the model's latent mean of the x. -/
theorem mu_of (e0 : y0 = x0) (e1 : y1 = x1) (e2 : y2 = x2) (e3 : y3 = x3) (e4 : y4 = x4) (e5 : y5 = x5)
    (hR : Cert.Spec.InRange x1) :
    val_main_v63 (F := Ideal) y0 y1 y2 y3 y4 y5 = Cert.Spec.mu x0 x1 x2 x3 x4 x5 := by
  subst e0 e1 e2 e3 e4 e5; exact mu_eq _ _ _ _ _ _ hR

/-- Likewise the latent log-variance. -/
theorem logvar_of (e0 : y0 = x0) (e1 : y1 = x1) (e2 : y2 = x2) (e3 : y3 = x3) (e6 : y6 = x6) (e7 : y7 = x7)
    (hR : Cert.Spec.InRange x1) :
    val_main_v79 (F := Ideal) y0 y1 y2 y3 y6 y7 = Cert.Spec.logvar x0 x1 x2 x3 x6 x7 := by
  subst e0 e1 e2 e3 e6 e7; exact logvar_eq _ _ _ _ _ _ hR

/-- Likewise the reparameterised latent. -/
theorem zz_of (e0 : y0 = x0) (e1 : y1 = x1) (e2 : y2 = x2) (e3 : y3 = x3) (e4 : y4 = x4) (e5 : y5 = x5)
    (e6 : y6 = x6) (e7 : y7 = x7) (e16 : y16 = x16) (hR : Cert.Spec.InRange x1) :
    val_main_v84 (F := Ideal) y0 y1 y2 y3 y4 y5 y6 y7 y16 = Cert.Spec.zz x0 x1 x2 x3 x4 x5 x6 x7 x16 := by
  subst e0 e1 e2 e3 e4 e5 e6 e7 e16; exact z_eq _ _ _ _ _ _ _ _ _ hR

/-- Likewise the decoded adjacency. -/
theorem apred_of (e0 : y0 = x0) (e1 : y1 = x1) (e2 : y2 = x2) (e3 : y3 = x3) (e4 : y4 = x4) (e5 : y5 = x5)
    (e6 : y6 = x6) (e7 : y7 = x7) (e8 : y8 = x8) (e9 : y9 = x9) (e16 : y16 = x16) (hR : Cert.Spec.InRange x1) :
    val_main_v98 (F := Ideal) y0 y1 y2 y3 y4 y5 y6 y7 y8 y9 y16
      = Cert.Spec.apred x0 x1 x2 x3 x4 x5 x6 x7 x8 x9 x16 := by
  subst e0 e1 e2 e3 e4 e5 e6 e7 e8 e9 e16; exact apred_eq _ _ _ _ _ _ _ _ _ _ _ hR

/-- Likewise the decoded features. -/
theorem xpred_of (e0 : y0 = x0) (e1 : y1 = x1) (e2 : y2 = x2) (e3 : y3 = x3) (e4 : y4 = x4) (e5 : y5 = x5)
    (e6 : y6 = x6) (e7 : y7 = x7) (e10 : y10 = x10) (e11 : y11 = x11) (e16 : y16 = x16)
    (hR : Cert.Spec.InRange x1) :
    val_main_v102 (F := Ideal) y0 y1 y2 y3 y4 y5 y6 y7 y10 y11 y16
      = Cert.Spec.xpred x0 x1 x2 x3 x4 x5 x6 x7 x10 x11 x16 := by
  subst e0 e1 e2 e3 e4 e5 e6 e7 e10 e11 e16; exact xpred_eq _ _ _ _ _ _ _ _ _ _ _ hR

/-- Likewise the decoded labels. -/
theorem ylog_of (e0 : y0 = x0) (e1 : y1 = x1) (e2 : y2 = x2) (e3 : y3 = x3) (e4 : y4 = x4) (e5 : y5 = x5)
    (e6 : y6 = x6) (e7 : y7 = x7) (e12 : y12 = x12) (e13 : y13 = x13) (e14 : y14 = x14) (e15 : y15 = x15)
    (e16 : y16 = x16) (hR : Cert.Spec.InRange x1) :
    val_main_v111 (F := Ideal) y0 y1 y2 y3 y4 y5 y6 y7 y12 y13 y14 y15 y16
      = Cert.Spec.ylog x0 x1 x2 x3 x4 x5 x6 x7 x12 x13 x14 x15 x16 := by
  subst e0 e1 e2 e3 e4 e5 e6 e7 e12 e13 e14 e15 e16; exact ylog_eq _ _ _ _ _ _ _ _ _ _ _ _ _ hR

end Cert.ReferenceIdeal.RefValue

/-! ## The claims -/

namespace Cert.Proof

open Idealize.ShloMosaic Idealize.SL.Sem
open Cert.ReferenceIdeal.Read Cert.ReferenceIdeal.RefValue Cert.KernelIdeal.Hand

/-- The kernel as printed runs and leaves its arguments: its run's post without the six results. -/
theorem frame_k : Cert.frame_Kernel := fun m ρ _ =>
  (θ_run Cert.Kernel.defs _ _).mono (fun _ h c => (h c).2.2.2.2.2.2) (Cert.Kernel.Hand.run_main (F := Bits) m ρ)

/-- The same of the kernel read over the extended reals. -/
theorem frame_ki : Cert.frame_KernelIdeal := fun m ρ _ =>
  (θ_run Cert.KernelIdeal.defs _ _).mono (fun _ h c => (h c).2.2.2.2.2.2) (run_main (F := Ideal) m ρ)

/-- The same of the reference. -/
theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- The reading over the extended reals rewrote no operation. -/
theorem preserves : Cert.preserves_Kernel_KernelIdeal := trivial

open Cert.KernelIdeal in
/-- Over the extended reals both programs end with the model's six arrays of the kernel's arguments: the kernel by
    its run and the region-by-region values, the reference by its run read as the model of its own arguments, which
    are the kernel's. Every index word names a node (the fact hR, read off the precondition), which both sides use. -/
theorem algebraic : Cert.algebraic_KernelIdeal_ReferenceIdeal := by
  intro m ρ m' ρ' hpre hagree
  have hR := fun c => Cert.PreFacts.inRange_of_pre _ _ _ _ _ _ _ _ _ _ _ _ _ _ _ _ _ (hpre c)
  refine ⟨
    fun c => Cert.Spec.mu (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)),
    fun c => Cert.Spec.logvar (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg6)) (m ((c.tc : Thread nD τ).loc main_arg7)),
    fun c => Cert.Spec.zz (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg16)),
    fun c => Cert.Spec.apred (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg16)),
    fun c => Cert.Spec.xpred (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg10)) (m ((c.tc : Thread nD τ).loc main_arg11))
      (m ((c.tc : Thread nD τ).loc main_arg16)),
    fun c => Cert.Spec.ylog (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg12)) (m ((c.tc : Thread nD τ).loc main_arg13))
      (m ((c.tc : Thread nD τ).loc main_arg14)) (m ((c.tc : Thread nD τ).loc main_arg15))
      (m ((c.tc : Thread nD τ).loc main_arg16)), ?_, ?_⟩
  · refine (θ_run Cert.KernelIdeal.defs _ _).mono (fun _ h c => ?_) (run_main (F := Ideal) m ρ)
    obtain ⟨h0, h1, h2, h3, h4, h5, hargs⟩ := h c
    exact ⟨h0.trans (out_mu m ρ c (hR c)), h1.trans (out_logvar m ρ c (hR c)), h2.trans (out_zz m ρ c (hR c)),
      h3.trans (out_apred m ρ c (hR c)), h4.trans (out_xpred m ρ c (hR c)), h5.trans (out_ylog m ρ c (hR c)), hargs⟩
  · refine (θ_run Cert.ReferenceIdeal.defs _ _).mono (fun _ h c => ?_)
      (Cert.ReferenceIdeal.Value.run (F := Ideal) m' ρ')
    obtain ⟨h0, h1, h2, h3, h4, h5, hargs⟩ := h c
    obtain ⟨e0, e1, e2, e3, e4, e5, e6, e7, e8, e9, e10, e11, e12, e13, e14, e15, e16⟩ := hagree c
    exact ⟨h0.trans ((val_main_v63_eq m' c).trans (mu_of e0 e1 e2 e3 e4 e5 (hR c))),
      h1.trans ((val_main_v79_eq m' c).trans (logvar_of e0 e1 e2 e3 e6 e7 (hR c))),
      h2.trans ((val_main_v84_eq m' c).trans (zz_of e0 e1 e2 e3 e4 e5 e6 e7 e16 (hR c))),
      h3.trans ((val_main_v98_eq m' c).trans (apred_of e0 e1 e2 e3 e4 e5 e6 e7 e8 e9 e16 (hR c))),
      h4.trans ((val_main_v102_eq m' c).trans (xpred_of e0 e1 e2 e3 e4 e5 e6 e7 e10 e11 e16 (hR c))),
      h5.trans ((val_main_v111_eq m' c).trans (ylog_of e0 e1 e2 e3 e4 e5 e6 e7 e12 e13 e14 e15 e16 (hR c))),
      hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
